-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x256 : Shape := ⟨3, ![16, 2048, 256]⟩
abbrev S256x1024 : Shape := ⟨2, ![256, 1024]⟩
abbrev S1x1024 : Shape := ⟨2, ![1, 1024]⟩
abbrev S1024x128 : Shape := ⟨2, ![1024, 128]⟩
abbrev S1x128 : Shape := ⟨2, ![1, 128]⟩
abbrev S8x128 : Shape := ⟨2, ![8, 128]⟩
abbrev S_ : Shape := ⟨0, ![]⟩

class Facts : Prop where
  bcast_S_S16x2048x256 : S_.BroadcastsInDim S16x2048x256 (![] : Fin 0 → Fin S16x2048x256.rank)
  reducesTo_S16x2048x256_S_d0_1_2 : S16x2048x256.ReducesTo [0, 1, 2] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x128 : S_.BroadcastsInDim S1024x128 (![] : Fin 0 → Fin S1024x128.rank)
  reducesTo_S1024x128_S_d0_1 : S1024x128.ReducesTo [0, 1] S_
  bcast_S_S1x128 : S_.BroadcastsInDim S1x128 (![] : Fin 0 → Fin S1x128.rank)
  reducesTo_S1x128_S_d0_1 : S1x128.ReducesTo [0, 1] S_
  bcast_S_S8x128 : S_.BroadcastsInDim S8x128 (![] : Fin 0 → Fin S8x128.rank)
  reducesTo_S8x128_S_d0_1 : S8x128.ReducesTo [0, 1] S_

variable [Facts]

def fn_part3 {F : FTy → Type} [FloatOps F] (main_arg11 : FVec F S8x128 .f32) (main_arg12 : FVec F S8x128 .f32) (main_v48 : IVec S_ 1) (main_v49 : FVec F S8x128 .f32) (main_v50 : FVec F S8x128 .f32) : IVec S_ 1 :=
  let main_v51 : IVec S8x128 1 := cmpf .olt main_v49 main_v50
  let main_c_19 : IVec S_ 1 := constantI S_ 1 1#1
  let main_v52 : IVec S_ 1 := (fun x v => Host.reduce IntOp.andi x v reducesTo_S8x128_S_d0_1 h_S_) main_v51 main_c_19
  let main_v53 : IVec S_ 1 := andi main_v48 main_v52
  let main_v54 : FVec F S8x128 .f32 := Host.absf main_arg11
  let main_cst_20 : FVec F S_ .f32 := constant S_ .f32 0x7F800000#32
  let main_v55 : FVec F S8x128 .f32 := broadcastInDim S8x128 ![] bcast_S_S8x128 main_cst_20
  let main_v56 : IVec S8x128 1 := cmpf .olt main_v54 main_v55
  let main_c_21 : IVec S_ 1 := constantI S_ 1 1#1
  let main_v57 : IVec S_ 1 := (fun x v => Host.reduce IntOp.andi x v reducesTo_S8x128_S_d0_1 h_S_) main_v56 main_c_21
  let main_v58 : IVec S_ 1 := andi main_v53 main_v57
  let main_v59 : FVec F S8x128 .f32 := Host.absf main_arg12
  let main_cst_22 : FVec F S_ .f32 := constant S_ .f32 0x7F800000#32
  let main_v60 : FVec F S8x128 .f32 := broadcastInDim S8x128 ![] bcast_S_S8x128 main_cst_22
  let main_v61 : IVec S8x128 1 := cmpf .olt main_v59 main_v60
  let main_c_23 : IVec S_ 1 := constantI S_ 1 1#1
  let main_v62 : IVec S_ 1 := (fun x v => Host.reduce IntOp.andi x v reducesTo_S8x128_S_d0_1 h_S_) main_v61 main_c_23
  let main_v63 : IVec S_ 1 := andi main_v58 main_v62
  main_v63

def fn_part2 {F : FTy → Type} [FloatOps F] (main_arg7 : FVec F S1024x128 .f32) (main_arg8 : FVec F S1x128 .f32) (main_arg9 : FVec F S8x128 .f32) (main_arg10 : FVec F S8x128 .f32) (main_arg11 : FVec F S8x128 .f32) (main_arg12 : FVec F S8x128 .f32) (main_v33 : IVec S_ 1) : IVec S_ 1 :=
  let main_v34 : FVec F S1024x128 .f32 := Host.absf main_arg7
  let main_cst_12 : FVec F S_ .f32 := constant S_ .f32 0x7F800000#32
  let main_v35 : FVec F S1024x128 .f32 := broadcastInDim S1024x128 ![] bcast_S_S1024x128 main_cst_12
  let main_v36 : IVec S1024x128 1 := cmpf .olt main_v34 main_v35
  let main_c_13 : IVec S_ 1 := constantI S_ 1 1#1
  let main_v37 : IVec S_ 1 := (fun x v => Host.reduce IntOp.andi x v reducesTo_S1024x128_S_d0_1 h_S_) main_v36 main_c_13
  let main_v38 : IVec S_ 1 := andi main_v33 main_v37
  let main_v39 : FVec F S1x128 .f32 := Host.absf main_arg8
  let main_cst_14 : FVec F S_ .f32 := constant S_ .f32 0x7F800000#32
  let main_v40 : FVec F S1x128 .f32 := broadcastInDim S1x128 ![] bcast_S_S1x128 main_cst_14
  let main_v41 : IVec S1x128 1 := cmpf .olt main_v39 main_v40
  let main_c_15 : IVec S_ 1 := constantI S_ 1 1#1
  let main_v42 : IVec S_ 1 := (fun x v => Host.reduce IntOp.andi x v reducesTo_S1x128_S_d0_1 h_S_) main_v41 main_c_15
  let main_v43 : IVec S_ 1 := andi main_v38 main_v42
  let main_v44 : FVec F S8x128 .f32 := Host.absf main_arg9
  let main_cst_16 : FVec F S_ .f32 := constant S_ .f32 0x7F800000#32
  let main_v45 : FVec F S8x128 .f32 := broadcastInDim S8x128 ![] bcast_S_S8x128 main_cst_16
  let main_v46 : IVec S8x128 1 := cmpf .olt main_v44 main_v45
  let main_c_17 : IVec S_ 1 := constantI S_ 1 1#1
  let main_v47 : IVec S_ 1 := (fun x v => Host.reduce IntOp.andi x v reducesTo_S8x128_S_d0_1 h_S_) main_v46 main_c_17
  let main_v48 : IVec S_ 1 := andi main_v43 main_v47
  let main_v49 : FVec F S8x128 .f32 := Host.absf main_arg10
  let main_cst_18 : FVec F S_ .f32 := constant S_ .f32 0x7F800000#32
  let main_v50 : FVec F S8x128 .f32 := broadcastInDim S8x128 ![] bcast_S_S8x128 main_cst_18
  fn_part3 (F := F) main_arg11 main_arg12 main_v48 main_v49 main_v50

def fn_part1 {F : FTy → Type} [FloatOps F] (main_arg4 : FVec F S1x1024 .f32) (main_arg5 : FVec F S256x1024 .f32) (main_arg6 : FVec F S1x1024 .f32) (main_arg7 : FVec F S1024x128 .f32) (main_arg8 : FVec F S1x128 .f32) (main_arg9 : FVec F S8x128 .f32) (main_arg10 : FVec F S8x128 .f32) (main_arg11 : FVec F S8x128 .f32) (main_arg12 : FVec F S8x128 .f32) (main_v13 : IVec S_ 1) (main_v16 : IVec S256x1024 1) : IVec S_ 1 :=
  let main_c_5 : IVec S_ 1 := constantI S_ 1 1#1
  let main_v17 : IVec S_ 1 := (fun x v => Host.reduce IntOp.andi x v reducesTo_S256x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S256x1024 .f32 := Host.absf main_arg5
  let main_cst_8 : FVec F S_ .f32 := constant S_ .f32 0x7F800000#32
  let main_v25 : FVec F S256x1024 .f32 := broadcastInDim S256x1024 ![] bcast_S_S256x1024 main_cst_8
  let main_v26 : IVec S256x1024 1 := cmpf .olt main_v24 main_v25
  let main_c_9 : IVec S_ 1 := constantI S_ 1 1#1
  let main_v27 : IVec S_ 1 := (fun x v => Host.reduce IntOp.andi x v reducesTo_S256x1024_S_d0_1 h_S_) main_v26 main_c_9
  let main_v28 : IVec S_ 1 := andi main_v23 main_v27
  let main_v29 : FVec F S1x1024 .f32 := Host.absf main_arg6
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S16x2048x256 .f32) (main_arg1 : FVec F S256x1024 .f32) (main_arg2 : FVec F S1x1024 .f32) (main_arg3 : FVec F S256x1024 .f32) (main_arg4 : FVec F S1x1024 .f32) (main_arg5 : FVec F S256x1024 .f32) (main_arg6 : FVec F S1x1024 .f32) (main_arg7 : FVec F S1024x128 .f32) (main_arg8 : FVec F S1x128 .f32) (main_arg9 : FVec F S8x128 .f32) (main_arg10 : FVec F S8x128 .f32) (main_arg11 : FVec F S8x128 .f32) (main_arg12 : FVec F S8x128 .f32) : IVec S_ 1 :=
  let main_v0 : FVec F S16x2048x256 .f32 := Host.absf main_arg0
  let main_cst : FVec F S_ .f32 := constant S_ .f32 0x7F800000#32
  let main_v1 : FVec F S16x2048x256 .f32 := broadcastInDim S16x2048x256 ![] bcast_S_S16x2048x256 main_cst
  let main_v2 : IVec S16x2048x256 1 := cmpf .olt main_v0 main_v1
  let main_c : IVec S_ 1 := constantI S_ 1 1#1
  let main_v3 : IVec S_ 1 := (fun x v => Host.reduce IntOp.andi x v reducesTo_S16x2048x256_S_d0_1_2 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S256x1024 .f32 := Host.absf main_arg3
  let main_cst_4 : FVec F S_ .f32 := constant S_ .f32 0x7F800000#32
  let main_v15 : FVec F S256x1024 .f32 := broadcastInDim S256x1024 ![] bcast_S_S256x1024 main_cst_4
  let main_v16 : IVec S256x1024 1 := cmpf .olt main_v14 main_v15
  fn_part1 (F := F) main_arg4 main_arg5 main_arg6 main_arg7 main_arg8 main_arg9 main_arg10 main_arg11 main_arg12 main_v13 main_v16
-- ==== Kernel.lean ====
abbrev S16x2048x256 : Shape := ⟨3, ![16, 2048, 256]⟩
abbrev S256x1024 : Shape := ⟨2, ![256, 1024]⟩
abbrev S1x1024 : Shape := ⟨2, ![1, 1024]⟩
abbrev S1024x128 : Shape := ⟨2, ![1024, 128]⟩
abbrev S1x128 : Shape := ⟨2, ![1, 128]⟩
abbrev S8x128 : Shape := ⟨2, ![8, 128]⟩
abbrev S256x2048 : Shape := ⟨2, ![256, 2048]⟩
abbrev S1x2048 : Shape := ⟨2, ![1, 2048]⟩
abbrev S16x2048x128 : Shape := ⟨3, ![16, 2048, 128]⟩
abbrev S1x2048x256 : Shape := ⟨3, ![1, 2048, 256]⟩
abbrev S1x2048x128 : Shape := ⟨3, ![1, 2048, 128]⟩
abbrev S2048x256 : Shape := ⟨2, ![2048, 256]⟩
abbrev S2048x2048 : Shape := ⟨2, ![2048, 2048]⟩
abbrev S2048x128 : Shape := ⟨2, ![2048, 128]⟩
abbrev S2048 : Shape := ⟨1, ![2048]⟩
abbrev S2048x1 : Shape := ⟨2, ![2048, 1]⟩
abbrev S128x128 : Shape := ⟨2, ![128, 128]⟩
abbrev S256x128 : Shape := ⟨2, ![256, 128]⟩

abbrev nBuf : Space → Nat
  | .hbm => 16
  | .vmem => 14
  | .smem => 0
  | _ => 0

abbrev bufTy : (tb : Table) → Fin (tcTables nBuf tb) → BufTy
  | .hbm, ⟨0, _⟩ => ⟨S16x2048x256, .f32⟩
  | .hbm, ⟨1, _⟩ => ⟨S256x1024, .f32⟩
  | .hbm, ⟨2, _⟩ => ⟨S1x1024, .f32⟩
  | .hbm, ⟨3, _⟩ => ⟨S256x1024, .f32⟩
  | .hbm, ⟨4, _⟩ => ⟨S1x1024, .f32⟩
  | .hbm, ⟨5, _⟩ => ⟨S256x1024, .f32⟩
  | .hbm, ⟨6, _⟩ => ⟨S1x1024, .f32⟩
  | .hbm, ⟨7, _⟩ => ⟨S1024x128, .f32⟩
  | .hbm, ⟨8, _⟩ => ⟨S1x128, .f32⟩
  | .hbm, ⟨9, _⟩ => ⟨S8x128, .f32⟩
  | .hbm, ⟨10, _⟩ => ⟨S8x128, .f32⟩
  | .hbm, ⟨11, _⟩ => ⟨S8x128, .f32⟩
  | .hbm, ⟨12, _⟩ => ⟨S8x128, .f32⟩
  | .hbm, ⟨13, _⟩ => ⟨S256x2048, .f32⟩
  | .hbm, ⟨14, _⟩ => ⟨S1x2048, .f32⟩
  | .hbm, ⟨15, _⟩ => ⟨S16x2048x128, .f32⟩
  | .local _ .vmem, ⟨0, _⟩ => ⟨S1x2048x256, .f32⟩
  | .local _ .vmem, ⟨1, _⟩ => ⟨S1x2048x256, .f32⟩
  | .local _ .vmem, ⟨2, _⟩ => ⟨S256x2048, .f32⟩
  | .local _ .vmem, ⟨3, _⟩ => ⟨S1x2048, .f32⟩
  | .local _ .vmem, ⟨4, _⟩ => ⟨S256x1024, .f32⟩
  | .local _ .vmem, ⟨5, _⟩ => ⟨S1x1024, .f32⟩
  | .local _ .vmem, ⟨6, _⟩ => ⟨S1024x128, .f32⟩
  | .local _ .vmem, ⟨7, _⟩ => ⟨S1x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S1x2048x128, .f32⟩
  | .local _ .vmem, ⟨13, _⟩ => ⟨S1x2048x128, .f32⟩
  | _, _ => ⟨S16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  concatenates_S256x1024_S256x1024_S256x2048_d1 : Shape.Concatenates [S256x1024, S256x1024] S256x2048 1
  concatenates_S1x1024_S1x1024_S1x2048_d1 : Shape.Concatenates [S1x1024, S1x1024] S1x2048 1
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S2048x2048 : S1x2048.Broadcasts S2048x2048
  slices_S2048x2048_o0_0_S2048x128 : S2048x2048.Slices ![0, 0] S2048x128
  inb_S8x128_S1x128_0_0 : ∀ a, (![0, 0] : Fin 2 → Nat) a + S1x128.size a ≤ S8x128.size a
  h_S1x128 : 0 < S1x128.numel
  reduces_S2048x128_S2048 : S2048x128.Reduces [1] S2048
  shapeCasts_S2048_S2048x1 : S2048.ShapeCasts S2048x1
  broadcasts_S2048x1_S2048x128 : S2048x1.Broadcasts S2048x128
  broadcasts_S1x128_S2048x128 : S1x128.Broadcasts S2048x128
  slices_S2048x2048_o0_1024_S2048x128 : S2048x2048.Slices ![0, 1024] S2048x128
  inb_S1024x128_S128x128_0_0 : ∀ a, (![0, 0] : Fin 2 → Nat) a + S128x128.size a ≤ S1024x128.size a
  h_S128x128 : 0 < S128x128.numel
  slices_S2048x2048_o0_128_S2048x128 : S2048x2048.Slices ![0, 128] S2048x128
  inb_S8x128_S1x128_1_0 : ∀ a, (![1, 0] : Fin 2 → Nat) a + S1x128.size a ≤ S8x128.size a
  slices_S2048x2048_o0_1152_S2048x128 : S2048x2048.Slices ![0, 1152] S2048x128
  inb_S1024x128_S128x128_128_0 : ∀ a, (![128, 0] : Fin 2 → Nat) a + S128x128.size a ≤ S1024x128.size a
  slices_S2048x2048_o0_256_S2048x128 : S2048x2048.Slices ![0, 256] S2048x128
  inb_S8x128_S1x128_2_0 : ∀ a, (![2, 0] : Fin 2 → Nat) a + S1x128.size a ≤ S8x128.size a
  slices_S2048x2048_o0_1280_S2048x128 : S2048x2048.Slices ![0, 1280] S2048x128
  inb_S1024x128_S128x128_256_0 : ∀ a, (![256, 0] : Fin 2 → Nat) a + S128x128.size a ≤ S1024x128.size a
  slices_S2048x2048_o0_384_S2048x128 : S2048x2048.Slices ![0, 384] S2048x128
  inb_S8x128_S1x128_3_0 : ∀ a, (![3, 0] : Fin 2 → Nat) a + S1x128.size a ≤ S8x128.size a
  slices_S2048x2048_o0_1408_S2048x128 : S2048x2048.Slices ![0, 1408] S2048x128
  inb_S1024x128_S128x128_384_0 : ∀ a, (![384, 0] : Fin 2 → Nat) a + S128x128.size a ≤ S1024x128.size a
  slices_S2048x2048_o0_512_S2048x128 : S2048x2048.Slices ![0, 512] S2048x128
  inb_S8x128_S1x128_4_0 : ∀ a, (![4, 0] : Fin 2 → Nat) a + S1x128.size a ≤ S8x128.size a
  slices_S2048x2048_o0_1536_S2048x128 : S2048x2048.Slices ![0, 1536] S2048x128
  inb_S1024x128_S128x128_512_0 : ∀ a, (![512, 0] : Fin 2 → Nat) a + S128x128.size a ≤ S1024x128.size a
  slices_S2048x2048_o0_640_S2048x128 : S2048x2048.Slices ![0, 640] S2048x128
  inb_S8x128_S1x128_5_0 : ∀ a, (![5, 0] : Fin 2 → Nat) a + S1x128.size a ≤ S8x128.size a
  slices_S2048x2048_o0_1664_S2048x128 : S2048x2048.Slices ![0, 1664] S2048x128
  inb_S1024x128_S128x128_640_0 : ∀ a, (![640, 0] : Fin 2 → Nat) a + S128x128.size a ≤ S1024x128.size a
  slices_S2048x2048_o0_768_S2048x128 : S2048x2048.Slices ![0, 768] S2048x128
  inb_S8x128_S1x128_6_0 : ∀ a, (![6, 0] : Fin 2 → Nat) a + S1x128.size a ≤ S8x128.size a
  slices_S2048x2048_o0_1792_S2048x128 : S2048x2048.Slices ![0, 1792] S2048x128
  inb_S1024x128_S128x128_768_0 : ∀ a, (![768, 0] : Fin 2 → Nat) a + S128x128.size a ≤ S1024x128.size a
  slices_S2048x2048_o0_896_S2048x128 : S2048x2048.Slices ![0, 896] S2048x128
  inb_S8x128_S1x128_7_0 : ∀ a, (![7, 0] : Fin 2 → Nat) a + S1x128.size a ≤ S8x128.size a
  slices_S2048x2048_o0_1920_S2048x128 : S2048x2048.Slices ![0, 1920] S2048x128
  inb_S1024x128_S128x128_896_0 : ∀ a, (![896, 0] : Fin 2 → Nat) a + S128x128.size a ≤ S1024x128.size a
  concatenates_S128x128_S128x128_S128x128_S128x128_S128x128_S128x128_S128x128_S128x128_S1024x128_d0 : Shape.Concatenates [S128x128, S128x128, S128x128, S128x128, S128x128, S128x128, S128x128, S128x128] S1024x128 0
  inb_S256x1024_S256x1024_0_0 : ∀ a, (![0, 0] : Fin 2 → Nat) a + S256x1024.size a ≤ S256x1024.size a
  h_S256x1024 : 0 < S256x1024.numel
  inb_S1x1024_S1x1024_0_0 : ∀ a, (![0, 0] : Fin 2 → Nat) a + S1x1024.size a ≤ S1x1024.size a
  h_S1x1024 : 0 < S1x1024.numel
  inb_S1x128_S1x128_0_0 : ∀ a, (![0, 0] : Fin 2 → Nat) a + S1x128.size a ≤ S1x128.size a
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  shapeCasts_S2048x128_S1x2048x128 : S2048x128.ShapeCasts S1x2048x128
  dot_S2048x256_S256x2048_S2048x2048_1_0_0_1_n_n_wf : DotDims.WF S2048x256 S256x2048 S2048x2048 [1] [0] [0] [1] [] []
  dot_S2048x128_S2048x128_S128x128_0_0_1_1_n_n_wf : DotDims.WF S2048x128 S2048x128 S128x128 [0] [0] [1] [1] [] []
  dot_S128x128_S128x128_S128x128_1_0_0_1_n_n_wf : DotDims.WF S128x128 S128x128 S128x128 [1] [0] [0] [1] [] []
  dot_S256x1024_S1024x128_S256x128_1_0_0_1_n_n_wf : DotDims.WF S256x1024 S1024x128 S256x128 [1] [0] [0] [1] [] []
  dot_S1x1024_S1024x128_S1x128_1_0_0_1_n_n_wf : DotDims.WF S1x1024 S1024x128 S1x128 [1] [0] [0] [1] [] []
  dot_S2048x256_S256x128_S2048x128_1_0_0_1_n_n_wf : DotDims.WF S2048x256 S256x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S16x2048x256.size a
  hwx0_0 : ∀ i : grid0.Coords, EltTy.bits .f32 = 32 ∨ (Rect.block (s := S16x2048x256) S1x2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S256x2048.size a
  hwx0_1 : ∀ i : grid0.Coords, EltTy.bits .f32 = 32 ∨ (Rect.block (s := S256x2048) S256x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S256x1024.size a
  hwx0_3 : ∀ i : grid0.Coords, EltTy.bits .f32 = 32 ∨ (Rect.block (s := S256x1024) S256x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S1024x128.size a
  hwx0_5 : ∀ i : grid0.Coords, EltTy.bits .f32 = 32 ∨ (Rect.block (s := S1024x128) S1024x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x128.size a ≤ S8x128.size a
  hwx0_7 : ∀ i : grid0.Coords, EltTy.bits .f32 = 32 ∨ (Rect.block (s := S8x128) S8x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S8x128.size a ≤ S8x128.size a
  hwx0_8 : ∀ i : grid0.Coords, EltTy.bits .f32 = 32 ∨ (Rect.block (s := S8x128) S8x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S8x128.size a ≤ S8x128.size a
  hwx0_9 : ∀ i : grid0.Coords, EltTy.bits .f32 = 32 ∨ (Rect.block (s := S8x128) S8x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S8x128.size a ≤ S8x128.size a
  hwx0_10 : ∀ i : grid0.Coords, EltTy.bits .f32 = 32 ∨ (Rect.block (s := S8x128) S8x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x2048x128.size a ≤ S16x2048x128.size a
  hwx0_11 : ∀ i : grid0.Coords, EltTy.bits .f32 = 32 ∨ (Rect.block (s := S16x2048x128) S1x2048x128.size (cc0_transform_11 i) (hinb0_11 i)).WholeWords (EltTy.packing .f32)

variable [Facts₀]

def dot_S2048x256_S256x2048_S2048x2048_1_0_0_1_n_n : DotDims S2048x256 S256x2048 S2048x2048 where
  lhsContracting := [1]
  rhsContracting := [0]
  lhsNonContracting := [0]
  rhsNonContracting := [1]
  lhsBatch := []
  rhsBatch := []
  wf := dot_S2048x256_S256x2048_S2048x2048_1_0_0_1_n_n_wf
def dot_S2048x128_S2048x128_S128x128_0_0_1_1_n_n : DotDims S2048x128 S2048x128 S128x128 where
  lhsContracting := [0]
  rhsContracting := [0]
  lhsNonContracting := [1]
  rhsNonContracting := [1]
  lhsBatch := []
  rhsBatch := []
  wf := dot_S2048x128_S2048x128_S128x128_0_0_1_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S256x1024_S1024x128_S256x128_1_0_0_1_n_n : DotDims S256x1024 S1024x128 S256x128 where
  lhsContracting := [1]
  rhsContracting := [0]
  lhsNonContracting := [0]
  rhsNonContracting := [1]
  lhsBatch := []
  rhsBatch := []
  wf := dot_S256x1024_S1024x128_S256x128_1_0_0_1_n_n_wf
def dot_S1x1024_S1024x128_S1x128_1_0_0_1_n_n : DotDims S1x1024 S1024x128 S1x128 where
  lhsContracting := [1]
  rhsContracting := [0]
  lhsNonContracting := [0]
  rhsNonContracting := [1]
  lhsBatch := []
  rhsBatch := []
  wf := dot_S1x1024_S1024x128_S1x128_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S256x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S1024x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S8x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S8x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S8x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg12) S8x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v2) S1x2048x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S16x2048x256 : Shape := ⟨3, ![16, 2048, 256]⟩
abbrev S256x1024 : Shape := ⟨2, ![256, 1024]⟩
abbrev S1x1024 : Shape := ⟨2, ![1, 1024]⟩
abbrev S1024x128 : Shape := ⟨2, ![1024, 128]⟩
abbrev S1x128 : Shape := ⟨2, ![1, 128]⟩
abbrev S8x128 : Shape := ⟨2, ![8, 128]⟩
abbrev S16x8x128x128 : Shape := ⟨4, ![16, 8, 128, 128]⟩
abbrev S1x512x256 : Shape := ⟨3, ![1, 512, 256]⟩
abbrev S1x8x128x128 : Shape := ⟨4, ![1, 8, 128, 128]⟩
abbrev S512x256 : Shape := ⟨2, ![512, 256]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S1x1x128x128 : Shape := ⟨4, ![1, 1, 128, 128]⟩
abbrev S128x128 : Shape := ⟨2, ![128, 128]⟩
abbrev S16x2048x128 : Shape := ⟨3, ![16, 2048, 128]⟩
abbrev S1x512x128 : Shape := ⟨3, ![1, 512, 128]⟩

abbrev nBuf : Space → Nat
  | .hbm => 15
  | .vmem => 22
  | .smem => 0
  | _ => 0

abbrev bufTy : (tb : Table) → Fin (tcTables nBuf tb) → BufTy
  | .hbm, ⟨0, _⟩ => ⟨S16x2048x256, .f32⟩
  | .hbm, ⟨1, _⟩ => ⟨S256x1024, .f32⟩
  | .hbm, ⟨2, _⟩ => ⟨S1x1024, .f32⟩
  | .hbm, ⟨3, _⟩ => ⟨S256x1024, .f32⟩
  | .hbm, ⟨4, _⟩ => ⟨S1x1024, .f32⟩
  | .hbm, ⟨5, _⟩ => ⟨S256x1024, .f32⟩
  | .hbm, ⟨6, _⟩ => ⟨S1x1024, .f32⟩
  | .hbm, ⟨7, _⟩ => ⟨S1024x128, .f32⟩
  | .hbm, ⟨8, _⟩ => ⟨S1x128, .f32⟩
  | .hbm, ⟨9, _⟩ => ⟨S8x128, .f32⟩
  | .hbm, ⟨10, _⟩ => ⟨S8x128, .f32⟩
  | .hbm, ⟨11, _⟩ => ⟨S8x128, .f32⟩
  | .hbm, ⟨12, _⟩ => ⟨S8x128, .f32⟩
  | .hbm, ⟨13, _⟩ => ⟨S16x8x128x128, .f32⟩
  | .hbm, ⟨14, _⟩ => ⟨S16x2048x128, .f32⟩
  | .local _ .vmem, ⟨0, _⟩ => ⟨S1x512x256, .f32⟩
  | .local _ .vmem, ⟨1, _⟩ => ⟨S1x512x256, .f32⟩
  | .local _ .vmem, ⟨2, _⟩ => ⟨S256x1024, .f32⟩
  | .local _ .vmem, ⟨3, _⟩ => ⟨S1x1024, .f32⟩
  | .local _ .vmem, ⟨4, _⟩ => ⟨S256x1024, .f32⟩
  | .local _ .vmem, ⟨5, _⟩ => ⟨S1x1024, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S1x8x128x128, .f32⟩
  | .local _ .vmem, ⟨11, _⟩ => ⟨S1x8x128x128, .f32⟩
  | .local _ .vmem, ⟨12, _⟩ => ⟨S1x512x256, .f32⟩
  | .local _ .vmem, ⟨13, _⟩ => ⟨S1x512x256, .f32⟩
  | .local _ .vmem, ⟨14, _⟩ => ⟨S1x8x128x128, .f32⟩
  | .local _ .vmem, ⟨15, _⟩ => ⟨S1x8x128x128, .f32⟩
  | .local _ .vmem, ⟨16, _⟩ => ⟨S256x1024, .f32⟩
  | .local _ .vmem, ⟨17, _⟩ => ⟨S1x1024, .f32⟩
  | .local _ .vmem, ⟨18, _⟩ => ⟨S1024x128, .f32⟩
  | .local _ .vmem, ⟨19, _⟩ => ⟨S1x128, .f32⟩
  | .local _ .vmem, ⟨20, _⟩ => ⟨S1x512x128, .f32⟩
  | .local _ .vmem, ⟨21, _⟩ => ⟨S1x512x128, .f32⟩
  | _, _ => ⟨S16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x8x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev grid1 : Pipeline.Grid := ⟨2, ![16, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x8x128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S256x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1024x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x512x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  inb_S1x8x128x128_S1x8x128x128_0_0_0_0 : ∀ a, (![0, 0, 0, 0] : Fin 4 → Nat) a + S1x8x128x128.size a ≤ S1x8x128x128.size a
  h_S1x8x128x128 : 0 < S1x8x128x128.numel
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  inb_S256x1024_S256x1024_0_0 : ∀ a, (![0, 0] : Fin 2 → Nat) a + S256x1024.size a ≤ S256x1024.size a
  h_S256x1024 : 0 < S256x1024.numel
  inb_S1x1024_S1x1024_0_0 : ∀ a, (![0, 0] : Fin 2 → Nat) a + S1x1024.size a ≤ S1x1024.size a
  h_S1x1024 : 0 < S1x1024.numel
  broadcasts_S1x1024_S512x1024 : S1x1024.Broadcasts S512x1024
  slices_S512x1024_o0_0_S512x128 : S512x1024.Slices ![0, 0] S512x128
  inb_S8x128_S1x128_0_0 : ∀ a, (![0, 0] : Fin 2 → Nat) a + S1x128.size a ≤ S8x128.size a
  h_S1x128 : 0 < S1x128.numel
  reduces_S512x128_S512 : S512x128.Reduces [1] S512
  shapeCasts_S512_S512x1 : S512.ShapeCasts S512x1
  broadcasts_S512x1_S512x128 : S512x1.Broadcasts S512x128
  broadcasts_S1x128_S512x128 : S1x128.Broadcasts S512x128
  inb_S1x8x128x128_S1x1x128x128_0_0_0_0 : ∀ a, (![0, 0, 0, 0] : Fin 4 → Nat) a + S1x1x128x128.size a ≤ S1x8x128x128.size a
  h_S1x1x128x128 : 0 < S1x1x128x128.numel
  shapeCasts_S1x1x128x128_S128x128 : S1x1x128x128.ShapeCasts S128x128
  shapeCasts_S128x128_S1x1x128x128 : S128x128.ShapeCasts S1x1x128x128
  slices_S512x1024_o0_128_S512x128 : S512x1024.Slices ![0, 128] S512x128
  inb_S8x128_S1x128_1_0 : ∀ a, (![1, 0] : Fin 2 → Nat) a + S1x128.size a ≤ S8x128.size a
  inb_S1x8x128x128_S1x1x128x128_0_1_0_0 : ∀ a, (![0, 1, 0, 0] : Fin 4 → Nat) a + S1x1x128x128.size a ≤ S1x8x128x128.size a
  slices_S512x1024_o0_256_S512x128 : S512x1024.Slices ![0, 256] S512x128
  inb_S8x128_S1x128_2_0 : ∀ a, (![2, 0] : Fin 2 → Nat) a + S1x128.size a ≤ S8x128.size a
  inb_S1x8x128x128_S1x1x128x128_0_2_0_0 : ∀ a, (![0, 2, 0, 0] : Fin 4 → Nat) a + S1x1x128x128.size a ≤ S1x8x128x128.size a
  slices_S512x1024_o0_384_S512x128 : S512x1024.Slices ![0, 384] S512x128
  inb_S8x128_S1x128_3_0 : ∀ a, (![3, 0] : Fin 2 → Nat) a + S1x128.size a ≤ S8x128.size a
  inb_S1x8x128x128_S1x1x128x128_0_3_0_0 : ∀ a, (![0, 3, 0, 0] : Fin 4 → Nat) a + S1x1x128x128.size a ≤ S1x8x128x128.size a
  slices_S512x1024_o0_512_S512x128 : S512x1024.Slices ![0, 512] S512x128
  inb_S8x128_S1x128_4_0 : ∀ a, (![4, 0] : Fin 2 → Nat) a + S1x128.size a ≤ S8x128.size a
  inb_S1x8x128x128_S1x1x128x128_0_4_0_0 : ∀ a, (![0, 4, 0, 0] : Fin 4 → Nat) a + S1x1x128x128.size a ≤ S1x8x128x128.size a
  slices_S512x1024_o0_640_S512x128 : S512x1024.Slices ![0, 640] S512x128
  inb_S8x128_S1x128_5_0 : ∀ a, (![5, 0] : Fin 2 → Nat) a + S1x128.size a ≤ S8x128.size a
  inb_S1x8x128x128_S1x1x128x128_0_5_0_0 : ∀ a, (![0, 5, 0, 0] : Fin 4 → Nat) a + S1x1x128x128.size a ≤ S1x8x128x128.size a
  slices_S512x1024_o0_768_S512x128 : S512x1024.Slices ![0, 768] S512x128
  inb_S8x128_S1x128_6_0 : ∀ a, (![6, 0] : Fin 2 → Nat) a + S1x128.size a ≤ S8x128.size a
  inb_S1x8x128x128_S1x1x128x128_0_6_0_0 : ∀ a, (![0, 6, 0, 0] : Fin 4 → Nat) a + S1x1x128x128.size a ≤ S1x8x128x128.size a
  slices_S512x1024_o0_896_S512x128 : S512x1024.Slices ![0, 896] S512x128
  inb_S8x128_S1x128_7_0 : ∀ a, (![7, 0] : Fin 2 → Nat) a + S1x128.size a ≤ S8x128.size a
  inb_S1x8x128x128_S1x1x128x128_0_7_0_0 : ∀ a, (![0, 7, 0, 0] : Fin 4 → Nat) a + S1x1x128x128.size a ≤ S1x8x128x128.size a
  inb_S1024x128_S128x128_0_0 : ∀ a, (![0, 0] : Fin 2 → Nat) a + S128x128.size a ≤ S1024x128.size a
  h_S128x128 : 0 < S128x128.numel
  inb_S1024x128_S128x128_128_0 : ∀ a, (![128, 0] : Fin 2 → Nat) a + S128x128.size a ≤ S1024x128.size a
  inb_S1024x128_S128x128_256_0 : ∀ a, (![256, 0] : Fin 2 → Nat) a + S128x128.size a ≤ S1024x128.size a
  inb_S1024x128_S128x128_384_0 : ∀ a, (![384, 0] : Fin 2 → Nat) a + S128x128.size a ≤ S1024x128.size a
  inb_S1024x128_S128x128_512_0 : ∀ a, (![512, 0] : Fin 2 → Nat) a + S128x128.size a ≤ S1024x128.size a
  inb_S1024x128_S128x128_640_0 : ∀ a, (![640, 0] : Fin 2 → Nat) a + S128x128.size a ≤ S1024x128.size a
  inb_S1024x128_S128x128_768_0 : ∀ a, (![768, 0] : Fin 2 → Nat) a + S128x128.size a ≤ S1024x128.size a
  inb_S1024x128_S128x128_896_0 : ∀ a, (![896, 0] : Fin 2 → Nat) a + S128x128.size a ≤ S1024x128.size a
  inb_S1x128_S1x128_0_0 : ∀ a, (![0, 0] : Fin 2 → Nat) a + S1x128.size a ≤ S1x128.size a
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  dot_S512x256_S256x1024_S512x1024_1_0_0_1_n_n_wf : DotDims.WF S512x256 S256x1024 S512x1024 [1] [0] [0] [1] [] []
  dot_S512x128_S512x128_S128x128_0_0_1_1_n_n_wf : DotDims.WF S512x128 S512x128 S128x128 [0] [0] [1] [1] [] []
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S16x2048x256.size a
  hwx0_0 : ∀ i : grid0.Coords, EltTy.bits .f32 = 32 ∨ (Rect.block (s := S16x2048x256) S1x512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .f32 = 32 ∨ (Rect.block (s := S256x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S256x1024.size a
  hwx0_3 : ∀ i : grid0.Coords, EltTy.bits .f32 = 32 ∨ (Rect.block (s := S256x1024) S256x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S8x128.size a
  hwx0_5 : ∀ i : grid0.Coords, EltTy.bits .f32 = 32 ∨ (Rect.block (s := S8x128) S8x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8x128.size a ≤ S8x128.size a
  hwx0_6 : ∀ i : grid0.Coords, EltTy.bits .f32 = 32 ∨ (Rect.block (s := S8x128) S8x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x128.size a ≤ S8x128.size a
  hwx0_7 : ∀ i : grid0.Coords, EltTy.bits .f32 = 32 ∨ (Rect.block (s := S8x128) S8x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S8x128.size a ≤ S8x128.size a
  hwx0_8 : ∀ i : grid0.Coords, EltTy.bits .f32 = 32 ∨ (Rect.block (s := S8x128) S8x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x8x128x128.size a ≤ S16x8x128x128.size a
  hwx0_9 : ∀ i : grid0.Coords, EltTy.bits .f32 = 32 ∨ (Rect.block (s := S16x8x128x128) S1x8x128x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x256.size a ≤ S16x2048x256.size a
  hwx1_0 : ∀ i : grid1.Coords, EltTy.bits .f32 = 32 ∨ (Rect.block (s := S16x2048x256) S1x512x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x8x128x128.size a ≤ S16x8x128x128.size a
  hwx1_1 : ∀ i : grid1.Coords, EltTy.bits .f32 = 32 ∨ (Rect.block (s := S16x8x128x128) S1x8x128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x1024.size a ≤ S256x1024.size a
  hwx1_2 : ∀ i : grid1.Coords, EltTy.bits .f32 = 32 ∨ (Rect.block (s := S256x1024) S256x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x128.size a ≤ S1024x128.size a
  hwx1_4 : ∀ i : grid1.Coords, EltTy.bits .f32 = 32 ∨ (Rect.block (s := S1024x128) S1024x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x512x128.size a ≤ S16x2048x128.size a
  hwx1_6 : ∀ i : grid1.Coords, EltTy.bits .f32 = 32 ∨ (Rect.block (s := S16x2048x128) S1x512x128.size (cc1_transform_6 i) (hinb1_6 i)).WholeWords (EltTy.packing .f32)

variable [Facts₀]

def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf
def dot_S512x128_S512x128_S128x128_0_0_1_1_n_n : DotDims S512x128 S512x128 S128x128 where
  lhsContracting := [0]
  rhsContracting := [0]
  lhsNonContracting := [1]
  rhsNonContracting := [1]
  lhsBatch := []
  rhsBatch := []
  wf := dot_S512x128_S512x128_S128x128_0_0_1_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_arg0) S1x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S8x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg10) S8x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg11) S8x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg12) S8x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S1x8x128x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S1x512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x8x128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S256x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S1024x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v1) S1x512x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== Proof.Spec.lean ====
/-
  Galerkin (linear) attention, as plain index-level mathematics on the extended reals.

  For one batch member with rows x_r (256 channels): K = x Wk + bk, V = x Wv + bv (1024 columns, eight heads of
  128), each head's 128-slice of a row is layer-normalised (mean and variance over the 128 channels of the slice,
  reciprocal square root of variance plus epsilon, scale and shift), the head's attention map is
  A_h[d, e] = sum over all 2048 rows of LN(K_h)[r, d] * LN(V_h)[r, e], and the output row is
  ((x Wq + bq) applied head by head to A_h, then to the rows of Wo belonging to the head, plus bo) / n.
  The two programs compute this output in two arrangements (`outK`: the maps folded through Wo and Wq first, into one
  effective weight; `outR`: query first), equal when every input entry is a real number.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The channel count 128 of a head, as the programs spell it. -/
def c128 : EReal := Ideal.ofBits .f32 0x43000000#32
/-- The layer norm's epsilon, as the programs spell it. -/
def eps : EReal := Ideal.ofBits .f32 0x3727C5AC#32
/-- The reciprocal 1/2048 of the sequence length, as the programs spell it. -/
def invN : EReal := Ideal.ofBits .f32 0x3A000000#32

/-- The mean of 128 numbers: their sum divided by 128. -/
def mean (x : Fin 128 → EReal) : EReal := Ideal.div (∑ j, x j) c128

/-- Layer normalisation of one 128-vector with scale `g` and shift `b`, at channel `d`. -/
def ln (x g b : Fin 128 → EReal) (d : Fin 128) : EReal :=
  (x d - mean x) * Ideal.rsqrt (mean (fun j => (x j - mean x) * (x j - mean x)) + eps) * g d + b d

/-- Column `d` of head `h` among the 1024 packed columns. -/
def hcol (h : Fin 8) (d : Fin 128) : Fin 1024 := ⟨h.val * 128 + d.val, by have := h.isLt; have := d.isLt; omega⟩
/-- The head a packed column belongs to, and its place inside the head. -/
def hOf (j : Fin 1024) : Fin 8 := ⟨j.val / 128, by have := j.isLt; omega⟩
def dOf (j : Fin 1024) : Fin 128 := ⟨j.val % 128, Nat.mod_lt _ (by decide)⟩

/-- An affine map of a vector: (x W + b) at column j. -/
def proj {K N : ℕ} (x : Fin K → EReal) (w : Fin K → Fin N → EReal) (b : Fin N → EReal) (j : Fin N) : EReal :=
  (∑ k, x k * w k j) + b j

/-- The thirteen inputs, by coordinates. -/
structure Inputs where
  X : Fin 16 → Fin 2048 → Fin 256 → EReal
  Wq : Fin 256 → Fin 1024 → EReal
  bq : Fin 1024 → EReal
  Wk : Fin 256 → Fin 1024 → EReal
  bk : Fin 1024 → EReal
  Wv : Fin 256 → Fin 1024 → EReal
  bv : Fin 1024 → EReal
  Wo : Fin 1024 → Fin 128 → EReal
  bo : Fin 128 → EReal
  gk : Fin 8 → Fin 128 → EReal
  bkl : Fin 8 → Fin 128 → EReal
  gv : Fin 8 → Fin 128 → EReal
  bvl : Fin 8 → Fin 128 → EReal

/-- An extended real that is a real number. -/
def IsReal (x : EReal) : Prop := ∃ r : ℝ, x = (r : EReal)

/-- Every entry of every input is a real number. -/
structure Inputs.Finite (I : Inputs) : Prop where
  X : ∀ b r k, IsReal (I.X b r k)
  Wq : ∀ k j, IsReal (I.Wq k j)
  bq : ∀ j, IsReal (I.bq j)
  Wk : ∀ k j, IsReal (I.Wk k j)
  bk : ∀ j, IsReal (I.bk j)
  Wv : ∀ k j, IsReal (I.Wv k j)
  bv : ∀ j, IsReal (I.bv j)
  Wo : ∀ j c, IsReal (I.Wo j c)
  bo : ∀ c, IsReal (I.bo c)
  gk : ∀ h d, IsReal (I.gk h d)
  bkl : ∀ h d, IsReal (I.bkl h d)
  gv : ∀ h d, IsReal (I.gv h d)
  bvl : ∀ h d, IsReal (I.bvl h d)

namespace Inputs

variable (I : Inputs)

/-- The normalised key stream of head `h`: row `r` of batch member `b`, channel `d`. -/
def kh (b : Fin 16) (h : Fin 8) (r : Fin 2048) (d : Fin 128) : EReal :=
  ln (fun j => proj (I.X b r) I.Wk I.bk (hcol h j)) (I.gk h) (I.bkl h) d
/-- The normalised value stream of head `h`. -/
def vh (b : Fin 16) (h : Fin 8) (r : Fin 2048) (e : Fin 128) : EReal :=
  ln (fun j => proj (I.X b r) I.Wv I.bv (hcol h j)) (I.gv h) (I.bvl h) e
/-- The attention map of head `h`: keys against values, summed over all rows. -/
def amap (b : Fin 16) (h : Fin 8) (d e : Fin 128) : EReal := ∑ r : Fin 2048, I.kh b h r d * I.vh b h r e
/-- The map folded through the head's rows of the output weight. -/
def mK (b : Fin 16) (h : Fin 8) (d c : Fin 128) : EReal := ∑ e : Fin 128, I.amap b h d e * I.Wo (hcol h e) c

/-- The output in the first arrangement: one effective weight and bias per batch member. -/
def outK (b : Fin 16) (r : Fin 2048) (c : Fin 128) : EReal :=
  (∑ k : Fin 256, I.X b r k * ((∑ j : Fin 1024, I.Wq k j * I.mK b (hOf j) (dOf j) c) * invN))
    + ((∑ j : Fin 1024, I.bq j * I.mK b (hOf j) (dOf j) c) + I.bo c) * invN

/-- The output in the second arrangement: the query row applied head by head. -/
def outR (b : Fin 16) (r : Fin 2048) (c : Fin 128) : EReal :=
  ((∑ h : Fin 8, ∑ e : Fin 128, (∑ d : Fin 128, proj (I.X b r) I.Wq I.bq (hcol h d) * I.amap b h d e) * I.Wo (hcol h e) c)
    + I.bo c) * invN

end Inputs

/-- The inputs read off the thirteen argument arrays. -/
def Inputs.ofArrays
    (v : (⟨3, ![16, 2048, 256]⟩ : Shape).Idx → EReal)
    (wq : (⟨2, ![256, 1024]⟩ : Shape).Idx → EReal) (bq : (⟨2, ![1, 1024]⟩ : Shape).Idx → EReal)
    (wk : (⟨2, ![256, 1024]⟩ : Shape).Idx → EReal) (bk : (⟨2, ![1, 1024]⟩ : Shape).Idx → EReal)
    (wv : (⟨2, ![256, 1024]⟩ : Shape).Idx → EReal) (bv : (⟨2, ![1, 1024]⟩ : Shape).Idx → EReal)
    (wo : (⟨2, ![1024, 128]⟩ : Shape).Idx → EReal) (bo : (⟨2, ![1, 128]⟩ : Shape).Idx → EReal)
    (gk bkl gv bvl : (⟨2, ![8, 128]⟩ : Shape).Idx → EReal) : Inputs where
  X b r k := v (ix3 b r k)
  Wq k j := wq (ix2 k j)
  bq j := bq (ix2 (0 : Fin 1) j)
  Wk k j := wk (ix2 k j)
  bk j := bk (ix2 (0 : Fin 1) j)
  Wv k j := wv (ix2 k j)
  bv j := bv (ix2 (0 : Fin 1) j)
  Wo j c := wo (ix2 j c)
  bo c := bo (ix2 (0 : Fin 1) c)
  gk h d := gk (ix2 h d)
  bkl h d := bkl (ix2 h d)
  gv h d := gv (ix2 h d)
  bvl h d := bvl (ix2 h d)

/-- The result array of the first arrangement. -/
def Inputs.arrK (I : Inputs) : (⟨3, ![16, 2048, 128]⟩ : Shape).Idx → EReal := fun i => I.outK (i 0) (i 1) (i 2)

end Cert.Spec

end
-- ==== Proof.SpecTile.lean ====
/-
  The 2048 rows in four tiles of 512, and the part of a head's attention map that one tile contributes.
-/
import proofs.«135597_g2000303815147335_pallasbulk_1180_1_alg».proof.Proof.Spec

noncomputable section

open scoped BigOperators

namespace Cert.Spec

/-- Row r of the jt-th tile of 512 rows among the 2048. -/
def row (jt : Fin 4) (r : Fin 512) : Fin 2048 := ⟨512 * jt.val + r.val, by have := jt.isLt; have := r.isLt; omega⟩

/-- The part of a head's attention map contributed by the jt-th tile of 512 rows. -/
def Inputs.amapTile (I : Inputs) (b : Fin 16) (h : Fin 8) (jt : Fin 4) (d e : Fin 128) : EReal :=
  ∑ r : Fin 512, I.kh b h (row jt r) d * I.vh b h (row jt r) e

/-- The result array of the second arrangement. -/
def Inputs.arrR (I : Inputs) : (⟨3, ![16, 2048, 128]⟩ : Idealize.ShloMosaic.Shape).Idx → EReal := fun i => I.outR (i 0) (i 1) (i 2)

/-- The array of attention maps. -/
def Inputs.arrA (I : Inputs) : (⟨4, ![16, 8, 128, 128]⟩ : Idealize.ShloMosaic.Shape).Idx → EReal := fun i => I.amap (i 0) (i 1) (i 2) (i 3)

end Cert.Spec

end
-- ==== Proof.Algebra.lean ====
/-
  The two arrangements of the attention output agree when every input entry is a real number.

  With real inputs every intermediate quantity is real: affine maps and sums of reals are real; a row's variance is a
  mean of squares, hence nonnegative, so variance plus the positive epsilon is positive and its reciprocal square root is
  real; hence the normalised streams and the attention maps are real. Over the reals the identity is linear algebra:
  ((x Wq + bq) A) Wo = x (Wq (A Wo)) + bq (A Wo), head by head, with the packed column j = 128 h + d split into (h, d),
  and the common factor 1/n distributed.
-/
import proofs.«135597_g2000303815147335_pallasbulk_1180_1_alg».proof.Proof.Spec
import Mathlib.Data.EReal.Basic
import Mathlib.Data.EReal.Operations
import Mathlib.Algebra.BigOperators.Ring.Finset
import Mathlib.Algebra.BigOperators.Group.Finset.Sigma
import Mathlib.Algebra.Order.BigOperators.Group.Finset
import Mathlib.Data.Fintype.BigOperators
import Mathlib.Tactic.Ring
import Mathlib.Tactic.Positivity
import Mathlib.Tactic.Linarith
import Mathlib.Tactic.NormNum

noncomputable section

open scoped BigOperators

namespace Cert.Spec

open Idealize.ShloMosaic

/-! ## The three constants -/

/-- The pattern 0x43000000 denotes 2^23 · 2^-16 = 128. -/
theorem c128_eq : c128 = ((128 : ℝ) : EReal) := by
  unfold c128
  simp [Ideal.ofBits, Ideal.ieee]
  rw [← EReal.coe_mul]
  norm_num

/-- The pattern 0x3A000000 denotes a real number (2^-11). -/
theorem invN_real : IsReal invN := by
  unfold invN
  simp [Ideal.ofBits, Ideal.ieee, IsReal]
  rw [← EReal.coe_mul]
  exact ⟨_, rfl⟩

/-- The pattern 0x3727C5AC denotes a positive real number. -/
theorem eps_pos : ∃ e : ℝ, 0 < e ∧ eps = (e : EReal) := by
  unfold eps
  simp [Ideal.ofBits, Ideal.ieee]
  rw [← EReal.coe_mul]
  exact ⟨_, by positivity, rfl⟩

/-! ## Real numbers inside the extended reals are closed under the ring operations -/

/-- A finite sum of coerced reals is the coerced sum. -/
theorem coe_sum {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem IsReal.coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type*} (s : Finset ι) {f : ι → EReal} (hf : ∀ i, IsReal (f i)) :
    IsReal (∑ i ∈ s, f i) := by
  choose g hg using hf
  exact ⟨∑ i ∈ s, g i, by rw [← coe_sum]; exact Finset.sum_congr rfl fun i _ => hg i⟩

/-! ## Layer normalisation of real data is real -/

/-- The mean of 128 coerced reals is the coerced real mean. -/
theorem mean_coe (x : Fin 128 → ℝ) :
    mean (fun j => (x j : EReal)) = (((∑ j, x j) * (1 / 128) : ℝ) : EReal) := by
  unfold mean
  rw [c128_eq, Ideal.div_coe (by norm_num), coe_sum, ← EReal.coe_mul]

/-- The reciprocal square root of a positive real is real. -/
theorem rsqrt_real {r : ℝ} (hr : 0 < r) : IsReal (Ideal.rsqrt (r : EReal)) := by
  rw [Ideal.rsqrt_coe, if_neg (not_lt.mpr hr.le), if_neg hr.ne']
  exact ⟨_, rfl⟩

/-- Layer normalisation of a real vector with real scale and shift is real: the variance is a mean of squares, so
    variance plus epsilon is positive. -/
theorem ln_real {x g b : Fin 128 → EReal} (hx : ∀ j, IsReal (x j)) (hg : ∀ j, IsReal (g j)) (hb : ∀ j, IsReal (b j))
    (d : Fin 128) : IsReal (ln x g b d) := by
  choose x' hx' using hx
  obtain rfl : x = fun j => (x' j : EReal) := funext hx'
  obtain ⟨e, he, hee⟩ := eps_pos
  unfold ln
  rw [mean_coe]
  set m : ℝ := (∑ j, x' j) * (1 / 128) with hm
  have hsq : (fun j => ((x' j : EReal) - (m : EReal)) * ((x' j : EReal) - (m : EReal)))
      = fun j => (((x' j - m) * (x' j - m) : ℝ) : EReal) := by
    funext j; rw [← EReal.coe_sub, ← EReal.coe_mul]
  rw [hsq, mean_coe, hee, ← EReal.coe_add]
  have hv : 0 ≤ (∑ j, (x' j - m) * (x' j - m)) * (1 / 128 : ℝ) :=
    mul_nonneg (Finset.sum_nonneg fun j _ => mul_self_nonneg _) (by norm_num)
  have hpos : 0 < (∑ j, (x' j - m) * (x' j - m)) * (1 / 128 : ℝ) + e := by linarith
  exact (((((IsReal.coe _).sub (IsReal.coe _)).mul (rsqrt_real hpos)).mul (hg d)).add (hb d))

/-- An affine map of a real vector with real weights is real. -/
theorem proj_real {K N : ℕ} {x : Fin K → EReal} {w : Fin K → Fin N → EReal} {b : Fin N → EReal}
    (hx : ∀ k, IsReal (x k)) (hw : ∀ k j, IsReal (w k j)) (hb : ∀ j, IsReal (b j)) (j : Fin N) :
    IsReal (proj x w b j) :=
  (IsReal.sum _ fun k => (hx k).mul (hw k j)).add (hb j)

theorem kh_real (I : Inputs) (hI : I.Finite) (b : Fin 16) (h : Fin 8) (r : Fin 2048) (d : Fin 128) :
    IsReal (I.kh b h r d) :=
  ln_real (fun j => proj_real (hI.X b r) hI.Wk hI.bk (hcol h j)) (hI.gk h) (hI.bkl h) d

theorem vh_real (I : Inputs) (hI : I.Finite) (b : Fin 16) (h : Fin 8) (r : Fin 2048) (e : Fin 128) :
    IsReal (I.vh b h r e) :=
  ln_real (fun j => proj_real (hI.X b r) hI.Wv hI.bv (hcol h j)) (hI.gv h) (hI.bvl h) e

theorem amap_real (I : Inputs) (hI : I.Finite) (b : Fin 16) (h : Fin 8) (d e : Fin 128) :
    IsReal (I.amap b h d e) :=
  IsReal.sum _ fun r => (kh_real I hI b h r d).mul (vh_real I hI b h r e)

/-! ## The packed column index splits into head and channel -/

theorem hOf_hcol (h : Fin 8) (d : Fin 128) : hOf (hcol h d) = h := by
  apply Fin.ext; have := d.isLt; simp only [hOf, hcol]; omega

theorem dOf_hcol (h : Fin 8) (d : Fin 128) : dOf (hcol h d) = d := by
  apply Fin.ext; have := d.isLt; simp only [dOf, hcol]; omega

theorem hcol_hOf_dOf (j : Fin 1024) : hcol (hOf j) (dOf j) = j := by
  apply Fin.ext; simp only [hOf, dOf, hcol]; omega

/-- The pairs (head, channel) correspond one to one to the 1024 packed columns. -/
def hdEquiv : Fin 8 × Fin 128 ≃ Fin 1024 where
  toFun p := hcol p.1 p.2
  invFun j := (hOf j, dOf j)
  left_inv p := by simp only [hOf_hcol, dOf_hcol]
  right_inv j := hcol_hOf_dOf j

/-- A sum over the packed columns is the double sum over heads and channels. -/
theorem sum_hcol (f : Fin 1024 → ℝ) : ∑ j, f j = ∑ h : Fin 8, ∑ d : Fin 128, f (hcol h d) := by
  rw [← Equiv.sum_comp hdEquiv f, Fintype.sum_prod_type]
  rfl

/-! ## The linear algebra over the reals -/

/-- (x Wq + bq) applied to the maps and then to the output weight, against x applied to the folded weight plus the
    folded bias: both are the same sum of products, regrouped. -/
theorem real_identity {κ η δ : Type*} [Fintype κ] [Fintype η] [Fintype δ]
    (X : κ → ℝ) (Wq : κ → η → δ → ℝ) (bq : η → δ → ℝ) (A : η → δ → δ → ℝ) (Wo : η → δ → ℝ) (bo n : ℝ) :
    (∑ k, X k * ((∑ h, ∑ d, Wq k h d * ∑ e, A h d e * Wo h e) * n))
        + ((∑ h, ∑ d, bq h d * ∑ e, A h d e * Wo h e) + bo) * n
      = ((∑ h, ∑ e, (∑ d, ((∑ k, X k * Wq k h d) + bq h d) * A h d e) * Wo h e) + bo) * n := by
  have h1 : ∀ (q : δ → ℝ) (h : η), ∑ e, (∑ d, q d * A h d e) * Wo h e = ∑ d, q d * ∑ e, A h d e * Wo h e := by
    intro q h
    calc ∑ e, (∑ d, q d * A h d e) * Wo h e
        = ∑ e, ∑ d, q d * (A h d e * Wo h e) := by
          refine Finset.sum_congr rfl fun e _ => ?_
          rw [Finset.sum_mul]
          exact Finset.sum_congr rfl fun d _ => mul_assoc _ _ _
      _ = ∑ d, ∑ e, q d * (A h d e * Wo h e) := Finset.sum_comm
      _ = ∑ d, q d * ∑ e, A h d e * Wo h e := by simp only [Finset.mul_sum]
  have h2 : ∀ M : η → δ → ℝ, ∑ h, ∑ d, ((∑ k, X k * Wq k h d) + bq h d) * M h d
      = (∑ k, X k * ∑ h, ∑ d, Wq k h d * M h d) + ∑ h, ∑ d, bq h d * M h d := by
    intro M
    have e1 : ∀ h d, ((∑ k, X k * Wq k h d) + bq h d) * M h d
        = (∑ k, X k * (Wq k h d * M h d)) + bq h d * M h d := by
      intro h d
      rw [add_mul, Finset.sum_mul]
      congr 1
      exact Finset.sum_congr rfl fun k _ => mul_assoc _ _ _
    simp only [e1, Finset.sum_add_distrib]
    congr 1
    calc ∑ h, ∑ d, ∑ k, X k * (Wq k h d * M h d)
        = ∑ h, ∑ k, ∑ d, X k * (Wq k h d * M h d) := Finset.sum_congr rfl fun h _ => Finset.sum_comm
      _ = ∑ k, ∑ h, ∑ d, X k * (Wq k h d * M h d) := Finset.sum_comm
      _ = ∑ k, X k * ∑ h, ∑ d, Wq k h d * M h d := by simp only [Finset.mul_sum]
  have h3 : ∑ k, X k * ((∑ h, ∑ d, Wq k h d * ∑ e, A h d e * Wo h e) * n)
      = (∑ k, X k * ∑ h, ∑ d, Wq k h d * ∑ e, A h d e * Wo h e) * n := by
    rw [Finset.sum_mul]
    exact Finset.sum_congr rfl fun k _ => (mul_assoc _ _ _).symm
  have hR : (∑ h, ∑ e, (∑ d, ((∑ k, X k * Wq k h d) + bq h d) * A h d e) * Wo h e)
      = (∑ k, X k * ∑ h, ∑ d, Wq k h d * ∑ e, A h d e * Wo h e) + ∑ h, ∑ d, bq h d * ∑ e, A h d e * Wo h e := by
    rw [← h2]
    exact Finset.sum_congr rfl fun h _ => h1 _ h
  rw [hR, h3]
  ring

/-! ## The two arrangements -/

/-- The first arrangement equals the second at every output entry, for real inputs. -/
theorem outK_eq_outR (I : Inputs) (hI : I.Finite) (b : Fin 16) (r : Fin 2048) (c : Fin 128) :
    I.outK b r c = I.outR b r c := by
  obtain ⟨n, hn⟩ := invN_real
  choose X hX using hI.X b r
  choose Wq hWq using hI.Wq
  choose bq hbq using hI.bq
  choose Wo hWo using fun j => hI.Wo j c
  obtain ⟨bo, hbo⟩ := hI.bo c
  choose A hA using amap_real I hI b
  unfold Inputs.outK Inputs.outR Inputs.mK proj
  simp only [hX, hWq, hbq, hWo, hbo, hA, hn]
  simp only [← EReal.coe_mul, ← EReal.coe_add, coe_sum]
  rw [EReal.coe_eq_coe_iff]
  have key := real_identity X (fun k h d => Wq k (hcol h d)) (fun h d => bq (hcol h d)) A
    (fun h e => Wo (hcol h e)) bo n
  simp only [sum_hcol, hOf_hcol, dOf_hcol]
  exact key

end Cert.Spec

end
-- ==== Proof.Finite.lean ====
/-
  The precondition "every float input is finite" says that every entry of the thirteen argument arrays is a real
  number: each conjunct is an all-reduction of |x| < +infinity over one array, and an extended real whose absolute
  value is below +infinity is neither infinity.
-/
import proofs.«135597_g2000303815147335_pallasbulk_1180_1_alg».proof.Defs
import proofs.«135597_g2000303815147335_pallasbulk_1180_1_alg».proof.Proof.Gen.Pre_finite_inputs
import proofs.«135597_g2000303815147335_pallasbulk_1180_1_alg».proof.Proof.Spec
import Idealize.ShloMosaic.Lib.ReduceAll

noncomputable section

namespace Cert.Finite

open Idealize.ShloMosaic Cert.Pre_finite_inputs

/-- The scalar shape has one index. -/
instance : Subsingleton S_.Idx := ⟨fun a b => funext fun d => d.elim0⟩

/-- The pattern 0x7F800000 denotes +infinity. -/
theorem ofBits_inf : Ideal.ofBits .f32 0x7F800000#32 = (⊤ : EReal) := by
  simp [Ideal.ofBits, Ideal.ieee]

/-- An extended real whose absolute value max x (-x) is below +infinity is a real number. -/
theorem isReal_of_abs_lt_top (x : EReal) (h : max x (-x) < ⊤) : Cert.Spec.IsReal x := by
  induction x using EReal.rec with
  | bot => simp at h
  | coe r => exact ⟨r, rfl⟩
  | top => simp at h

/-- One conjunct: if the all-reduction of |a| < +infinity over every axis of an array is 1, every entry is real. -/
theorem isReal_of_all {s : Shape} {axes : List (Fin s.rank)} (a : FVec Ideal s .f32)
    (hb : S_.BroadcastsInDim s (![] : Fin 0 → Fin s.rank)) (hr : s.ReducesTo axes S_) (h0 : 0 < S_.numel)
    (e : Host.reduce IntOp.andi
        (cmpf .olt (Host.absf a) (broadcastInDim s ![] hb (constant (F := Ideal) S_ .f32 0x7F800000#32)))
        (constantI S_ 1 1#1) hr h0 ValueIdx.ix0 = 1#1)
    (i : s.Idx) : Cert.Spec.IsReal (a i) := by
  have hi := Host.reduce_andi_all _ _ hr h0 _ e i
  change Ideal.cmp .olt (max (a i) (-(a i))) (Ideal.ofBits .f32 0x7F800000#32) = 1#1 at hi
  rw [ofBits_inf] at hi
  simp only [Ideal.cmp] at hi
  refine isReal_of_abs_lt_top (a i) ?_
  by_contra hlt
  simp [hlt] at hi

/-- A conjunction of two scalar bits that is 1 has both bits 1. -/
theorem andi_ix0 (x y : IVec S_ 1) (h : andi x y ValueIdx.ix0 = 1#1) :
    x ValueIdx.ix0 = 1#1 ∧ y ValueIdx.ix0 = 1#1 :=
  IntOp.andi_eq_one.1 h

/-- If the finiteness predicate of the thirteen arrays is all ones, the inputs read off them are all real. -/
theorem finite_of_fn (a0 : FVec Ideal S16x2048x256 .f32) (a1 : FVec Ideal S256x1024 .f32) (a2 : FVec Ideal S1x1024 .f32)
    (a3 : FVec Ideal S256x1024 .f32) (a4 : FVec Ideal S1x1024 .f32) (a5 : FVec Ideal S256x1024 .f32)
    (a6 : FVec Ideal S1x1024 .f32) (a7 : FVec Ideal S1024x128 .f32) (a8 : FVec Ideal S1x128 .f32)
    (a9 a10 a11 a12 : FVec Ideal S8x128 .f32)
    (h : Cert.Pre_finite_inputs.fn (F := Ideal) a0 a1 a2 a3 a4 a5 a6 a7 a8 a9 a10 a11 a12 = (fun _ => 1#1)) :
    (Cert.Spec.Inputs.ofArrays a0 a1 a2 a3 a4 a5 a6 a7 a8 a9 a10 a11 a12).Finite := by
  have h' := congrFun h ValueIdx.ix0
  dsimp only [fn, fn_part1, fn_part2, fn_part3] at h'
  obtain ⟨h', e12⟩ := andi_ix0 _ _ h'
  obtain ⟨h', e11⟩ := andi_ix0 _ _ h'
  obtain ⟨h', e10⟩ := andi_ix0 _ _ h'
  obtain ⟨h', e9⟩ := andi_ix0 _ _ h'
  obtain ⟨h', e8⟩ := andi_ix0 _ _ h'
  obtain ⟨h', e7⟩ := andi_ix0 _ _ h'
  obtain ⟨h', e6⟩ := andi_ix0 _ _ h'
  obtain ⟨h', e5⟩ := andi_ix0 _ _ h'
  obtain ⟨h', e4⟩ := andi_ix0 _ _ h'
  obtain ⟨h', e3⟩ := andi_ix0 _ _ h'
  obtain ⟨h', e2⟩ := andi_ix0 _ _ h'
  obtain ⟨e0, e1⟩ := andi_ix0 _ _ h'
  exact
    { X := fun b r k => isReal_of_all a0 _ _ _ e0 _
      Wq := fun k j => isReal_of_all a1 _ _ _ e1 _
      bq := fun j => isReal_of_all a2 _ _ _ e2 _
      Wk := fun k j => isReal_of_all a3 _ _ _ e3 _
      bk := fun j => isReal_of_all a4 _ _ _ e4 _
      Wv := fun k j => isReal_of_all a5 _ _ _ e5 _
      bv := fun j => isReal_of_all a6 _ _ _ e6 _
      Wo := fun j c => isReal_of_all a7 _ _ _ e7 _
      bo := fun c => isReal_of_all a8 _ _ _ e8 _
      gk := fun h d => isReal_of_all a9 _ _ _ e9 _
      bkl := fun h d => isReal_of_all a10 _ _ _ e10 _
      gv := fun h d => isReal_of_all a11 _ _ _ e11 _
      bvl := fun h d => isReal_of_all a12 _ _ _ e12 _ }

end Cert.Finite

end
-- ==== Proof.KernelInputs.lean ====
/-
  The thirteen inputs of the attention layer read off the first program's argument arrays.
-/
import proofs.«135597_g2000303815147335_pallasbulk_1180_1_alg».proof.KernelIdeal
import proofs.«135597_g2000303815147335_pallasbulk_1180_1_alg».proof.Proof.Spec

noncomputable section

namespace Cert.KernelIdeal.Arr

open Idealize.ShloMosaic Idealize.ShloMosaic.TcCoe Idealize.SL.Sem Cert.KernelIdeal

/-- The inputs as the memory `m` holds them on core `c`. -/
def inputs (m : (ℓ : Loc nD τ sig) → Buf (Elt Ideal) ℓ) (c : Dev nD) : Cert.Spec.Inputs :=
  Cert.Spec.Inputs.ofArrays
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12))

end Cert.KernelIdeal.Arr

end
-- ==== Proof.LibKeepdims.lean ====
/-
  Layout operations of a `keepdims` reduction read at an index given by coordinates.

  A row reduction that keeps its axis prints as three layout steps around the reduction: the reduced vector
  `[a]` is cast to a column `[a, 1]`, and the column is broadcast back over the row axis to `[a, b]`; a
  value reduced to one number `[1, 1]` is broadcast down a column `[a, 1]`. Each lemma reads one of these at an
  index written with the coordinate constructors `ix1` / `ix2`, so that it applies to a printed operation by
  unification, at any extents. They are the column-shaped companions of the row-shaped lemmas
  `shapeCast_a_1a_apply` and `broadcastTo_1b_ab_apply`.
-/
import Idealize.ShloMosaic.Lib.Pipeline.Value
import Idealize.ShloMosaic.Lib.ValueIdx
import Idealize.ShloMosaic.Lib.ValueLayout

namespace Cert.Lib.Keepdims

open Idealize.ShloMosaic Idealize.ShloMosaic.ValueIdx

variable {α : Type}

/-- An `[a]` array cast to a column `[a, 1]` reads, at `(i, u)`, the operand at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1]` array broadcast down a column `[a, 1]` reads, at every `(p, u)`, its one entry. -/
theorem broadcastTo_11_a1_apply {a : ℕ} (v : (⟨2, ![1, 1]⟩ : Shape).Idx → α) (h : (⟨2, ![1, 1]⟩ : Shape).Broadcasts ⟨2, ![a, 1]⟩)
    (p : Fin a) (u : Fin 1) : broadcastTo ⟨2, ![a, 1]⟩ v h (ix2 p u) = v (ix2 (0 : Fin 1) (0 : Fin 1)) := by
  refine broadcastTo_apply v h (ix2 p u) (ix2 (0 : Fin 1) (0 : Fin 1)) fun ax => ?_
  match ax with
  | ⟨0, _⟩ => rfl
  | ⟨1, _⟩ => rfl

/-- The same four readings as equations between whole arrays, the form `simp only` rewrites a payload with. -/
theorem shapeCast_a_a1_eq {a : ℕ} (x : (⟨1, ![a]⟩ : Shape).Idx → α) (h : (⟨1, ![a]⟩ : Shape).ShapeCasts ⟨2, ![a, 1]⟩) :
    shapeCast ⟨2, ![a, 1]⟩ x h = fun y => x (ix1 (y 0)) :=
  funext fun y => (congrArg (shapeCast ⟨2, ![a, 1]⟩ x h) (eq_ix2 y)).trans (shapeCast_a_a1_apply x h (y 0) (y 1))

theorem broadcastTo_a1_ab_eq {a b : ℕ} (v : (⟨2, ![a, 1]⟩ : Shape).Idx → α) (h : (⟨2, ![a, 1]⟩ : Shape).Broadcasts ⟨2, ![a, b]⟩) :
    broadcastTo ⟨2, ![a, b]⟩ v h = fun y => v (ix2 (y 0) (0 : Fin 1)) :=
  funext fun y => (congrArg (broadcastTo ⟨2, ![a, b]⟩ v h) (eq_ix2 y)).trans (broadcastTo_a1_ab_apply v h (y 0) (y 1))

theorem broadcastTo_1b_ab_eq {a b : ℕ} (v : (⟨2, ![1, b]⟩ : Shape).Idx → α) (h : (⟨2, ![1, b]⟩ : Shape).Broadcasts ⟨2, ![a, b]⟩) :
    broadcastTo ⟨2, ![a, b]⟩ v h = fun y => v (ix2 (0 : Fin 1) (y 1)) :=
  funext fun y => (congrArg (broadcastTo ⟨2, ![a, b]⟩ v h) (eq_ix2 y)).trans (broadcastTo_1b_ab_apply v h (y 0) (y 1))

theorem broadcastTo_11_a1_eq {a : ℕ} (v : (⟨2, ![1, 1]⟩ : Shape).Idx → α) (h : (⟨2, ![1, 1]⟩ : Shape).Broadcasts ⟨2, ![a, 1]⟩) :
    broadcastTo ⟨2, ![a, 1]⟩ v h = fun _ => v (ix2 (0 : Fin 1) (0 : Fin 1)) :=
  funext fun y => (congrArg (broadcastTo ⟨2, ![a, 1]⟩ v h) (eq_ix2 y)).trans (broadcastTo_11_a1_apply v h (y 0) (y 1))

theorem shapeCast_a_1a_eq {a : ℕ} (x : (⟨1, ![a]⟩ : Shape).Idx → α) (h : (⟨1, ![a]⟩ : Shape).ShapeCasts ⟨2, ![1, a]⟩) :
    shapeCast ⟨2, ![1, a]⟩ x h = fun y => x (ix1 (y 1)) :=
  funext fun y => (congrArg (shapeCast ⟨2, ![1, a]⟩ x h) (eq_ix2 y)).trans (shapeCast_a_1a_apply x h (y 0) (y 1))

end Cert.Lib.Keepdims
-- ==== Proof.OpsLn.lean ====
/-
  Layer normalisation of the rows of an n-by-128 block, as the vector operations spell it, and its reading at an
  entry: row r, channel d of the result is the layer norm of row r (Spec.ln) at d.
-/
import proofs.«135597_g2000303815147335_pallasbulk_1180_1_alg».proof.Proof.Spec
import proofs.«135597_g2000303815147335_pallasbulk_1180_1_alg».proof.Proof.LibKeepdims
import Idealize.ShloMosaic.Lib.Pipeline.Value
import Idealize.ShloMosaic.Lib.ValueIdx
import Idealize.ShloMosaic.Lib.ValueLayout

noncomputable section

open scoped BigOperators

namespace Cert.Ops

open Idealize.ShloMosaic Idealize.ShloMosaic.TcCoe Idealize.ShloMosaic.ValueIdx

/-- Layer normalisation of every row of an n-by-128 block: the row mean (sum over the 128 channels divided by 128) is
    subtracted, the centred row is scaled by the reciprocal square root of its mean square plus epsilon, then by the
    row vector `g`, and `b` is added. -/
def lnV {n : ℕ} (x : FVec Ideal (⟨2, ![n, 128]⟩ : Shape) .f32) (g b : Vec Ideal (⟨2, ![1, 128]⟩ : Shape) .f32)
    (hr : Shape.Reduces (⟨2, ![n, 128]⟩ : Shape) [1] (⟨1, ![n]⟩ : Shape))
    (hc : Shape.ShapeCasts (⟨1, ![n]⟩ : Shape) (⟨2, ![n, 1]⟩ : Shape))
    (hb : Shape.Broadcasts (⟨2, ![n, 1]⟩ : Shape) (⟨2, ![n, 128]⟩ : Shape))
    (hg : Shape.Broadcasts (⟨2, ![1, 128]⟩ : Shape) (⟨2, ![n, 128]⟩ : Shape)) : FVec Ideal (⟨2, ![n, 128]⟩ : Shape) .f32 :=
  have xc : FVec Ideal (⟨2, ![n, 128]⟩ : Shape) .f32 :=
    subf x (broadcastTo (⟨2, ![n, 128]⟩ : Shape) (divf (shapeCast (⟨2, ![n, 1]⟩ : Shape) (multiReduction .add [1] (⟨1, ![n]⟩ : Shape) x 0x00000000#32 hr (.inl rfl) rfl) hc) (broadcast (⟨2, ![n, 1]⟩ : Shape) (Scalar.ofBits .f32 0x43000000#32))) hb)
  addf (mulf (mulf xc (broadcastTo (⟨2, ![n, 128]⟩ : Shape) (rsqrt (addf (divf (shapeCast (⟨2, ![n, 1]⟩ : Shape) (multiReduction .add [1] (⟨1, ![n]⟩ : Shape) (mulf xc xc) 0x00000000#32 hr (.inl rfl) rfl) hc) (broadcast (⟨2, ![n, 1]⟩ : Shape) (Scalar.ofBits .f32 0x43000000#32))) (broadcast (⟨2, ![n, 1]⟩ : Shape) (Scalar.ofBits .f32 0x3727C5AC#32)))) hb)) (broadcastTo (⟨2, ![n, 128]⟩ : Shape) g hg)) (broadcastTo (⟨2, ![n, 128]⟩ : Shape) b hg)

/-- The sum along the channel axis of an n-by-128 block, read at row r: the sum over the 128 channels of the row. -/
theorem rowSum_apply {n : ℕ} (v : FVec Ideal (⟨2, ![n, 128]⟩ : Shape) .f32)
    (hr : Shape.Reduces (⟨2, ![n, 128]⟩ : Shape) [1] (⟨1, ![n]⟩ : Shape)) (hφ : FKind.Formats .f32)
    (hacc : (0x00000000#32 : BitVec 32) = FKind.add.neutral .f32 hφ) (r : Fin n) :
    multiReduction .add [1] (⟨1, ![n]⟩ : Shape) v 0x00000000#32 hr hφ hacc (ix1 r) = ∑ k : Fin 128, v (ix2 r k) := by
  refine (Ideal.multiReduction_add_single v 0x00000000#32 hr hφ hacc (ix1 r)).trans ?_
  refine Finset.sum_congr rfl fun k _ => congrArg v ?_
  funext c
  match c with
  | ⟨0, _⟩ => exact Fin.ext rfl
  | ⟨1, _⟩ => exact Fin.ext rfl

/-- The column of row means of an n-by-128 block (row sums cast to a column and divided by 128), read at row r. -/
theorem colMean_apply {n : ℕ} (v : FVec Ideal (⟨2, ![n, 128]⟩ : Shape) .f32)
    (hr : Shape.Reduces (⟨2, ![n, 128]⟩ : Shape) [1] (⟨1, ![n]⟩ : Shape))
    (hc : Shape.ShapeCasts (⟨1, ![n]⟩ : Shape) (⟨2, ![n, 1]⟩ : Shape)) (r : Fin n) (u : Fin 1) :
    (divf (shapeCast (⟨2, ![n, 1]⟩ : Shape) (multiReduction .add [1] (⟨1, ![n]⟩ : Shape) v 0x00000000#32 hr (.inl rfl) rfl) hc)
        (broadcast (⟨2, ![n, 1]⟩ : Shape) (Scalar.ofBits .f32 0x43000000#32)) : FVec Ideal (⟨2, ![n, 1]⟩ : Shape) .f32) (ix2 r u)
      = Cert.Spec.mean (fun j => v (ix2 r j)) := by
  exact congrArg (fun t => Ideal.div t (Ideal.ofBits .f32 0x43000000#32))
    ((Cert.Lib.Keepdims.shapeCast_a_a1_apply _ hc r u).trans (rowSum_apply v hr _ _ r))

/-- The scaling half of the layer norm on an already centred block: entry (r, d) times the reciprocal square root of
    the row's mean square plus epsilon, times the scale, plus the shift. -/
theorem lnCore_apply {n : ℕ} (xc : FVec Ideal (⟨2, ![n, 128]⟩ : Shape) .f32) (g b : Vec Ideal (⟨2, ![1, 128]⟩ : Shape) .f32)
    (hr : Shape.Reduces (⟨2, ![n, 128]⟩ : Shape) [1] (⟨1, ![n]⟩ : Shape))
    (hc : Shape.ShapeCasts (⟨1, ![n]⟩ : Shape) (⟨2, ![n, 1]⟩ : Shape))
    (hb : Shape.Broadcasts (⟨2, ![n, 1]⟩ : Shape) (⟨2, ![n, 128]⟩ : Shape))
    (hg : Shape.Broadcasts (⟨2, ![1, 128]⟩ : Shape) (⟨2, ![n, 128]⟩ : Shape)) (r : Fin n) (d : Fin 128) :
    (addf (mulf (mulf xc (broadcastTo (⟨2, ![n, 128]⟩ : Shape) (rsqrt (addf (divf (shapeCast (⟨2, ![n, 1]⟩ : Shape) (multiReduction .add [1] (⟨1, ![n]⟩ : Shape) (mulf xc xc) 0x00000000#32 hr (.inl rfl) rfl) hc) (broadcast (⟨2, ![n, 1]⟩ : Shape) (Scalar.ofBits .f32 0x43000000#32))) (broadcast (⟨2, ![n, 1]⟩ : Shape) (Scalar.ofBits .f32 0x3727C5AC#32)))) hb)) (broadcastTo (⟨2, ![n, 128]⟩ : Shape) g hg)) (broadcastTo (⟨2, ![n, 128]⟩ : Shape) b hg) : FVec Ideal (⟨2, ![n, 128]⟩ : Shape) .f32) (ix2 r d)
      = xc (ix2 r d) * Ideal.rsqrt (Cert.Spec.mean (fun j => xc (ix2 r j) * xc (ix2 r j)) + Cert.Spec.eps)
          * g (ix2 (0 : Fin 1) d) + b (ix2 (0 : Fin 1) d) := by
  have h1 := broadcastTo_1b_ab_apply g hg r d
  have h2 := broadcastTo_1b_ab_apply b hg r d
  have h3 := Cert.Lib.Keepdims.broadcastTo_a1_ab_apply
    (rsqrt (addf (divf (shapeCast (⟨2, ![n, 1]⟩ : Shape) (multiReduction .add [1] (⟨1, ![n]⟩ : Shape) (mulf xc xc) 0x00000000#32 hr (.inl rfl) rfl) hc) (broadcast (⟨2, ![n, 1]⟩ : Shape) (Scalar.ofBits .f32 0x43000000#32))) (broadcast (⟨2, ![n, 1]⟩ : Shape) (Scalar.ofBits .f32 0x3727C5AC#32))) : FVec Ideal (⟨2, ![n, 1]⟩ : Shape) .f32) hb r d
  have h4 := colMean_apply (mulf xc xc) hr hc r (0 : Fin 1)
  refine (congrArg₂ (· + ·) (congrArg₂ (· * ·) (congrArg (fun t => xc (ix2 r d) * t) (h3.trans ?_)) h1) h2)
  exact congrArg (fun t => Ideal.rsqrt (t + Cert.Spec.eps)) h4

/-- Row r, channel d of the normalised block is the layer norm of row r at d. -/
theorem lnV_apply {n : ℕ} (x : FVec Ideal (⟨2, ![n, 128]⟩ : Shape) .f32) (g b : Vec Ideal (⟨2, ![1, 128]⟩ : Shape) .f32)
    (hr : Shape.Reduces (⟨2, ![n, 128]⟩ : Shape) [1] (⟨1, ![n]⟩ : Shape))
    (hc : Shape.ShapeCasts (⟨1, ![n]⟩ : Shape) (⟨2, ![n, 1]⟩ : Shape))
    (hb : Shape.Broadcasts (⟨2, ![n, 1]⟩ : Shape) (⟨2, ![n, 128]⟩ : Shape))
    (hg : Shape.Broadcasts (⟨2, ![1, 128]⟩ : Shape) (⟨2, ![n, 128]⟩ : Shape)) (r : Fin n) (d : Fin 128) :
    lnV x g b hr hc hb hg (ix2 r d)
      = Cert.Spec.ln (fun j => x (ix2 r j)) (fun j => g (ix2 (0 : Fin 1) j)) (fun j => b (ix2 (0 : Fin 1) j)) d := by
  have hxc : ∀ j : Fin 128,
      (subf x (broadcastTo (⟨2, ![n, 128]⟩ : Shape) (divf (shapeCast (⟨2, ![n, 1]⟩ : Shape) (multiReduction .add [1] (⟨1, ![n]⟩ : Shape) x 0x00000000#32 hr (.inl rfl) rfl) hc) (broadcast (⟨2, ![n, 1]⟩ : Shape) (Scalar.ofBits .f32 0x43000000#32))) hb) : FVec Ideal (⟨2, ![n, 128]⟩ : Shape) .f32) (ix2 r j)
        = x (ix2 r j) - Cert.Spec.mean (fun j => x (ix2 r j)) := by
    intro j
    exact congrArg (fun t => x (ix2 r j) - t)
      ((Cert.Lib.Keepdims.broadcastTo_a1_ab_apply _ hb r j).trans (colMean_apply x hr hc r 0))
  refine (lnCore_apply _ g b hr hc hb hg r d).trans ?_
  simp only [hxc]
  rfl

end Cert.Ops

end
-- ==== Proof.LibPlainDot.lean ====
/-
  A matrix product read at an entry.

  A product of an \`M × K\` by a \`K × N\` matrix whose dimension numbers contract the left operand's columns with the
  right operand's rows, keep the left rows and the right columns in that order, and have no batch axis. At result
  entry \`(i, j)\` and contraction position \`k\` the left operand is read at \`(i, k)\` and the right at \`(k, j)\`, and the
  one-axis contraction index set is its coordinate range \`Fin K\`; so the sum over the contraction index is the
  textbook \`∑ q, A i q * B q j\`. The same for a stack of \`B\` such products, member by member (one batch axis, the
  first of both operands and of the result). Stated for ANY dimension-number record with those lists, at the
  extended reals, for the accumulating block product into a zero accumulator and for the host's product.
-/
import Idealize.ShloMosaic.PureOps.Ideal
import Idealize.ShloMosaic.PureOps.Ideal.Laws
import Idealize.ShloMosaic.Lib.ValueIdx

noncomputable section

open scoped BigOperators

namespace Cert.LibPlainDot

open Idealize.ShloMosaic Idealize.ShloMosaic.ValueIdx

/-! ## The plain product

The contraction shape lists the sizes of the left operand's contracted axes: here the one size \`K\`. Off the contracted
axis an operand index reads the result index: the left operand's row is the result's row, the right operand's column
the result's column. Each fact is read off the record once its lists are the stated literals. -/

section Plain

variable {M K N : Nat} (d : DotDims (⟨2, ![M, K]⟩ : Shape) (⟨2, ![K, N]⟩ : Shape) (⟨2, ![M, N]⟩ : Shape))
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb

/-- The contraction index set has one axis … -/
theorem contr_rank : d.contr.rank = 1 := by
  obtain ⟨lc, rc, ln, rn, lb, rb, wf⟩ := d
  subst hlc hrc hln hrn hlb hrb
  rfl

/-- … of extent \`K\`, the left operand's number of columns. -/
theorem contr_size (h : 0 < d.contr.rank) : d.contr.size ⟨0, h⟩ = K := by
  obtain ⟨lc, rc, ln, rn, lb, rb, wf⟩ := d
  subst hlc hrc hln hrn hlb hrb
  rfl

/-- The left operand's row is the result's row. -/
theorem lhs_row (i : Fin M) (j : Fin N) (k : d.contr.Idx) : (d.lhsIdx (ix2 i j) k 0).val = i.val := by
  obtain ⟨lc, rc, ln, rn, lb, rb, wf⟩ := d
  subst hlc hrc hln hrn hlb hrb
  rfl

/-- The right operand's column is the result's column. -/
theorem rhs_col (i : Fin M) (j : Fin N) (k : d.contr.Idx) : (d.rhsIdx (ix2 i j) k 1).val = j.val := by
  obtain ⟨lc, rc, ln, rn, lb, rb, wf⟩ := d
  subst hlc hrc hln hrn hlb hrb
  rfl

/-- THE CONTRACTION'S SUM OF A PLAIN PRODUCT at entry \`(i, j)\` is the matrix product's entry: at contraction position
    \`k\` with coordinate \`q\` the left operand is read at \`(i, q)\` and the right at \`(q, j)\`, and the positions
    correspond one to one to the coordinates \`q : Fin K\`, so the sum is re-indexed by them. -/
theorem plain_sum (l : (⟨2, ![M, K]⟩ : Shape).Idx → EReal) (r : (⟨2, ![K, N]⟩ : Shape).Idx → EReal)
    (i : Fin M) (j : Fin N) :
    (∑ k : d.contr.Idx, l (d.lhsIdx (ix2 i j) k) * r (d.rhsIdx (ix2 i j) k))
      = ∑ q : Fin K, l (ix2 i q) * r (ix2 q j) := by
  have h1 := contr_rank d hlc hrc hln hrn hlb hrb
  have hK := contr_size d hlc hrc hln hrn hlb hrb (by omega)
  -- the operand indices at position \`k\`, by coordinates
  have hl : ∀ k : d.contr.Idx, d.lhsIdx (ix2 i j) k = ix2 i (contrEquiv1 d K h1 hK k) := by
    intro k
    funext a
    refine Fin.ext ?_
    match a with
    | ⟨0, _⟩ => exact lhs_row d hlc hrc hln hrn hlb hrb i j k
    | ⟨1, _⟩ => exact d.lhsIdx_val_of_single hlc (ix2 i j) k
  have hr : ∀ k : d.contr.Idx, d.rhsIdx (ix2 i j) k = ix2 (contrEquiv1 d K h1 hK k) j := by
    intro k
    funext a
    refine Fin.ext ?_
    match a with
    | ⟨0, _⟩ => exact d.rhsIdx_val_of_single hrc (ix2 i j) k
    | ⟨1, _⟩ => exact rhs_col d hlc hrc hln hrn hlb hrb i j k
  calc (∑ k : d.contr.Idx, l (d.lhsIdx (ix2 i j) k) * r (d.rhsIdx (ix2 i j) k))
      = ∑ k : d.contr.Idx, (fun q : Fin K => l (ix2 i q) * r (ix2 q j)) (contrEquiv1 d K h1 hK k) :=
        Finset.sum_congr rfl fun k _ => by rw [hl k, hr k]
    _ = ∑ q : Fin K, l (ix2 i q) * r (ix2 q j) :=
        Equiv.sum_comp (contrEquiv1 d K h1 hK) fun q : Fin K => l (ix2 i q) * r (ix2 q j)
    _ = ∑ q : Fin K, l (ix2 i q) * r (ix2 q j) := rfl

/-- A block product into the zero accumulator, read at \`(i, j)\`, is the matrix product's entry. -/
theorem matmul_zero_apply (prec : Option ContractPrecision) (l : FVec Ideal (⟨2, ![M, K]⟩ : Shape) .f32)
    (r : FVec Ideal (⟨2, ![K, N]⟩ : Shape) .f32) (i : Fin M) (j : Fin N) :
    FloatOps.matmul d prec l r (constant (⟨2, ![M, N]⟩ : Shape) .f32 0x00000000#32) (ix2 i j)
      = ∑ q : Fin K, l (ix2 i q) * r (ix2 q j) := by
  rw [Ideal.matmul_constant_zero_apply]
  exact plain_sum d hlc hrc hln hrn hlb hrb l r i j

/-- The same, with the block product spelled by its vector-level name. -/
theorem matmul_zero_apply' (prec : Option ContractPrecision) (l : FVec Ideal (⟨2, ![M, K]⟩ : Shape) .f32)
    (r : FVec Ideal (⟨2, ![K, N]⟩ : Shape) .f32) (i : Fin M) (j : Fin N) :
    matmul d prec l r (constant (⟨2, ![M, N]⟩ : Shape) .f32 0x00000000#32) (ix2 i j)
      = ∑ q : Fin K, l (ix2 i q) * r (ix2 q j) :=
  matmul_zero_apply d hlc hrc hln hrn hlb hrb prec l r i j

/-- The host's product, read at \`(i, j)\`, is the matrix product's entry. -/
theorem hostDot_apply (prec : Option ContractPrecision) (l : FVec Ideal (⟨2, ![M, K]⟩ : Shape) .f32)
    (r : FVec Ideal (⟨2, ![K, N]⟩ : Shape) .f32) (i : Fin M) (j : Fin N) :
    Host.dotGeneral d prec l r (ix2 i j) = ∑ q : Fin K, l (ix2 i q) * r (ix2 q j) := by
  show FloatOps.dotGeneral d prec .single l r (ix2 i j) = _
  rw [Ideal.dotGeneral_apply]
  exact plain_sum d hlc hrc hln hrn hlb hrb l r i j

end Plain

/-! ## The stack of products

One batch axis, the first of both operands and of the result; the left operand's last axis is contracted with the
right operand's middle one. Both operands read the result's batch coordinate; the left operand's row is the result's
row, the right operand's column the result's column. -/

section Batched

variable {B M K N : Nat}
  (d : DotDims (⟨3, ![B, M, K]⟩ : Shape) (⟨3, ![B, K, N]⟩ : Shape) (⟨3, ![B, M, N]⟩ : Shape))
  (hlc : d.lhsContracting = [2]) (hrc : d.rhsContracting = [1]) (hln : d.lhsNonContracting = [1])
  (hrn : d.rhsNonContracting = [2]) (hlb : d.lhsBatch = [0]) (hrb : d.rhsBatch = [0])

include hlc hrc hln hrn hlb hrb

/-- The contraction index set has one axis … -/
theorem contr_rank3 : d.contr.rank = 1 := by
  obtain ⟨lc, rc, ln, rn, lb, rb, wf⟩ := d
  subst hlc hrc hln hrn hlb hrb
  rfl

/-- … of extent \`K\`, the size of the left operand's last axis. -/
theorem contr_size3 (h : 0 < d.contr.rank) : d.contr.size ⟨0, h⟩ = K := by
  obtain ⟨lc, rc, ln, rn, lb, rb, wf⟩ := d
  subst hlc hrc hln hrn hlb hrb
  rfl

/-- The left operand's member is the result's member … -/
theorem lhs_batch3 (b : Fin B) (i : Fin M) (j : Fin N) (k : d.contr.Idx) :
    (d.lhsIdx (ix3 b i j) k 0).val = b.val := by
  obtain ⟨lc, rc, ln, rn, lb, rb, wf⟩ := d
  subst hlc hrc hln hrn hlb hrb
  rfl

/-- … and its row the result's row. -/
theorem lhs_row3 (b : Fin B) (i : Fin M) (j : Fin N) (k : d.contr.Idx) :
    (d.lhsIdx (ix3 b i j) k 1).val = i.val := by
  obtain ⟨lc, rc, ln, rn, lb, rb, wf⟩ := d
  subst hlc hrc hln hrn hlb hrb
  rfl

/-- The right operand's member is the result's member … -/
theorem rhs_batch3 (b : Fin B) (i : Fin M) (j : Fin N) (k : d.contr.Idx) :
    (d.rhsIdx (ix3 b i j) k 0).val = b.val := by
  obtain ⟨lc, rc, ln, rn, lb, rb, wf⟩ := d
  subst hlc hrc hln hrn hlb hrb
  rfl

/-- … and its column the result's column. -/
theorem rhs_col3 (b : Fin B) (i : Fin M) (j : Fin N) (k : d.contr.Idx) :
    (d.rhsIdx (ix3 b i j) k 2).val = j.val := by
  obtain ⟨lc, rc, ln, rn, lb, rb, wf⟩ := d
  subst hlc hrc hln hrn hlb hrb
  rfl

/-- THE HOST'S PRODUCT OF TWO STACKS, member by member, read at \`(b, i, j)\`, is entry \`(i, j)\` of the product of the
    two members \`b\`: at contraction position \`k\` with coordinate \`q\` the left stack is read at \`(b, i, q)\` and the
    right at \`(b, q, j)\`, and the sum is re-indexed by \`q : Fin K\`. -/
theorem batchDot_apply (prec : Option ContractPrecision) (l : FVec Ideal (⟨3, ![B, M, K]⟩ : Shape) .f32)
    (r : FVec Ideal (⟨3, ![B, K, N]⟩ : Shape) .f32) (b : Fin B) (i : Fin M) (j : Fin N) :
    Host.dotGeneral d prec l r (ix3 b i j)
      = ∑ q : Fin K, l (ix3 b i q) * r (ix3 b q j) := by
  have h1 := contr_rank3 d hlc hrc hln hrn hlb hrb
  have hK := contr_size3 d hlc hrc hln hrn hlb hrb (by omega)
  have hl : ∀ k : d.contr.Idx, d.lhsIdx (ix3 b i j) k = ix3 b i (contrEquiv1 d K h1 hK k) := by
    intro k
    funext a
    refine Fin.ext ?_
    match a with
    | ⟨0, _⟩ => exact lhs_batch3 d hlc hrc hln hrn hlb hrb b i j k
    | ⟨1, _⟩ => exact lhs_row3 d hlc hrc hln hrn hlb hrb b i j k
    | ⟨2, _⟩ => exact d.lhsIdx_val_of_single hlc (ix3 b i j) k
  have hr : ∀ k : d.contr.Idx, d.rhsIdx (ix3 b i j) k = ix3 b (contrEquiv1 d K h1 hK k) j := by
    intro k
    funext a
    refine Fin.ext ?_
    match a with
    | ⟨0, _⟩ => exact rhs_batch3 d hlc hrc hln hrn hlb hrb b i j k
    | ⟨1, _⟩ => exact d.rhsIdx_val_of_single hrc (ix3 b i j) k
    | ⟨2, _⟩ => exact rhs_col3 d hlc hrc hln hrn hlb hrb b i j k
  show FloatOps.dotGeneral d prec .single l r (ix3 b i j) = _
  rw [Ideal.dotGeneral_apply]
  calc (∑ k : d.contr.Idx, l (d.lhsIdx (ix3 b i j) k) * r (d.rhsIdx (ix3 b i j) k))
      = ∑ k : d.contr.Idx, (fun q : Fin K => l (ix3 b i q) * r (ix3 b q j)) (contrEquiv1 d K h1 hK k) :=
        Finset.sum_congr rfl fun k _ => by rw [hl k, hr k]
    _ = ∑ q : Fin K, l (ix3 b i q) * r (ix3 b q j) :=
        Equiv.sum_comp (contrEquiv1 d K h1 hK) fun q : Fin K => l (ix3 b i q) * r (ix3 b q j)
    _ = ∑ q : Fin K, l (ix3 b i q) * r (ix3 b q j) := rfl

end Batched

end Cert.LibPlainDot

end
-- ==== Proof.OpsLayout.lean ====
/-
  Layout and product operations read at an entry given by coordinates: the two matrix products the programs use
  (rows by columns; and columns by columns, the "Gram" product that contracts the row axis of both operands), a
  column slice of a matrix, a load of a band of rows, a load of one head's 128-by-128 map out of the stack of eight,
  the casts between a 128-by-128 matrix and a 1-by-1-by-128-by-128 block, between an n-row matrix and a one-member
  stack, and the stacking of eight 128-row matrices.
-/
import proofs.«135597_g2000303815147335_pallasbulk_1180_1_alg».proof.Proof.Spec
import proofs.«135597_g2000303815147335_pallasbulk_1180_1_alg».proof.Proof.LibKeepdims
import proofs.«135597_g2000303815147335_pallasbulk_1180_1_alg».proof.Proof.LibPlainDot
import Idealize.ShloMosaic.Lib.Pipeline.Value
import Idealize.ShloMosaic.Lib.Pipeline.FrameBody
import Idealize.ShloMosaic.Lib.ValueIdx
import Idealize.ShloMosaic.Lib.ValueLayout

noncomputable section

open scoped BigOperators

namespace Cert.Ops

open Idealize.ShloMosaic Idealize.ShloMosaic.TcCoe Idealize.ShloMosaic.ValueIdx

variable {α : Type}

/-- A product of an M-by-K and a K-by-N matrix into a zero accumulator, at entry (i, j). -/
theorem matmul_plain_apply {M K N : ℕ} {φ₁ φ₂ : FTy}
    (d : DotDims (⟨2, ![M, K]⟩ : Shape) (⟨2, ![K, N]⟩ : Shape) (⟨2, ![M, N]⟩ : Shape))
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal (⟨2, ![M, K]⟩ : Shape) φ₁) (r : FVec Ideal (⟨2, ![K, N]⟩ : Shape) φ₂)
    (i : Fin M) (j : Fin N) :
    matmul d prec l r (constant (⟨2, ![M, N]⟩ : Shape) .f32 0x00000000#32) (ix2 i j)
      = ∑ q : Fin K, l (ix2 i q) * r (ix2 q j) := by
  show FloatOps.matmul d prec l r (constant (⟨2, ![M, N]⟩ : Shape) .f32 0x00000000#32) (ix2 i j) = _
  rw [Ideal.matmul_constant_zero_apply]
  exact Cert.LibPlainDot.plain_sum d hlc hrc hln hrn hlb hrb l r i j

/-! ## The Gram product

Both operands are contracted along their row axis, so the contraction shape lists the one size R; off the contracted
axis the left operand's column is the result's row and the right operand's column the result's column. -/

section Gram

variable {R M N : ℕ} (d : DotDims (⟨2, ![R, M]⟩ : Shape) (⟨2, ![R, N]⟩ : Shape) (⟨2, ![M, N]⟩ : Shape))
  (hlc : d.lhsContracting = [0]) (hrc : d.rhsContracting = [0]) (hln : d.lhsNonContracting = [1])
  (hrn : d.rhsNonContracting = [1]) (hlb : d.lhsBatch = []) (hrb : d.rhsBatch = [])

include hlc hrc hln hrn hlb hrb

/-- The contraction index set has one axis … -/
theorem gram_contr_rank : d.contr.rank = 1 := by
  obtain ⟨lc, rc, ln, rn, lb, rb, wf⟩ := d
  subst hlc hrc hln hrn hlb hrb
  rfl

/-- … of extent R, the common number of rows. -/
theorem gram_contr_size (h : 0 < d.contr.rank) : d.contr.size ⟨0, h⟩ = R := by
  obtain ⟨lc, rc, ln, rn, lb, rb, wf⟩ := d
  subst hlc hrc hln hrn hlb hrb
  rfl

/-- The left operand's column is the result's row. -/
theorem gram_lhs_col (i : Fin M) (j : Fin N) (k : d.contr.Idx) : (d.lhsIdx (ix2 i j) k 1).val = i.val := by
  obtain ⟨lc, rc, ln, rn, lb, rb, wf⟩ := d
  subst hlc hrc hln hrn hlb hrb
  rfl

/-- The right operand's column is the result's column. -/
theorem gram_rhs_col (i : Fin M) (j : Fin N) (k : d.contr.Idx) : (d.rhsIdx (ix2 i j) k 1).val = j.val := by
  obtain ⟨lc, rc, ln, rn, lb, rb, wf⟩ := d
  subst hlc hrc hln hrn hlb hrb
  rfl

/-- The contraction's sum of a Gram product at entry (i, j): at contraction position k with coordinate q the left
    operand is read at (q, i) and the right at (q, j); the positions correspond one to one to the coordinates
    q : Fin R, so the sum is re-indexed by them. -/
theorem gram_sum (l : (⟨2, ![R, M]⟩ : Shape).Idx → EReal) (r : (⟨2, ![R, N]⟩ : Shape).Idx → EReal)
    (i : Fin M) (j : Fin N) :
    (∑ k : d.contr.Idx, l (d.lhsIdx (ix2 i j) k) * r (d.rhsIdx (ix2 i j) k))
      = ∑ q : Fin R, l (ix2 q i) * r (ix2 q j) := by
  have h1 := gram_contr_rank d hlc hrc hln hrn hlb hrb
  have hK := gram_contr_size d hlc hrc hln hrn hlb hrb (by omega)
  have hl : ∀ k : d.contr.Idx, d.lhsIdx (ix2 i j) k = ix2 (contrEquiv1 d R h1 hK k) i := by
    intro k
    funext a
    refine Fin.ext ?_
    match a with
    | ⟨0, _⟩ => exact d.lhsIdx_val_of_single hlc (ix2 i j) k
    | ⟨1, _⟩ => exact gram_lhs_col d hlc hrc hln hrn hlb hrb i j k
  have hr : ∀ k : d.contr.Idx, d.rhsIdx (ix2 i j) k = ix2 (contrEquiv1 d R h1 hK k) j := by
    intro k
    funext a
    refine Fin.ext ?_
    match a with
    | ⟨0, _⟩ => exact d.rhsIdx_val_of_single hrc (ix2 i j) k
    | ⟨1, _⟩ => exact gram_rhs_col d hlc hrc hln hrn hlb hrb i j k
  calc (∑ k : d.contr.Idx, l (d.lhsIdx (ix2 i j) k) * r (d.rhsIdx (ix2 i j) k))
      = ∑ k : d.contr.Idx, (fun q : Fin R => l (ix2 q i) * r (ix2 q j)) (contrEquiv1 d R h1 hK k) :=
        Finset.sum_congr rfl fun k _ => by rw [hl k, hr k]
    _ = ∑ q : Fin R, l (ix2 q i) * r (ix2 q j) :=
        Equiv.sum_comp (contrEquiv1 d R h1 hK) fun q : Fin R => l (ix2 q i) * r (ix2 q j)

end Gram

/-- The Gram product of an R-by-M and an R-by-N matrix (the row axis of both contracted) into a zero accumulator,
    at entry (i, j). -/
theorem matmul_gram_apply {R M N : ℕ} {φ₁ φ₂ : FTy}
    (d : DotDims (⟨2, ![R, M]⟩ : Shape) (⟨2, ![R, N]⟩ : Shape) (⟨2, ![M, N]⟩ : Shape))
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (l : FVec Ideal (⟨2, ![R, M]⟩ : Shape) φ₁) (r : FVec Ideal (⟨2, ![R, N]⟩ : Shape) φ₂)
    (i : Fin M) (j : Fin N) :
    matmul d prec l r (constant (⟨2, ![M, N]⟩ : Shape) .f32 0x00000000#32) (ix2 i j)
      = ∑ q : Fin R, l (ix2 q i) * r (ix2 q j) := by
  show FloatOps.matmul d prec l r (constant (⟨2, ![M, N]⟩ : Shape) .f32 0x00000000#32) (ix2 i j) = _
  rw [Ideal.matmul_constant_zero_apply]
  exact gram_sum d hlc hrc hln hrn hlb hrb l r i j

/-- Columns o … o + w - 1 of an n-by-W matrix, at entry (r, d). -/
theorem slice_cols_apply {n W w : ℕ} (o : ℕ) (x : (⟨2, ![n, W]⟩ : Shape).Idx → α)
    (h : (⟨2, ![n, W]⟩ : Shape).Slices ![0, o] (⟨2, ![n, w]⟩ : Shape)) (r : Fin n) (d : Fin w) (ho : o + d.val < W) :
    extractStridedSlice (⟨2, ![n, w]⟩ : Shape) ![0, o] x h (ix2 r d) = x (ix2 r ⟨o + d.val, ho⟩) := by
  refine extractStridedSlice_apply _ x h (ix2 r d) (ix2 r ⟨o + d.val, ho⟩) fun a => ?_
  match a with
  | ⟨0, _⟩ => show r.val = 0 + r.val; omega
  | ⟨1, _⟩ => rfl

/-- Rows o … o + a - 1 of an A-by-B matrix loaded as a block, at entry (p, q). -/
theorem ld_rows_apply {Val : EltTy → Type} {e : EltTy} {A B a : ℕ} (o : ℕ) (x : (⟨2, ![A, B]⟩ : Shape).Idx → Val e)
    (inb : ∀ ax, (![o, 0] : Fin 2 → ℕ) ax + (⟨2, ![a, B]⟩ : Shape).size ax ≤ (⟨2, ![A, B]⟩ : Shape).size ax)
    (p : Fin a) (q : Fin B) (hp : o + p.val < A) :
    View.ld x (Rect.unit (s := (⟨2, ![A, B]⟩ : Shape)) ![o, 0] (⟨2, ![a, B]⟩ : Shape).size inb) (ix2 p q)
      = x (ix2 ⟨o + p.val, hp⟩ q) := by
  refine congrArg x (funext fun ax => Fin.ext ?_)
  match ax with
  | ⟨0, _⟩ => show o + 1 * p.val = o + p.val; omega
  | ⟨1, _⟩ => show 0 + 1 * q.val = q.val; omega

/-- Head h of a stack of H maps (1-by-H-by-a-by-b) loaded as a 1-by-1-by-a-by-b block, at entry (0, 0, d, e). -/
theorem ld_head_apply {Val : EltTy → Type} {e' : EltTy} {H a b : ℕ} (h : ℕ) (x : (⟨4, ![1, H, a, b]⟩ : Shape).Idx → Val e')
    (inb : ∀ ax, (![0, h, 0, 0] : Fin 4 → ℕ) ax + (⟨4, ![1, 1, a, b]⟩ : Shape).size ax ≤ (⟨4, ![1, H, a, b]⟩ : Shape).size ax)
    (u v : Fin 1) (d : Fin a) (e : Fin b) (hh : h < H) :
    View.ld x (Rect.unit (s := (⟨4, ![1, H, a, b]⟩ : Shape)) ![0, h, 0, 0] (⟨4, ![1, 1, a, b]⟩ : Shape).size inb) (ix4 u v d e)
      = x (ix4 (0 : Fin 1) ⟨h, hh⟩ d e) := by
  have hu : u.val = 0 := by omega
  have hv : v.val = 0 := by omega
  refine congrArg x (funext fun ax => Fin.ext ?_)
  match ax with
  | ⟨0, _⟩ => show 0 + 1 * u.val = 0; omega
  | ⟨1, _⟩ => show h + 1 * v.val = h; omega
  | ⟨2, _⟩ => show 0 + 1 * d.val = d.val; omega
  | ⟨3, _⟩ => show 0 + 1 * e.val = e.val; omega

/-- A 1-by-1-by-a-by-b block cast to an a-by-b matrix, at entry (d, e). -/
theorem shapeCast_11ab_ab_apply {a b : ℕ} (x : (⟨4, ![1, 1, a, b]⟩ : Shape).Idx → α)
    (h : (⟨4, ![1, 1, a, b]⟩ : Shape).ShapeCasts (⟨2, ![a, b]⟩ : Shape)) (d : Fin a) (e : Fin b) :
    shapeCast (⟨2, ![a, b]⟩ : Shape) x h (ix2 d e) = x (ix4 (0 : Fin 1) (0 : Fin 1) d e) :=
  shapeCast_apply x h _ _ (by
    rw [Shape.rowMajor_val_four, Shape.rowMajor_val_two]
    show ((0 * 1 + 0) * a + d.val) * b + e.val = d.val * b + e.val
    simp only [Nat.zero_mul, Nat.zero_add])

/-- An a-by-b matrix cast to a 1-by-1-by-a-by-b block, at entry (u, v, d, e). -/
theorem shapeCast_ab_11ab_apply {a b : ℕ} (x : (⟨2, ![a, b]⟩ : Shape).Idx → α)
    (h : (⟨2, ![a, b]⟩ : Shape).ShapeCasts (⟨4, ![1, 1, a, b]⟩ : Shape)) (u v : Fin 1) (d : Fin a) (e : Fin b) :
    shapeCast (⟨4, ![1, 1, a, b]⟩ : Shape) x h (ix4 u v d e) = x (ix2 d e) :=
  shapeCast_apply x h _ _ (by
    have hu : u.val = 0 := by omega
    have hv : v.val = 0 := by omega
    rw [Shape.rowMajor_val_four, Shape.rowMajor_val_two]
    show d.val * b + e.val = ((u.val * 1 + v.val) * a + d.val) * b + e.val
    simp only [hu, hv, Nat.zero_mul, Nat.zero_add])

/-- A one-member stack 1-by-a-by-b cast to an a-by-b matrix, at entry (p, q). -/
theorem shapeCast_1ab_ab_apply {a b : ℕ} (x : (⟨3, ![1, a, b]⟩ : Shape).Idx → α)
    (h : (⟨3, ![1, a, b]⟩ : Shape).ShapeCasts (⟨2, ![a, b]⟩ : Shape)) (p : Fin a) (q : Fin b) :
    shapeCast (⟨2, ![a, b]⟩ : Shape) x h (ix2 p q) = x (ix3 (0 : Fin 1) p q) :=
  shapeCast_apply x h _ _ (by
    rw [Shape.rowMajor_val_three, Shape.rowMajor_val_two]
    show (0 * a + p.val) * b + q.val = p.val * b + q.val
    simp only [Nat.zero_mul, Nat.zero_add])

/-- An a-by-b matrix cast to a one-member stack, at entry (u, p, q). -/
theorem shapeCast_ab_1ab_apply {a b : ℕ} (x : (⟨2, ![a, b]⟩ : Shape).Idx → α)
    (h : (⟨2, ![a, b]⟩ : Shape).ShapeCasts (⟨3, ![1, a, b]⟩ : Shape)) (u : Fin 1) (p : Fin a) (q : Fin b) :
    shapeCast (⟨3, ![1, a, b]⟩ : Shape) x h (ix3 u p q) = x (ix2 p q) :=
  shapeCast_apply x h _ _ (by
    have hu : u.val = 0 := by omega
    rw [Shape.rowMajor_val_three, Shape.rowMajor_val_two]
    show p.val * b + q.val = (u.val * a + p.val) * b + q.val
    simp only [hu, Nat.zero_mul, Nat.zero_add])

/-- A stack of 128-row matrices along the rows, read at row j: when j falls in the k-th band of 128 rows (the bands
    before it holding 128 k rows in all), the entry is the k-th matrix's at row j mod 128. -/
theorem concat_band_apply {N : ℕ} (xs : List ((s : Shape) × (s.Idx → α)))
    (h : Shape.Concatenates (xs.map (·.1)) (⟨2, ![1024, N]⟩ : Shape) 0) (j : Fin 1024) (c : Fin N)
    (k : ℕ) (hk : k < xs.length) (xk : (⟨2, ![128, N]⟩ : Shape).Idx → α) (hxk : xs[k] = ⟨(⟨2, ![128, N]⟩ : Shape), xk⟩)
    (hpre : (((xs.take k).map (·.1)).map fun s =>
        if h : s.rank = (⟨2, ![1024, N]⟩ : Shape).rank then s.size ((0 : Fin (⟨2, ![1024, N]⟩ : Shape).rank).cast h.symm) else 0).sum
          = 128 * k)
    (hjk : j.val / 128 = k) :
    concatenate (⟨2, ![1024, N]⟩ : Shape) 0 xs h (ix2 j c) = xk (ix2 (Cert.Spec.dOf j) c) := by
  refine concatenate_apply_piece 0 xs h (ix2 j c) k hk _ xk hxk rfl (128 * k) hpre (ix2 (Cert.Spec.dOf j) c) ?_ ?_
  · intro b hb
    match b with
    | ⟨0, _⟩ => exact absurd rfl hb
    | ⟨1, _⟩ => rfl
  · show 128 * k + j.val % 128 = j.val
    omega

/-- Eight 128-by-N matrices stacked along the rows: row j of the stack is row j mod 128 of matrix j / 128. -/
theorem concat8_apply {N : ℕ} (x0 x1 x2 x3 x4 x5 x6 x7 : (⟨2, ![128, N]⟩ : Shape).Idx → α)
    (h : Shape.Concatenates (([⟨(⟨2, ![128, N]⟩ : Shape), x0⟩, ⟨(⟨2, ![128, N]⟩ : Shape), x1⟩, ⟨(⟨2, ![128, N]⟩ : Shape), x2⟩,
        ⟨(⟨2, ![128, N]⟩ : Shape), x3⟩, ⟨(⟨2, ![128, N]⟩ : Shape), x4⟩, ⟨(⟨2, ![128, N]⟩ : Shape), x5⟩,
        ⟨(⟨2, ![128, N]⟩ : Shape), x6⟩, ⟨(⟨2, ![128, N]⟩ : Shape), x7⟩] : List ((s : Shape) × (s.Idx → α))).map (fun p => p.1))
      (⟨2, ![1024, N]⟩ : Shape) 0)
    (j : Fin 1024) (c : Fin N) :
    concatenate (⟨2, ![1024, N]⟩ : Shape) 0
        [⟨(⟨2, ![128, N]⟩ : Shape), x0⟩, ⟨(⟨2, ![128, N]⟩ : Shape), x1⟩, ⟨(⟨2, ![128, N]⟩ : Shape), x2⟩,
         ⟨(⟨2, ![128, N]⟩ : Shape), x3⟩, ⟨(⟨2, ![128, N]⟩ : Shape), x4⟩, ⟨(⟨2, ![128, N]⟩ : Shape), x5⟩,
         ⟨(⟨2, ![128, N]⟩ : Shape), x6⟩, ⟨(⟨2, ![128, N]⟩ : Shape), x7⟩] h (ix2 j c)
      = (![x0, x1, x2, x3, x4, x5, x6, x7] (Cert.Spec.hOf j)) (ix2 (Cert.Spec.dOf j) c) := by
  have hj := j.isLt
  obtain ⟨k, hk8, hjk⟩ : ∃ k, k < 8 ∧ j.val / 128 = k := ⟨_, by omega, rfl⟩
  have hH : Cert.Spec.hOf j = ⟨k, hk8⟩ := Fin.ext hjk
  rw [hH]
  match k, hk8, hjk with
  | 0, _, hjk => exact concat_band_apply _ h j c 0 (by simp) x0 rfl rfl hjk
  | 1, _, hjk => exact concat_band_apply _ h j c 1 (by simp) x1 rfl rfl hjk
  | 2, _, hjk => exact concat_band_apply _ h j c 2 (by simp) x2 rfl rfl hjk
  | 3, _, hjk => exact concat_band_apply _ h j c 3 (by simp) x3 rfl rfl hjk
  | 4, _, hjk => exact concat_band_apply _ h j c 4 (by simp) x4 rfl rfl hjk
  | 5, _, hjk => exact concat_band_apply _ h j c 5 (by simp) x5 rfl rfl hjk
  | 6, _, hjk => exact concat_band_apply _ h j c 6 (by simp) x6 rfl rfl hjk
  | 7, _, hjk => exact concat_band_apply _ h j c 7 (by simp) x7 rfl rfl hjk
  | k + 8, hk8, _ => exact absurd hk8 (by omega)

end Cert.Ops

end
-- ==== Proof.KernelBody.lean ====
/-
  What one grid point of the fused program computes: from the point's block of the input (one batch member, all 2048
  rows), the packed key/value weight and bias, the query weight and bias, the output weight and bias and the four
  layer-norm tables, the block it stores is the first arrangement of the attention output (Spec.outK) of that batch
  member.
-/
import proofs.«135597_g2000303815147335_pallasbulk_1180_1_alg».proof.Proof.Gen.KernelIdeal.Frame
import proofs.«135597_g2000303815147335_pallasbulk_1180_1_alg».proof.Proof.Spec
import proofs.«135597_g2000303815147335_pallasbulk_1180_1_alg».proof.Proof.OpsLn
import proofs.«135597_g2000303815147335_pallasbulk_1180_1_alg».proof.Proof.OpsLayout
import Idealize.ShloMosaic.Lib.Pipeline.Value
import Idealize.ShloMosaic.Lib.ValueIdx
import Idealize.ShloMosaic.Lib.ValueLayout

noncomputable section

open scoped BigOperators

namespace Cert.KernelIdeal.Body

open Idealize.ShloMosaic Idealize.ShloMosaic.TcCoe Idealize.ShloMosaic.ValueIdx Cert.KernelIdeal Cert.KernelIdeal.Gen

/-- The attention map of one head as the vector operations spell it: the Gram product (the 2048 rows contracted) of the
    layer-normalised key slice (columns ok … ok + 127 of the packed projection) and the layer-normalised value slice
    (columns ov … ov + 127). -/
def headA (kv : FVec Ideal S2048x2048 .f32) (ok ov : ℕ) (hk : S2048x2048.Slices ![0, ok] S2048x128)
    (hv : S2048x2048.Slices ![0, ov] S2048x128) (gk bk gv bv : Vec Ideal S1x128 .f32) : FVec Ideal S128x128 .f32 :=
  matmul dot_S2048x128_S2048x128_S128x128_0_0_1_1_n_n none
    (truncf .bf16 (Cert.Ops.lnV (n := 2048) (extractStridedSlice S2048x128 ![0, ok] kv hk) gk bk reduces_S2048x128_S2048 shapeCasts_S2048_S2048x1 broadcasts_S2048x1_S2048x128 broadcasts_S1x128_S2048x128) bitsLt_bf16_f32)
    (truncf .bf16 (Cert.Ops.lnV (n := 2048) (extractStridedSlice S2048x128 ![0, ov] kv hv) gv bv reduces_S2048x128_S2048 shapeCasts_S2048_S2048x1 broadcasts_S2048x1_S2048x128 broadcasts_S1x128_S2048x128) bitsLt_bf16_f32)
    (constant S128x128 .f32 0x00000000#32)

/-- A head's map folded through its 128 rows of the output weight. -/
def headM (kv : FVec Ideal S2048x2048 .f32) (ok ov : ℕ) (hk : S2048x2048.Slices ![0, ok] S2048x128)
    (hv : S2048x2048.Slices ![0, ov] S2048x128) (gk bk gv bv : Vec Ideal S1x128 .f32) (wo : Vec Ideal S128x128 .f32) :
    FVec Ideal S128x128 .f32 :=
  matmul (φ₂ := .f32) dot_S128x128_S128x128_S128x128_1_0_0_1_n_n none (headA kv ok ov hk hv gk bk gv bv) wo (constant S128x128 .f32 0x00000000#32)

/-! Each head's term of the program is that head's folded map: the same operations in the same order, whatever way
    the program groups them (head 7's term is its map alone; its product with the output weight comes with the last
    stage). -/

section Heads

variable (x0 : Vec Ideal S1x2048x256 .f32) (x1 : Vec Ideal S256x2048 .f32) (x2 : Vec Ideal S1x2048 .f32)
  (kv : FVec Ideal S2048x2048 .f32) (gk bk gv bv : Vec Ideal S1x128 .f32) (wo : Vec Ideal S128x128 .f32)

set_option maxHeartbeats 400000 in
/-- Head 0: key columns 0 … 127, value columns 1024 … 1151. -/
theorem head0_eq : k0_pay6 (k0_pay4 x0 x1 x2 gk bk) (k0_pay5 x0 x1 x2) gv bv wo
    = headM (k0_pay3 x0 x1 x2) 0 1024 slices_S2048x2048_o0_0_S2048x128 slices_S2048x2048_o0_1024_S2048x128 gk bk gv bv wo := rfl

set_option maxHeartbeats 400000 in
/-- Head 1: key columns 128 … 255, value columns 1152 … 1279. -/
theorem head1_eq : k0_pay9 kv gk bk (k0_pay7 kv) (k0_pay8 kv) gv bv wo
    = headM kv 128 1152 slices_S2048x2048_o0_128_S2048x128 slices_S2048x2048_o0_1152_S2048x128 gk bk gv bv wo := rfl

set_option maxHeartbeats 400000 in
/-- Head 2: key columns 256 … 383, value columns 1280 … 1407. -/
theorem head2_eq : k0_pay12 kv (k0_pay10 kv) gk bk (k0_pay11 kv) gv bv wo
    = headM kv 256 1280 slices_S2048x2048_o0_256_S2048x128 slices_S2048x2048_o0_1280_S2048x128 gk bk gv bv wo := rfl

set_option maxHeartbeats 400000 in
/-- Head 3: key columns 384 … 511, value columns 1408 … 1535. -/
theorem head3_eq : k0_pay16 (k0_pay14 (k0_pay13 kv) gk bk) gv bv (k0_pay15 kv) wo
    = headM kv 384 1408 slices_S2048x2048_o0_384_S2048x128 slices_S2048x2048_o0_1408_S2048x128 gk bk gv bv wo := rfl

set_option maxHeartbeats 400000 in
/-- Head 4: key columns 512 … 639, value columns 1536 … 1663. -/
theorem head4_eq : k0_pay19 (k0_pay17 kv gk bk) gv bv (k0_pay18 kv) wo
    = headM kv 512 1536 slices_S2048x2048_o0_512_S2048x128 slices_S2048x2048_o0_1536_S2048x128 gk bk gv bv wo := rfl

set_option maxHeartbeats 400000 in
/-- Head 5: key columns 640 … 767, value columns 1664 … 1791. -/
theorem head5_eq : k0_pay22 (k0_pay20 kv gk bk) (k0_pay21 kv) gv bv wo
    = headM kv 640 1664 slices_S2048x2048_o0_640_S2048x128 slices_S2048x2048_o0_1664_S2048x128 gk bk gv bv wo := rfl

set_option maxHeartbeats 400000 in
/-- Head 6: key columns 768 … 895, value columns 1792 … 1919. -/
theorem head6_eq : k0_pay25 kv gk bk (k0_pay23 kv) (k0_pay24 kv) gv bv wo
    = headM kv 768 1792 slices_S2048x2048_o0_768_S2048x128 slices_S2048x2048_o0_1792_S2048x128 gk bk gv bv wo := rfl

set_option maxHeartbeats 400000 in
/-- Head 7 (the map alone): key columns 896 … 1023, value columns 1920 … 2047. -/
theorem head7_eq : k0_pay28 kv (k0_pay26 kv) gk bk (k0_pay27 kv) gv bv
    = headA kv 896 1920 slices_S2048x2048_o0_896_S2048x128 slices_S2048x2048_o0_1920_S2048x128 gk bk gv bv := rfl

end Heads

/-- The packed projection x·Wkv + bkv at row r, column j. -/
theorem kv_apply (x0 : Vec Ideal S1x2048x256 .f32) (x1 : Vec Ideal S256x2048 .f32) (x2 : Vec Ideal S1x2048 .f32)
    (r : Fin 2048) (j : Fin 2048) :
    k0_pay3 x0 x1 x2 (ix2 r j)
      = (∑ k : Fin 256, x0 (ix3 (0 : Fin 1) r k) * x1 (ix2 k j)) + x2 (ix2 (0 : Fin 1) j) := by
  have e1 : k0_pay3 x0 x1 x2 (ix2 r j)
      = matmul dot_S2048x256_S256x2048_S2048x2048_1_0_0_1_n_n none (k0_pay2 x0)
          (truncf .bf16 (shapeCast S256x2048 x1 shapeCasts_S256x2048_S256x2048) bitsLt_bf16_f32)
          (constant S2048x2048 .f32 0x00000000#32) (ix2 r j)
        + broadcastTo S2048x2048 (shapeCast S1x2048 x2 shapeCasts_S1x2048_S1x2048) broadcasts_S1x2048_S2048x2048 (ix2 r j) := rfl
  rw [e1]
  congr 1
  · refine (Cert.Ops.matmul_plain_apply _ rfl rfl rfl rfl rfl rfl none _ _ r j).trans ?_
    refine Finset.sum_congr rfl fun k _ => ?_
    congr 1
    · exact Cert.Ops.shapeCast_1ab_ab_apply x0 _ r k
    · exact shapeCast_apply x1 _ (ix2 k j) (ix2 k j) rfl
  · refine (broadcastTo_1b_ab_apply _ _ r j).trans ?_
    exact shapeCast_apply x2 _ (ix2 (0 : Fin 1) j) (ix2 (0 : Fin 1) j) rfl

/-- A head's map at entry (d, e): the sum over the 2048 rows of the layer-normalised key slice at channel d times the
    layer-normalised value slice at channel e. -/
theorem headA_apply (kv : FVec Ideal S2048x2048 .f32) (ok ov : ℕ) (hk : S2048x2048.Slices ![0, ok] S2048x128)
    (hv : S2048x2048.Slices ![0, ov] S2048x128) (gk bk gv bv : Vec Ideal S1x128 .f32)
    (hok : ok + 128 ≤ 2048) (hov : ov + 128 ≤ 2048) (d e : Fin 128) :
    headA kv ok ov hk hv gk bk gv bv (ix2 d e)
      = ∑ r : Fin 2048,
          Cert.Spec.ln (fun j => kv (ix2 r (⟨ok + j.val, by have := j.isLt; omega⟩ : Fin 2048)))
              (fun j => gk (ix2 (0 : Fin 1) j)) (fun j => bk (ix2 (0 : Fin 1) j)) d
            * Cert.Spec.ln (fun j => kv (ix2 r (⟨ov + j.val, by have := j.isLt; omega⟩ : Fin 2048)))
              (fun j => gv (ix2 (0 : Fin 1) j)) (fun j => bv (ix2 (0 : Fin 1) j)) e := by
  unfold headA
  refine (Cert.Ops.matmul_gram_apply _ rfl rfl rfl rfl rfl rfl none _ _ d e).trans ?_
  refine Finset.sum_congr rfl fun r _ => ?_
  congr 1
  · refine (Cert.Ops.lnV_apply _ gk bk _ _ _ _ r d).trans ?_
    congr 1
    funext j
    exact Cert.Ops.slice_cols_apply ok kv hk r j _
  · refine (Cert.Ops.lnV_apply _ gv bv _ _ _ _ r e).trans ?_
    congr 1
    funext j
    exact Cert.Ops.slice_cols_apply ov kv hv r j _

section Spec

variable (I : Cert.Spec.Inputs) (b : Fin 16)
  (x0 : Vec Ideal S1x2048x256 .f32) (x1 : Vec Ideal S256x2048 .f32) (x2 : Vec Ideal S1x2048 .f32)
  (h0 : ∀ (r : Fin 2048) (k : Fin 256), x0 (ix3 (0 : Fin 1) r k) = I.X b r k)
  (h1k : ∀ (k : Fin 256) (j : Fin 1024), x1 (ix2 k (⟨j.val, by have := j.isLt; omega⟩ : Fin 2048)) = I.Wk k j)
  (h1v : ∀ (k : Fin 256) (j : Fin 1024), x1 (ix2 k (⟨1024 + j.val, by have := j.isLt; omega⟩ : Fin 2048)) = I.Wv k j)
  (h2k : ∀ j : Fin 1024, x2 (ix2 (0 : Fin 1) (⟨j.val, by have := j.isLt; omega⟩ : Fin 2048)) = I.bk j)
  (h2v : ∀ j : Fin 1024, x2 (ix2 (0 : Fin 1) (⟨1024 + j.val, by have := j.isLt; omega⟩ : Fin 2048)) = I.bv j)

include h0 h1k h2k in
/-- A key column of the packed projection is the key projection of the row. -/
theorem kv_key (r : Fin 2048) (q : Fin 1024) (J : Fin 2048) (hJ : J.val = q.val) :
    k0_pay3 x0 x1 x2 (ix2 r J) = Cert.Spec.proj (I.X b r) I.Wk I.bk q := by
  obtain ⟨Jv, hJlt⟩ := J
  have eJ : Jv = q.val := hJ
  subst eJ
  rw [kv_apply]
  unfold Cert.Spec.proj
  rw [h2k q]
  congr 1
  refine Finset.sum_congr rfl fun k _ => ?_
  rw [h0 r k, h1k k q]

include h0 h1v h2v in
/-- A value column of the packed projection is the value projection of the row. -/
theorem kv_val (r : Fin 2048) (q : Fin 1024) (J : Fin 2048) (hJ : J.val = 1024 + q.val) :
    k0_pay3 x0 x1 x2 (ix2 r J) = Cert.Spec.proj (I.X b r) I.Wv I.bv q := by
  obtain ⟨Jv, hJlt⟩ := J
  have eJ : Jv = 1024 + q.val := hJ
  subst eJ
  rw [kv_apply]
  unfold Cert.Spec.proj
  rw [h2v q]
  congr 1
  refine Finset.sum_congr rfl fun k _ => ?_
  rw [h0 r k, h1v k q]

include h0 h1k h1v h2k h2v in
/-- A head's folded map, with the head's rows of the four layer-norm tables and of the output weight, is the
    specification's. -/
theorem headM_spec (hd : Fin 8) (ok ov : ℕ) (hok : ok = 128 * hd.val) (hov : ov = 1024 + 128 * hd.val)
    (hk : S2048x2048.Slices ![0, ok] S2048x128) (hv : S2048x2048.Slices ![0, ov] S2048x128)
    (gk bk gv bv : Vec Ideal S1x128 .f32) (wo : Vec Ideal S128x128 .f32)
    (hgk : ∀ j : Fin 128, gk (ix2 (0 : Fin 1) j) = I.gk hd j) (hbk : ∀ j : Fin 128, bk (ix2 (0 : Fin 1) j) = I.bkl hd j)
    (hgv : ∀ j : Fin 128, gv (ix2 (0 : Fin 1) j) = I.gv hd j) (hbv : ∀ j : Fin 128, bv (ix2 (0 : Fin 1) j) = I.bvl hd j)
    (hwo : ∀ e c : Fin 128, wo (ix2 e c) = I.Wo (Cert.Spec.hcol hd e) c) (d c : Fin 128) :
    headM (k0_pay3 x0 x1 x2) ok ov hk hv gk bk gv bv wo (ix2 d c) = I.mK b hd d c := by
  have hlt := hd.isLt
  unfold headM
  refine (Cert.Ops.matmul_plain_apply _ rfl rfl rfl rfl rfl rfl none _ _ d c).trans ?_
  unfold Cert.Spec.Inputs.mK
  refine Finset.sum_congr rfl fun e _ => ?_
  rw [hwo e c]
  congr 1
  rw [headA_apply _ ok ov hk hv gk bk gv bv (by omega) (by omega) d e]
  unfold Cert.Spec.Inputs.amap
  refine Finset.sum_congr rfl fun r _ => ?_
  unfold Cert.Spec.Inputs.kh Cert.Spec.Inputs.vh
  congr 1
  · congr 1
    · funext j
      exact kv_key I b x0 x1 x2 h0 h1k h2k r (Cert.Spec.hcol hd j) _ (by show ok + j.val = hd.val * 128 + j.val; omega)
    · funext j; exact hgk j
    · funext j; exact hbk j
  · congr 1
    · funext j
      exact kv_val I b x0 x1 x2 h0 h1v h2v r (Cert.Spec.hcol hd j) _ (by show ov + j.val = 1024 + (hd.val * 128 + j.val); omega)
    · funext j; exact hgv j
    · funext j; exact hbv j

end Spec

/-- The last stage: the eight folded maps stacked into the 1024-by-128 matrix M, the effective weight Wq·M / n and bias
    (bq·M + bo) / n, and the product of the block's rows with the effective weight plus the bias, is the
    specification's first arrangement when the eight maps are the specification's. -/
theorem final_apply (I : Cert.Spec.Inputs) (b : Fin 16) (v2 : FVec Ideal S2048x256 .bf16)
    (M0 M1 M2 M3 M4 M5 M6 A7 : FVec Ideal S128x128 .f32) (wo7 : Vec Ideal S128x128 .f32)
    (wq : Vec Ideal S256x1024 .f32) (bq : Vec Ideal S1x1024 .f32) (bo : Vec Ideal S1x128 .f32)
    (hx : ∀ (r : Fin 2048) (k : Fin 256), v2 (ix2 r k) = I.X b r k)
    (hM0 : ∀ d c : Fin 128, M0 (ix2 d c) = I.mK b (⟨0, by decide⟩ : Fin 8) d c)
    (hM1 : ∀ d c : Fin 128, M1 (ix2 d c) = I.mK b (⟨1, by decide⟩ : Fin 8) d c)
    (hM2 : ∀ d c : Fin 128, M2 (ix2 d c) = I.mK b (⟨2, by decide⟩ : Fin 8) d c)
    (hM3 : ∀ d c : Fin 128, M3 (ix2 d c) = I.mK b (⟨3, by decide⟩ : Fin 8) d c)
    (hM4 : ∀ d c : Fin 128, M4 (ix2 d c) = I.mK b (⟨4, by decide⟩ : Fin 8) d c)
    (hM5 : ∀ d c : Fin 128, M5 (ix2 d c) = I.mK b (⟨5, by decide⟩ : Fin 8) d c)
    (hM6 : ∀ d c : Fin 128, M6 (ix2 d c) = I.mK b (⟨6, by decide⟩ : Fin 8) d c)
    (hM7 : ∀ d c : Fin 128, (matmul (φ₂ := .f32) dot_S128x128_S128x128_S128x128_1_0_0_1_n_n none A7 wo7 (constant S128x128 .f32 0x00000000#32)) (ix2 d c) = I.mK b (⟨7, by decide⟩ : Fin 8) d c)
    (h3 : ∀ (k : Fin 256) (j : Fin 1024), wq (ix2 k j) = I.Wq k j)
    (h4 : ∀ j : Fin 1024, bq (ix2 (0 : Fin 1) j) = I.bq j)
    (h6 : ∀ c : Fin 128, bo (ix2 (0 : Fin 1) c) = I.bo c)
    (r : Fin 2048) (c : Fin 128) :
    k0_pay1 v2 M0 M1 M2 M3 M4 M5 M6 A7 wo7 wq bq bo (ix3 (0 : Fin 1) r c) = I.outK b r c := by
  have hM : ∀ (h : Fin 8) (d c : Fin 128),
      (![M0, M1, M2, M3, M4, M5, M6, (matmul (φ₂ := .f32) dot_S128x128_S128x128_S128x128_1_0_0_1_n_n none A7 wo7 (constant S128x128 .f32 0x00000000#32))] h) (ix2 d c) = I.mK b h d c := by
    intro h d c
    match h with
    | ⟨0, _⟩ => exact hM0 d c
    | ⟨1, _⟩ => exact hM1 d c
    | ⟨2, _⟩ => exact hM2 d c
    | ⟨3, _⟩ => exact hM3 d c
    | ⟨4, _⟩ => exact hM4 d c
    | ⟨5, _⟩ => exact hM5 d c
    | ⟨6, _⟩ => exact hM6 d c
    | ⟨7, _⟩ => exact hM7 d c
    | ⟨n + 8, hn⟩ => exact absurd hn (by omega)
  have hS : ∀ (j : Fin 1024) (c : Fin 128),
      concatenate S1024x128 0 [⟨S128x128, M0⟩, ⟨S128x128, M1⟩, ⟨S128x128, M2⟩, ⟨S128x128, M3⟩, ⟨S128x128, M4⟩,
          ⟨S128x128, M5⟩, ⟨S128x128, M6⟩, ⟨S128x128, (matmul (φ₂ := .f32) dot_S128x128_S128x128_S128x128_1_0_0_1_n_n none A7 wo7 (constant S128x128 .f32 0x00000000#32))⟩]
          concatenates_S128x128_S128x128_S128x128_S128x128_S128x128_S128x128_S128x128_S128x128_S1024x128_d0 (ix2 j c)
        = I.mK b (Cert.Spec.hOf j) (Cert.Spec.dOf j) c := by
    intro j c
    refine (Cert.Ops.concat8_apply M0 M1 M2 M3 M4 M5 M6 _ _ j c).trans ?_
    exact hM (Cert.Spec.hOf j) (Cert.Spec.dOf j) c
  unfold k0_pay1
  refine (Cert.Ops.shapeCast_ab_1ab_apply _ _ (0 : Fin 1) r c).trans ?_
  refine (addf_apply _ _ _).trans ?_
  unfold Cert.Spec.Inputs.outK
  congr 1
  · refine (Cert.Ops.matmul_plain_apply _ rfl rfl rfl rfl rfl rfl none _ _ r c).trans ?_
    refine Finset.sum_congr rfl fun k _ => ?_
    rw [hx r k]
    congr 1
    refine (mulf_apply _ _ _).trans ?_
    congr 1
    refine (Cert.Ops.matmul_plain_apply _ rfl rfl rfl rfl rfl rfl none _ _ k c).trans ?_
    refine Finset.sum_congr rfl fun j _ => ?_
    rw [h3 k j, hS j c]
  · refine (broadcastTo_1b_ab_apply _ _ r c).trans ?_
    refine (mulf_apply _ _ _).trans ?_
    congr 1
    refine (addf_apply _ _ _).trans ?_
    congr 1
    · refine (Cert.Ops.matmul_plain_apply _ rfl rfl rfl rfl rfl rfl none _ _ (0 : Fin 1) c).trans ?_
      refine Finset.sum_congr rfl fun j _ => ?_
      rw [h4 j, hS j c]
    · exact h6 c

/-- One row of an 8-by-128 table loaded as a 1-by-128 block, at channel j. -/
theorem ld_row_apply (t : Vec Ideal S8x128 .f32) (o : ℕ)
    (inb : ∀ ax, (![o, 0] : Fin 2 → ℕ) ax + S1x128.size ax ≤ S8x128.size ax) (ho : o < 8) (j : Fin 128) :
    View.ld t (Rect.unit (s := S8x128) ![o, 0] S1x128.size inb) (ix2 (0 : Fin 1) j) = t (ix2 (⟨o, ho⟩ : Fin 8) j) :=
  Cert.Ops.ld_rows_apply o t inb (0 : Fin 1) j ho

/-- The stored block at row r, channel c is the first arrangement's output of batch member b, when the eleven input
    blocks hold that member's rows, the key weight in columns 0–1023 and the value weight in columns 1024–2047 of the
    packed weight (likewise the packed bias), and the remaining inputs whole. -/
theorem out_apply (x0 : Vec Ideal S1x2048x256 .f32) (x1 : Vec Ideal S256x2048 .f32) (x2 : Vec Ideal S1x2048 .f32)
    (x3 : Vec Ideal S256x1024 .f32) (x4 : Vec Ideal S1x1024 .f32) (x5 : Vec Ideal S1024x128 .f32) (x6 : Vec Ideal S1x128 .f32)
    (x7 x8 x9 x10 : Vec Ideal S8x128 .f32) (I : Cert.Spec.Inputs) (b : Fin 16)
    (h0 : ∀ (r : Fin 2048) (k : Fin 256), x0 (ix3 (0 : Fin 1) r k) = I.X b r k)
    (h1k : ∀ (k : Fin 256) (j : Fin 1024), x1 (ix2 k (⟨j.val, by have := j.isLt; omega⟩ : Fin 2048)) = I.Wk k j)
    (h1v : ∀ (k : Fin 256) (j : Fin 1024), x1 (ix2 k (⟨1024 + j.val, by have := j.isLt; omega⟩ : Fin 2048)) = I.Wv k j)
    (h2k : ∀ j : Fin 1024, x2 (ix2 (0 : Fin 1) (⟨j.val, by have := j.isLt; omega⟩ : Fin 2048)) = I.bk j)
    (h2v : ∀ j : Fin 1024, x2 (ix2 (0 : Fin 1) (⟨1024 + j.val, by have := j.isLt; omega⟩ : Fin 2048)) = I.bv j)
    (h3 : ∀ (k : Fin 256) (j : Fin 1024), x3 (ix2 k j) = I.Wq k j)
    (h4 : ∀ j : Fin 1024, x4 (ix2 (0 : Fin 1) j) = I.bq j)
    (h5 : ∀ (j : Fin 1024) (c : Fin 128), x5 (ix2 j c) = I.Wo j c)
    (h6 : ∀ c : Fin 128, x6 (ix2 (0 : Fin 1) c) = I.bo c)
    (h7 : ∀ (h : Fin 8) (d : Fin 128), x7 (ix2 h d) = I.gk h d)
    (h8 : ∀ (h : Fin 8) (d : Fin 128), x8 (ix2 h d) = I.bkl h d)
    (h9 : ∀ (h : Fin 8) (d : Fin 128), x9 (ix2 h d) = I.gv h d)
    (h10 : ∀ (h : Fin 8) (d : Fin 128), x10 (ix2 h d) = I.bvl h d)
    (r : Fin 2048) (c : Fin 128) :
    out0_11 x0 x1 x2 x3 x4 x5 x6 x7 x8 x9 x10 (ix3 (0 : Fin 1) r c) = I.outK b r c := by
  have hz3 : (![0, 0, 0] : Fin 3 → ℕ) = fun _ => 0 := by
    funext a
    match a with
    | ⟨0, _⟩ => rfl
    | ⟨1, _⟩ => rfl
    | ⟨2, _⟩ => rfl
  have hz2 : (![0, 0] : Fin 2 → ℕ) = fun _ => 0 := by
    funext a
    match a with
    | ⟨0, _⟩ => rfl
    | ⟨1, _⟩ => rfl
  unfold out0_11
  rw [View.canon_unit_zero hz3]
  simp only [View.ld_unit_zero (S := S1x2048x256) hz3, View.ld_unit_zero (S := S256x2048) hz2,
    View.ld_unit_zero (S := S1x2048) hz2, View.ld_unit_zero (S := S256x1024) hz2, View.ld_unit_zero (S := S1x1024) hz2,
    View.ld_unit_zero (S := S1x128) hz2]
  rw [head0_eq, head1_eq, head2_eq, head3_eq, head4_eq, head5_eq, head6_eq, head7_eq]
  refine final_apply I b _ _ _ _ _ _ _ _ _ _ _ _ _ ?_ ?_ ?_ ?_ ?_ ?_ ?_ ?_ ?_ h3 h4 h6 r c
  · intro r k
    refine (Cert.Ops.shapeCast_1ab_ab_apply x0 _ r k).trans (h0 r k)
  · exact headM_spec I b x0 x1 x2 h0 h1k h1v h2k h2v (⟨0, by decide⟩ : Fin 8) 0 1024 rfl rfl _ _ _ _ _ _ _
      (fun j => (ld_row_apply x7 0 _ (by decide) j).trans (h7 _ j))
      (fun j => (ld_row_apply x8 0 _ (by decide) j).trans (h8 _ j))
      (fun j => (ld_row_apply x9 0 _ (by decide) j).trans (h9 _ j))
      (fun j => (ld_row_apply x10 0 _ (by decide) j).trans (h10 _ j))
      (fun e c => (Cert.Ops.ld_rows_apply 0 x5 _ e c (by have := e.isLt; omega)).trans (h5 _ c))
  · exact headM_spec I b x0 x1 x2 h0 h1k h1v h2k h2v (⟨1, by decide⟩ : Fin 8) 128 1152 rfl rfl _ _ _ _ _ _ _
      (fun j => (ld_row_apply x7 1 _ (by decide) j).trans (h7 _ j))
      (fun j => (ld_row_apply x8 1 _ (by decide) j).trans (h8 _ j))
      (fun j => (ld_row_apply x9 1 _ (by decide) j).trans (h9 _ j))
      (fun j => (ld_row_apply x10 1 _ (by decide) j).trans (h10 _ j))
      (fun e c => (Cert.Ops.ld_rows_apply 128 x5 _ e c (by have := e.isLt; omega)).trans (h5 _ c))
  · exact headM_spec I b x0 x1 x2 h0 h1k h1v h2k h2v (⟨2, by decide⟩ : Fin 8) 256 1280 rfl rfl _ _ _ _ _ _ _
      (fun j => (ld_row_apply x7 2 _ (by decide) j).trans (h7 _ j))
      (fun j => (ld_row_apply x8 2 _ (by decide) j).trans (h8 _ j))
      (fun j => (ld_row_apply x9 2 _ (by decide) j).trans (h9 _ j))
      (fun j => (ld_row_apply x10 2 _ (by decide) j).trans (h10 _ j))
      (fun e c => (Cert.Ops.ld_rows_apply 256 x5 _ e c (by have := e.isLt; omega)).trans (h5 _ c))
  · exact headM_spec I b x0 x1 x2 h0 h1k h1v h2k h2v (⟨3, by decide⟩ : Fin 8) 384 1408 rfl rfl _ _ _ _ _ _ _
      (fun j => (ld_row_apply x7 3 _ (by decide) j).trans (h7 _ j))
      (fun j => (ld_row_apply x8 3 _ (by decide) j).trans (h8 _ j))
      (fun j => (ld_row_apply x9 3 _ (by decide) j).trans (h9 _ j))
      (fun j => (ld_row_apply x10 3 _ (by decide) j).trans (h10 _ j))
      (fun e c => (Cert.Ops.ld_rows_apply 384 x5 _ e c (by have := e.isLt; omega)).trans (h5 _ c))
  · exact headM_spec I b x0 x1 x2 h0 h1k h1v h2k h2v (⟨4, by decide⟩ : Fin 8) 512 1536 rfl rfl _ _ _ _ _ _ _
      (fun j => (ld_row_apply x7 4 _ (by decide) j).trans (h7 _ j))
      (fun j => (ld_row_apply x8 4 _ (by decide) j).trans (h8 _ j))
      (fun j => (ld_row_apply x9 4 _ (by decide) j).trans (h9 _ j))
      (fun j => (ld_row_apply x10 4 _ (by decide) j).trans (h10 _ j))
      (fun e c => (Cert.Ops.ld_rows_apply 512 x5 _ e c (by have := e.isLt; omega)).trans (h5 _ c))
  · exact headM_spec I b x0 x1 x2 h0 h1k h1v h2k h2v (⟨5, by decide⟩ : Fin 8) 640 1664 rfl rfl _ _ _ _ _ _ _
      (fun j => (ld_row_apply x7 5 _ (by decide) j).trans (h7 _ j))
      (fun j => (ld_row_apply x8 5 _ (by decide) j).trans (h8 _ j))
      (fun j => (ld_row_apply x9 5 _ (by decide) j).trans (h9 _ j))
      (fun j => (ld_row_apply x10 5 _ (by decide) j).trans (h10 _ j))
      (fun e c => (Cert.Ops.ld_rows_apply 640 x5 _ e c (by have := e.isLt; omega)).trans (h5 _ c))
  · exact headM_spec I b x0 x1 x2 h0 h1k h1v h2k h2v (⟨6, by decide⟩ : Fin 8) 768 1792 rfl rfl _ _ _ _ _ _ _
      (fun j => (ld_row_apply x7 6 _ (by decide) j).trans (h7 _ j))
      (fun j => (ld_row_apply x8 6 _ (by decide) j).trans (h8 _ j))
      (fun j => (ld_row_apply x9 6 _ (by decide) j).trans (h9 _ j))
      (fun j => (ld_row_apply x10 6 _ (by decide) j).trans (h10 _ j))
      (fun e c => (Cert.Ops.ld_rows_apply 768 x5 _ e c (by have := e.isLt; omega)).trans (h5 _ c))
  · exact headM_spec I b x0 x1 x2 h0 h1k h1v h2k h2v (⟨7, by decide⟩ : Fin 8) 896 1920 rfl rfl _ _ _ _ _ _ _
      (fun j => (ld_row_apply x7 7 _ (by decide) j).trans (h7 _ j))
      (fun j => (ld_row_apply x8 7 _ (by decide) j).trans (h8 _ j))
      (fun j => (ld_row_apply x9 7 _ (by decide) j).trans (h9 _ j))
      (fun j => (ld_row_apply x10 7 _ (by decide) j).trans (h10 _ j))
      (fun e c => (Cert.Ops.ld_rows_apply 896 x5 _ e c (by have := e.isLt; omega)).trans (h5 _ c))

end Cert.KernelIdeal.Body

end
-- ==== Proof.KernelArr.lean ====
/-
  The fused program's result array. Grid point b stores, through the output window, block b of the array whose
  entry (b, r, c) is the first arrangement's output (Spec.outK) of the inputs held by the memory; the sixteen blocks
  cover the array, so after the run the result array is that function of the argument arrays.
-/
import proofs.«135597_g2000303815147335_pallasbulk_1180_1_alg».proof.Defs
import proofs.«135597_g2000303815147335_pallasbulk_1180_1_alg».proof.Proof.Gen.KernelIdeal.Value
import proofs.«135597_g2000303815147335_pallasbulk_1180_1_alg».proof.Proof.Spec
import proofs.«135597_g2000303815147335_pallasbulk_1180_1_alg».proof.Proof.KernelInputs
import proofs.«135597_g2000303815147335_pallasbulk_1180_1_alg».proof.Proof.KernelBody

noncomputable section

namespace Cert.KernelIdeal.Arr

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ) (ρ : Dev nD → PrngReg)

/-- The block index of the input and of the output window at point t is (t, 0, 0). -/
theorem idx_io : ∀ t : Fin cfg0.N,
    win0_0.index t (0 : Fin 3) = t.val ∧ win0_0.index t (1 : Fin 3) = 0 ∧ win0_0.index t (2 : Fin 3) = 0
    ∧ win0_11.index t (0 : Fin 3) = t.val ∧ win0_11.index t (1 : Fin 3) = 0 ∧ win0_11.index t (2 : Fin 3) = 0 :=
  (by decide +kernel : ∀ t : Fin grid0.N, _)

/-- Every other input window is its whole array: its block index is (0, 0) at every point. -/
theorem idx_whole : ∀ t : Fin cfg0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0) :=
  (by decide +kernel : ∀ t : Fin grid0.N, _)

/-- The input window's block at point t is batch member t of the input: entry (0, r, k) of the block is entry (t, r, k)
    of the array. -/
theorem blk0 (c : Dev nD) (t : Fin cfg0.N) (y : S1x2048x256.Idx) (i : S16x2048x256.Idx)
    (h0 : (i 0).val = t.val) (h1 : (i 1).val = (y 1).val) (h2 : (i 2).val = (y 2).val) :
    (iblk m c 0 t : Vec Ideal S1x2048x256 .f32) y = (m ((c : Thread nD τ).loc main_arg0) : S16x2048x256.Idx → EReal) i := by
  obtain ⟨e0, e1, e2, -⟩ := idx_io t
  unfold iblk
  rw [View.read_apply]
  show V m c main_arg0 _ = m (c.tc.loc main_arg0) _
  rw [V_main_arg0]
  congr 1
  funext a
  apply Fin.ext
  have hy : (y 0).val < 1 := (y 0).isLt
  match a with
  | ⟨0, _⟩ => show win0_0.index t 0 * 1 + 1 * (y 0).val = (i 0).val; rw [e0, h0]; omega
  | ⟨1, _⟩ => show win0_0.index t 1 * 2048 + 1 * (y 1).val = (i 1).val; rw [e1, h1]; omega
  | ⟨2, _⟩ => show win0_0.index t 2 * 256 + 1 * (y 2).val = (i 2).val; rw [e2, h2]; omega

/-- The packed key/value weight the region finds: the key weight and the value weight side by side. -/
theorem hostW (c : Dev nD) : (V m c main_v0 : S256x2048.Idx → EReal)
    = concatenate S256x2048 1 [⟨S256x1024, m ((c : Thread nD τ).loc main_arg3)⟩, ⟨S256x1024, m ((c : Thread nD τ).loc main_arg5)⟩]
        concatenates_S256x1024_S256x1024_S256x2048_d1 := by
  dsimp only [Gen.V, Gen.hostOps0]; after_results

/-- The packed key/value bias the region finds: the key bias and the value bias side by side. -/
theorem hostB (c : Dev nD) : (V m c main_v1 : S1x2048.Idx → EReal)
    = concatenate S1x2048 1 [⟨S1x1024, m ((c : Thread nD τ).loc main_arg4)⟩, ⟨S1x1024, m ((c : Thread nD τ).loc main_arg6)⟩]
        concatenates_S1x1024_S1x1024_S1x2048_d1 := by
  dsimp only [Gen.V, Gen.hostOps0]; after_results

/-- Window 1's block is the packed weight, whole. -/
theorem blk1 (c : Dev nD) (t : Fin cfg0.N) (y : S256x2048.Idx) :
    (iblk m c 1 t : Vec Ideal S256x2048 .f32) y = (V m c main_v0 : S256x2048.Idx → EReal) y := by
  obtain ⟨⟨e0, e1⟩, -⟩ := idx_whole t
  unfold iblk
  rw [View.read_apply]
  show V m c main_v0 _ = V m c main_v0 _
  congr 1
  funext a
  apply Fin.ext
  match a with
  | ⟨0, _⟩ => show win0_1.index t 0 * 256 + 1 * (y 0).val = (y 0).val; rw [e0]; omega
  | ⟨1, _⟩ => show win0_1.index t 1 * 2048 + 1 * (y 1).val = (y 1).val; rw [e1]; omega

/-- A column below 1024 of the packed weight is that column of the key weight. -/
theorem blk1k (c : Dev nD) (t : Fin cfg0.N) (k : Fin 256) (j : Fin 1024) :
    (iblk m c 1 t : Vec Ideal S256x2048 .f32) (ix2 k (⟨j.val, by have := j.isLt; omega⟩ : Fin 2048))
      = (m ((c : Thread nD τ).loc main_arg3) : S256x1024.Idx → EReal) (ix2 k j) := by
  rw [blk1, hostW]
  exact concatenate_pair_apply_left (t := S256x2048) (s₁ := S256x1024) (s₂ := S256x1024) 1 _ _ _ _ rfl _ (fun b => by
    match b with
    | ⟨0, _⟩ => rfl
    | ⟨1, _⟩ => rfl)

/-- Column 1024 + j of the packed weight is column j of the value weight. -/
theorem blk1v (c : Dev nD) (t : Fin cfg0.N) (k : Fin 256) (j : Fin 1024) :
    (iblk m c 1 t : Vec Ideal S256x2048 .f32) (ix2 k (⟨1024 + j.val, by have := j.isLt; omega⟩ : Fin 2048))
      = (m ((c : Thread nD τ).loc main_arg5) : S256x1024.Idx → EReal) (ix2 k j) := by
  rw [blk1, hostW]
  exact concatenate_pair_apply_right (t := S256x2048) (s₁ := S256x1024) (s₂ := S256x1024) 1 _ _ _ _ rfl rfl _
    (fun b hb => by
      match b with
      | ⟨0, _⟩ => rfl
      | ⟨1, _⟩ => exact absurd rfl hb)
    (by show j.val + 1024 = 1024 + j.val; omega)

/-- Window 2's block is the packed bias, whole. -/
theorem blk2 (c : Dev nD) (t : Fin cfg0.N) (y : S1x2048.Idx) :
    (iblk m c 2 t : Vec Ideal S1x2048 .f32) y = (V m c main_v1 : S1x2048.Idx → EReal) y := by
  obtain ⟨e0, e1⟩ := (idx_whole t).2.1
  unfold iblk
  rw [View.read_apply]
  show V m c main_v1 _ = V m c main_v1 _
  congr 1
  funext a
  apply Fin.ext
  match a with
  | ⟨0, _⟩ => show win0_2.index t 0 * 1 + 1 * (y 0).val = (y 0).val; rw [e0]; omega
  | ⟨1, _⟩ => show win0_2.index t 1 * 2048 + 1 * (y 1).val = (y 1).val; rw [e1]; omega

/-- A column below 1024 of the packed bias is that column of the key bias. -/
theorem blk2k (c : Dev nD) (t : Fin cfg0.N) (j : Fin 1024) :
    (iblk m c 2 t : Vec Ideal S1x2048 .f32) (ix2 (0 : Fin 1) (⟨j.val, by have := j.isLt; omega⟩ : Fin 2048))
      = (m ((c : Thread nD τ).loc main_arg4) : S1x1024.Idx → EReal) (ix2 (0 : Fin 1) j) := by
  rw [blk2, hostB]
  exact concatenate_pair_apply_left (t := S1x2048) (s₁ := S1x1024) (s₂ := S1x1024) 1 _ _ _ _ rfl _ (fun b => by
    match b with
    | ⟨0, _⟩ => rfl
    | ⟨1, _⟩ => rfl)

/-- Column 1024 + j of the packed bias is column j of the value bias. -/
theorem blk2v (c : Dev nD) (t : Fin cfg0.N) (j : Fin 1024) :
    (iblk m c 2 t : Vec Ideal S1x2048 .f32) (ix2 (0 : Fin 1) (⟨1024 + j.val, by have := j.isLt; omega⟩ : Fin 2048))
      = (m ((c : Thread nD τ).loc main_arg6) : S1x1024.Idx → EReal) (ix2 (0 : Fin 1) j) := by
  rw [blk2, hostB]
  exact concatenate_pair_apply_right (t := S1x2048) (s₁ := S1x1024) (s₂ := S1x1024) 1 _ _ _ _ rfl rfl _
    (fun b hb => by
      match b with
      | ⟨0, _⟩ => rfl
      | ⟨1, _⟩ => exact absurd rfl hb)
    (by show j.val + 1024 = 1024 + j.val; omega)

/-- Window 3's block is the query weight, whole. -/
theorem blk3 (c : Dev nD) (t : Fin cfg0.N) (y : S256x1024.Idx) :
    (iblk m c 3 t : Vec Ideal S256x1024 .f32) y = (m ((c : Thread nD τ).loc main_arg1) : S256x1024.Idx → EReal) y := by
  obtain ⟨e0, e1⟩ := (idx_whole t).2.2.1
  unfold iblk
  rw [View.read_apply]
  show V m c main_arg1 _ = m (c.tc.loc main_arg1) _
  rw [V_main_arg1]
  congr 1
  funext a
  apply Fin.ext
  match a with
  | ⟨0, _⟩ => show win0_3.index t 0 * 256 + 1 * (y 0).val = (y 0).val; rw [e0]; omega
  | ⟨1, _⟩ => show win0_3.index t 1 * 1024 + 1 * (y 1).val = (y 1).val; rw [e1]; omega

/-- Window 4's block is the query bias, whole. -/
theorem blk4 (c : Dev nD) (t : Fin cfg0.N) (y : S1x1024.Idx) :
    (iblk m c 4 t : Vec Ideal S1x1024 .f32) y = (m ((c : Thread nD τ).loc main_arg2) : S1x1024.Idx → EReal) y := by
  obtain ⟨e0, e1⟩ := (idx_whole t).2.2.2.1
  unfold iblk
  rw [View.read_apply]
  show V m c main_arg2 _ = m (c.tc.loc main_arg2) _
  rw [V_main_arg2]
  congr 1
  funext a
  apply Fin.ext
  match a with
  | ⟨0, _⟩ => show win0_4.index t 0 * 1 + 1 * (y 0).val = (y 0).val; rw [e0]; omega
  | ⟨1, _⟩ => show win0_4.index t 1 * 1024 + 1 * (y 1).val = (y 1).val; rw [e1]; omega

/-- Window 5's block is the output weight, whole. -/
theorem blk5 (c : Dev nD) (t : Fin cfg0.N) (y : S1024x128.Idx) :
    (iblk m c 5 t : Vec Ideal S1024x128 .f32) y = (m ((c : Thread nD τ).loc main_arg7) : S1024x128.Idx → EReal) y := by
  obtain ⟨e0, e1⟩ := (idx_whole t).2.2.2.2.1
  unfold iblk
  rw [View.read_apply]
  show V m c main_arg7 _ = m (c.tc.loc main_arg7) _
  rw [V_main_arg7]
  congr 1
  funext a
  apply Fin.ext
  match a with
  | ⟨0, _⟩ => show win0_5.index t 0 * 1024 + 1 * (y 0).val = (y 0).val; rw [e0]; omega
  | ⟨1, _⟩ => show win0_5.index t 1 * 128 + 1 * (y 1).val = (y 1).val; rw [e1]; omega

/-- Window 6's block is the output bias, whole. -/
theorem blk6 (c : Dev nD) (t : Fin cfg0.N) (y : S1x128.Idx) :
    (iblk m c 6 t : Vec Ideal S1x128 .f32) y = (m ((c : Thread nD τ).loc main_arg8) : S1x128.Idx → EReal) y := by
  obtain ⟨e0, e1⟩ := (idx_whole t).2.2.2.2.2.1
  unfold iblk
  rw [View.read_apply]
  show V m c main_arg8 _ = m (c.tc.loc main_arg8) _
  rw [V_main_arg8]
  congr 1
  funext a
  apply Fin.ext
  match a with
  | ⟨0, _⟩ => show win0_6.index t 0 * 1 + 1 * (y 0).val = (y 0).val; rw [e0]; omega
  | ⟨1, _⟩ => show win0_6.index t 1 * 128 + 1 * (y 1).val = (y 1).val; rw [e1]; omega

/-- Window 7's block is the keys' layer-norm scale, whole. -/
theorem blk7 (c : Dev nD) (t : Fin cfg0.N) (y : S8x128.Idx) :
    (iblk m c 7 t : Vec Ideal S8x128 .f32) y = (m ((c : Thread nD τ).loc main_arg9) : S8x128.Idx → EReal) y := by
  obtain ⟨e0, e1⟩ := (idx_whole t).2.2.2.2.2.2.1
  unfold iblk
  rw [View.read_apply]
  show V m c main_arg9 _ = m (c.tc.loc main_arg9) _
  rw [V_main_arg9]
  congr 1
  funext a
  apply Fin.ext
  match a with
  | ⟨0, _⟩ => show win0_7.index t 0 * 8 + 1 * (y 0).val = (y 0).val; rw [e0]; omega
  | ⟨1, _⟩ => show win0_7.index t 1 * 128 + 1 * (y 1).val = (y 1).val; rw [e1]; omega

/-- Window 8's block is the keys' layer-norm shift, whole. -/
theorem blk8 (c : Dev nD) (t : Fin cfg0.N) (y : S8x128.Idx) :
    (iblk m c 8 t : Vec Ideal S8x128 .f32) y = (m ((c : Thread nD τ).loc main_arg10) : S8x128.Idx → EReal) y := by
  obtain ⟨e0, e1⟩ := (idx_whole t).2.2.2.2.2.2.2.1
  unfold iblk
  rw [View.read_apply]
  show V m c main_arg10 _ = m (c.tc.loc main_arg10) _
  rw [V_main_arg10]
  congr 1
  funext a
  apply Fin.ext
  match a with
  | ⟨0, _⟩ => show win0_8.index t 0 * 8 + 1 * (y 0).val = (y 0).val; rw [e0]; omega
  | ⟨1, _⟩ => show win0_8.index t 1 * 128 + 1 * (y 1).val = (y 1).val; rw [e1]; omega

/-- Window 9's block is the values' layer-norm scale, whole. -/
theorem blk9 (c : Dev nD) (t : Fin cfg0.N) (y : S8x128.Idx) :
    (iblk m c 9 t : Vec Ideal S8x128 .f32) y = (m ((c : Thread nD τ).loc main_arg11) : S8x128.Idx → EReal) y := by
  obtain ⟨e0, e1⟩ := (idx_whole t).2.2.2.2.2.2.2.2.1
  unfold iblk
  rw [View.read_apply]
  show V m c main_arg11 _ = m (c.tc.loc main_arg11) _
  rw [V_main_arg11]
  congr 1
  funext a
  apply Fin.ext
  match a with
  | ⟨0, _⟩ => show win0_9.index t 0 * 8 + 1 * (y 0).val = (y 0).val; rw [e0]; omega
  | ⟨1, _⟩ => show win0_9.index t 1 * 128 + 1 * (y 1).val = (y 1).val; rw [e1]; omega

/-- Window 10's block is the values' layer-norm shift, whole. -/
theorem blk10 (c : Dev nD) (t : Fin cfg0.N) (y : S8x128.Idx) :
    (iblk m c 10 t : Vec Ideal S8x128 .f32) y = (m ((c : Thread nD τ).loc main_arg12) : S8x128.Idx → EReal) y := by
  obtain ⟨e0, e1⟩ := (idx_whole t).2.2.2.2.2.2.2.2.2
  unfold iblk
  rw [View.read_apply]
  show V m c main_arg12 _ = m (c.tc.loc main_arg12) _
  rw [V_main_arg12]
  congr 1
  funext a
  apply Fin.ext
  match a with
  | ⟨0, _⟩ => show win0_10.index t 0 * 8 + 1 * (y 0).val = (y 0).val; rw [e0]; omega
  | ⟨1, _⟩ => show win0_10.index t 1 * 128 + 1 * (y 1).val = (y 1).val; rw [e1]; omega

/-- At grid point t, with b the batch member t, the block the body leaves is the first arrangement's output of member b. -/
theorem point (c : Dev nD) (t : Fin cfg0.N) (b : Fin 16) (hb : b.val = t.val) (r : Fin 2048) (k : Fin 128) :
    out0_11 (iblk m c 0 t) (iblk m c 1 t) (iblk m c 2 t) (iblk m c 3 t) (iblk m c 4 t) (iblk m c 5 t) (iblk m c 6 t)
        (iblk m c 7 t) (iblk m c 8 t) (iblk m c 9 t) (iblk m c 10 t) (ix3 (0 : Fin 1) r k)
      = (inputs m c).outK b r k :=
  Cert.KernelIdeal.Body.out_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) (inputs m c) b
    (fun r k => blk0 m c t (ix3 (0 : Fin 1) r k) (ix3 b r k) hb rfl rfl)
    (fun k j => blk1k m c t k j) (fun k j => blk1v m c t k j)
    (fun j => blk2k m c t j) (fun j => blk2v m c t j)
    (fun k j => blk3 m c t (ix2 k j)) (fun j => blk4 m c t (ix2 (0 : Fin 1) j))
    (fun j k => blk5 m c t (ix2 j k)) (fun k => blk6 m c t (ix2 (0 : Fin 1) k))
    (fun h d => blk7 m c t (ix2 h d)) (fun h d => blk8 m c t (ix2 h d))
    (fun h d => blk9 m c t (ix2 h d)) (fun h d => blk10 m c t (ix2 h d)) r k

/-- The same, at an index of the block and the index of the array it is stored at. -/
theorem point_idx (c : Dev nD) (t : Fin cfg0.N) (y : S1x2048x128.Idx) (i : S16x2048x128.Idx)
    (h0 : (i 0).val = t.val) (h1 : (i 1).val = (y 1).val) (h2 : (i 2).val = (y 2).val) :
    out0_11 (iblk m c 0 t) (iblk m c 1 t) (iblk m c 2 t) (iblk m c 3 t) (iblk m c 4 t) (iblk m c 5 t) (iblk m c 6 t)
        (iblk m c 7 t) (iblk m c 8 t) (iblk m c 9 t) (iblk m c 10 t) y
      = (inputs m c).arrK i := by
  obtain ⟨p, r, k, rfl⟩ : ∃ (p : Fin 1) (r : Fin 2048) (k : Fin 128), y = ix3 p r k := ⟨y 0, y 1, y 2, eq_ix3 y⟩
  obtain rfl : p = 0 := Subsingleton.elim _ _
  obtain ⟨b, r', k', rfl⟩ : ∃ (b : Fin 16) (r' : Fin 2048) (k' : Fin 128), i = ix3 b r' k' := ⟨i 0, i 1, i 2, eq_ix3 i⟩
  obtain rfl : r' = r := Fin.ext h1
  obtain rfl : k' = k := Fin.ext h2
  exact point m c t b h0 r' k'

/-- What grid point t writes back is block t of the first arrangement's output array. -/
theorem flushed_eq (c : Dev nD) (t : Fin cfg0.N) :
    (dats m 0 c).flushed 11 t = ((cfg0.win 11).blk t).view.read (Elt Ideal) (inputs m c).arrK := by
  rw [Cert.KernelIdeal.Value.flushed11]
  obtain ⟨-, -, -, e0, e1, e2⟩ := idx_io t
  funext y
  have hy : (y 0).val < 1 := (y 0).isLt
  refine point_idx m c t ((cfg0.win 11).xinj (grid0.coords t) y) (((cfg0.win 11).blk t).view.emb y) ?_ ?_ ?_
  · show win0_11.index t 0 * 1 + 1 * (y 0).val = t.val; rw [e0]; omega
  · show win0_11.index t 1 * 2048 + 1 * (y 1).val = (y 1).val; rw [e1]; omega
  · show win0_11.index t 2 * 128 + 1 * (y 2).val = (y 2).val; rw [e2]; omega

/-- An index of the array is in point t's block iff each coordinate is in the block's range on its axis. -/
theorem mem_blk (t : Fin cfg0.N) (i : S16x2048x128.Idx) :
    i ∈ ((cfg0.win 11).blk t).view.set ↔ ∀ a : Fin 3, win0_11.index t a * S1x2048x128.size a ≤ (i a).val
      ∧ (i a).val < win0_11.index t a * S1x2048x128.size a + S1x2048x128.size a := by
  show i ∈ ((View.whole main_v2).slice (win0_11.rect t)).set ↔ _
  rw [View.set_slice_whole, Rect.mem_set_unit]
  exact Iff.rfl

/-- The sixteen blocks cover the array: index (b, r, k) is in the block of point b. -/
theorem cover (i : S16x2048x128.Idx) :
    ∃ t : Fin cfg0.N, (cfg0.win 11).flush t = true ∧ i ∈ ((cfg0.win 11).blk t).view.set := by
  have hi0 : (i 0).val < 16 := (i 0).isLt
  have hi1 : (i 1).val < 2048 := (i 1).isLt
  have hi2 : (i 2).val < 128 := (i 2).isLt
  obtain ⟨t, ht⟩ : ∃ t : Fin cfg0.N, t.val = (i 0).val := ⟨⟨(i 0).val, by rw [show cfg0.N = 16 from N_0]; exact hi0⟩, rfl⟩
  obtain ⟨-, -, -, e0, e1, e2⟩ := idx_io t
  refine ⟨t, flush0_11 t, ?_⟩
  rw [mem_blk]
  intro a
  match a with
  | ⟨0, _⟩ => show win0_11.index t 0 * 1 ≤ (i 0).val ∧ (i 0).val < win0_11.index t 0 * 1 + 1; rw [e0]; omega
  | ⟨1, _⟩ => show win0_11.index t 1 * 2048 ≤ (i 1).val ∧ (i 1).val < win0_11.index t 1 * 2048 + 2048; rw [e1]; omega
  | ⟨2, _⟩ => show win0_11.index t 2 * 128 ≤ (i 2).val ∧ (i 2).val < win0_11.index t 2 * 128 + 128; rw [e2]; omega

/-- After the region the result array is the first arrangement's output of the inputs in memory. -/
theorem final (c : Dev nD) : (dats m 0 c).arrAt 11 cfg0.N = (inputs m c).arrK :=
  (dats m 0 c).arrAt_eq_of_cover 11 (inputs m c).arrK (fun t _ => flushed_eq m c t) cover

/-- The run: every weakly fair execution ends with the result array at that function and the arguments unchanged. -/
theorem run : θ_run defs (onTc (τ := τ) (main (F := Ideal))) ⟨m, fun _ => 0, ρ⟩ fun r => ∀ c : Dev nD,
      r.2.mem ((c : Thread nD τ).loc main_v2) = (inputs m c).arrK
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final m c), (h c).2⟩) (Cert.KernelIdeal.Value.run_blocks m ρ)

end Cert.KernelIdeal.Arr

end
-- ==== Proof.TileSum.lean ====
/-
  A head's attention map is the sum of its four tiles' contributions: the 2048 rows are the disjoint union of the four
  tiles of 512 rows, row (jt, r) being 512 jt + r.
-/
import proofs.«135597_g2000303815147335_pallasbulk_1180_1_alg».proof.Proof.Spec
import proofs.«135597_g2000303815147335_pallasbulk_1180_1_alg».proof.Proof.SpecTile
import Mathlib.Data.Fintype.BigOperators
import Mathlib.Algebra.BigOperators.Fin

noncomputable section

open scoped BigOperators

namespace Cert.Spec

/-- The pairs (tile, row inside the tile) correspond one to one to the 2048 rows: a row i is row i mod 512 of tile
    i / 512. -/
def rowEquiv : Fin 4 × Fin 512 ≃ Fin 2048 where
  toFun p := row p.1 p.2
  invFun i := (⟨i.val / 512, by have := i.isLt; omega⟩, ⟨i.val % 512, Nat.mod_lt _ (by decide)⟩)
  left_inv p := by
    obtain ⟨jt, r⟩ := p
    have := r.isLt
    refine Prod.ext (Fin.ext ?_) (Fin.ext ?_) <;> simp only [row] <;> omega
  right_inv i := by
    apply Fin.ext
    simp only [row]
    omega

/-- A sum over the 2048 rows, tile by tile. -/
theorem sum_rows_eq_sum_tiles (f : Fin 2048 → EReal) : (∑ r : Fin 2048, f r) = ∑ jt : Fin 4, ∑ r : Fin 512, f (row jt r) := by
  rw [← Equiv.sum_comp rowEquiv f, Fintype.sum_prod_type]
  rfl

/-- The attention map is the sum of the four tiles' parts. -/
theorem amap_eq_sum_tiles (I : Inputs) (b : Fin 16) (h : Fin 8) (d e : Fin 128) :
    I.amap b h d e = ∑ jt : Fin 4, I.amapTile b h jt d e := by
  unfold Inputs.amap Inputs.amapTile
  exact sum_rows_eq_sum_tiles fun r => I.kh b h r d * I.vh b h r e

/-- The same with the four tiles written out in the order they are accumulated. -/
theorem amap_eq_four (I : Inputs) (b : Fin 16) (h : Fin 8) (d e : Fin 128) :
    I.amap b h d e = ((I.amapTile b h 0 d e + I.amapTile b h 1 d e) + I.amapTile b h 2 d e) + I.amapTile b h 3 d e := by
  rw [amap_eq_sum_tiles, Fin.sum_univ_four]

end Cert.Spec

end
-- ==== Proof.Ref0Body.lean ====
/-
  What one grid point of the first region of the second program computes. The point (batch member b, tile jt of 512
  rows) forms, for each of the eight heads, the Gram product of the tile's normalised key and value streams
  (Spec.amapTile); at the first tile of a batch member the output block is first zeroed, so it ends at that product; at a
  later tile the product is added to what the block held.
-/
import proofs.«135597_g2000303815147335_pallasbulk_1180_1_alg».proof.Proof.Gen.ReferenceIdeal.Frame
import proofs.«135597_g2000303815147335_pallasbulk_1180_1_alg».proof.Proof.Spec
import proofs.«135597_g2000303815147335_pallasbulk_1180_1_alg».proof.Proof.SpecTile
import proofs.«135597_g2000303815147335_pallasbulk_1180_1_alg».proof.Proof.OpsLn
import proofs.«135597_g2000303815147335_pallasbulk_1180_1_alg».proof.Proof.OpsLayout
import Idealize.ShloMosaic.Lib.Pipeline.CanonAppend

noncomputable section

open scoped BigOperators

namespace Cert.ReferenceIdeal.Body0

open Idealize.ShloMosaic Idealize.ShloMosaic.TcCoe Idealize.ShloMosaic.ValueIdx Cert.ReferenceIdeal Cert.ReferenceIdeal.Gen

/-- One head's contribution added to what the block held for that head: the Gram product of the layer-normalised
    key columns and value columns (columns o … o + 127 of the tile's key and value matrices), as a 1-by-1-by-128-by-128
    block. -/
def headOut (K V : FVec Ideal S512x1024 .f32) (g b gv bv : Vec Ideal S1x128 .f32) (o : ℕ)
    (hs : S512x1024.Slices ![0, o] S512x128) (acc : Vec Ideal S1x1x128x128 .f32) : FVec Ideal S1x1x128x128 .f32 :=
  shapeCast S1x1x128x128
    (addf (shapeCast S128x128 acc shapeCasts_S1x1x128x128_S128x128)
      (matmul dot_S512x128_S512x128_S128x128_0_0_1_1_n_n none
        (Cert.Ops.lnV (n := 512) (extractStridedSlice S512x128 ![0, o] K hs) g b reduces_S512x128_S512 shapeCasts_S512_S512x1
          broadcasts_S512x1_S512x128 broadcasts_S1x128_S512x128)
        (Cert.Ops.lnV (n := 512) (extractStridedSlice S512x128 ![0, o] V hs) gv bv reduces_S512x128_S512 shapeCasts_S512_S512x1
          broadcasts_S512x1_S512x128 broadcasts_S1x128_S512x128)
        (constant S128x128 .f32 0x00000000#32)))
    shapeCasts_S128x128_S1x1x128x128

/-! Each head's stored value, as the program spells it, is that function of the tile's key and value matrices, the
    head's four table rows and the head's part of the old block. -/
section Heads
variable (x0 : Vec Ideal S1x512x256 .f32) (x1 : Vec Ideal S256x1024 .f32) (x2 : Vec Ideal S1x1024 .f32)
variable (K V : FVec Ideal S512x1024 .f32) (g b gv bv : Vec Ideal S1x128 .f32) (acc : Vec Ideal S1x1x128x128 .f32)

theorem head0_eq : k0_pay8 V g b (k0_pay6 x0 x1 x2) (k0_pay7 x0 x1 x2) gv bv acc
    = headOut (k0_pay4 x0 x1 x2) V g b gv bv 0 slices_S512x1024_o0_0_S512x128 acc := rfl
theorem head1_eq : k0_pay12 (k0_pay10 (k0_pay9 K) g b) (k0_pay11 V gv bv) acc
    = headOut K V g b gv bv 128 slices_S512x1024_o0_128_S512x128 acc := rfl
theorem head2_eq : k0_pay16 (k0_pay13 K g b) (k0_pay14 V) gv bv (k0_pay15 V) acc
    = headOut K V g b gv bv 256 slices_S512x1024_o0_256_S512x128 acc := rfl
theorem head3_eq : k0_pay20 V g b (k0_pay17 K) (k0_pay18 K) k0_pay19 gv bv acc
    = headOut K V g b gv bv 384 slices_S512x1024_o0_384_S512x128 acc := rfl
theorem head4_eq : k0_pay25 (k0_pay22 (k0_pay21 K) g b) (k0_pay23 V gv) (k0_pay24 bv) acc
    = headOut K V g b gv bv 512 slices_S512x1024_o0_512_S512x128 acc := rfl
theorem head5_eq : k0_pay29 (k0_pay26 K g b) (k0_pay27 V) gv bv (k0_pay28 V) acc
    = headOut K V g b gv bv 640 slices_S512x1024_o0_640_S512x128 acc := rfl
theorem head6_eq : k0_pay33 V g b (k0_pay30 K) (k0_pay31 K) k0_pay32 gv bv acc
    = headOut K V g b gv bv 768 slices_S512x1024_o0_768_S512x128 acc := rfl
theorem head7_eq : k0_pay1 (k0_pay34 K g b) gv bv (k0_pay35 V) acc
    = headOut K V g b gv bv 896 slices_S512x1024_o0_896_S512x128 acc := rfl
end Heads

/-- Entry (d, e) of one head's block: what the block held there plus the sum over the tile's 512 rows of the
    normalised key at channel d times the normalised value at channel e. -/
theorem headOut_apply (K V : FVec Ideal S512x1024 .f32) (g b gv bv : Vec Ideal S1x128 .f32) (o : ℕ)
    (hs : S512x1024.Slices ![0, o] S512x128) (acc : Vec Ideal S1x1x128x128 .f32) (ho : o + 128 ≤ 1024)
    (u v : Fin 1) (d e : Fin 128) :
    headOut K V g b gv bv o hs acc (ix4 u v d e)
      = acc (ix4 (0 : Fin 1) (0 : Fin 1) d e)
        + ∑ r : Fin 512,
            Cert.Spec.ln (fun j : Fin 128 => K (ix2 r (⟨o + j.val, by have := j.isLt; omega⟩ : Fin 1024)))
                (fun j => g (ix2 (0 : Fin 1) j)) (fun j => b (ix2 (0 : Fin 1) j)) d
              * Cert.Spec.ln (fun j : Fin 128 => V (ix2 r (⟨o + j.val, by have := j.isLt; omega⟩ : Fin 1024)))
                (fun j => gv (ix2 (0 : Fin 1) j)) (fun j => bv (ix2 (0 : Fin 1) j)) e := by
  unfold headOut
  refine (Cert.Ops.shapeCast_ab_11ab_apply _ _ u v d e).trans ?_
  refine (addf_apply _ _ _).trans ?_
  refine congrArg₂ (· + ·) (Cert.Ops.shapeCast_11ab_ab_apply _ _ d e) ?_
  refine (Cert.Ops.matmul_gram_apply _ rfl rfl rfl rfl rfl rfl none _ _ d e).trans ?_
  refine Finset.sum_congr rfl fun r _ => ?_
  refine congrArg₂ (· * ·) ?_ ?_
  · refine (Cert.Ops.lnV_apply _ _ _ _ _ _ _ r d).trans ?_
    refine congrArg (fun x => Cert.Spec.ln x _ _ d) (funext fun j => ?_)
    exact Cert.Ops.slice_cols_apply o K hs r j _
  · refine (Cert.Ops.lnV_apply _ _ _ _ _ _ _ r e).trans ?_
    refine congrArg (fun x => Cert.Spec.ln x _ _ e) (funext fun j => ?_)
    exact Cert.Ops.slice_cols_apply o V hs r j _

/-- Entry (r, j) of the tile's key (or value) matrix: row r of the tile times column j of the weight, plus the bias. -/
theorem proj_apply (x0 : Vec Ideal S1x512x256 .f32) (w : Vec Ideal S256x1024 .f32) (bias : Vec Ideal S1x1024 .f32)
    (r : Fin 512) (j : Fin 1024) :
    k0_pay4 x0 w bias (ix2 r j)
      = (∑ q : Fin 256, x0 (ix3 (0 : Fin 1) r q) * w (ix2 q j)) + bias (ix2 (0 : Fin 1) j) := by
  unfold k0_pay4 k0_pay3
  refine (addf_apply _ _ _).trans ?_
  refine congrArg₂ (· + ·) ?_ ?_
  · refine (Cert.Ops.matmul_plain_apply _ rfl rfl rfl rfl rfl rfl none _ _ r j).trans ?_
    refine Finset.sum_congr rfl fun q _ => ?_
    exact congrArg (· * w (ix2 q j)) (Cert.Ops.shapeCast_1ab_ab_apply _ _ r q)
  · exact broadcastTo_1b_ab_apply _ _ r j

/-- The value matrix is formed as the key matrix is. -/
theorem pay5_eq (x0 : Vec Ideal S1x512x256 .f32) (w : Vec Ideal S256x1024 .f32) (bias : Vec Ideal S1x1024 .f32) :
    k0_pay5 x0 w bias = k0_pay4 x0 w bias := rfl

/-- The layer norm of equal rows with equal scales and shifts. -/
theorem ln_congr {x x' g g' c c' : Fin 128 → EReal} (hx : x = x') (hg : g = g') (hc : c = c') (d : Fin 128) :
    Cert.Spec.ln x g c d = Cert.Spec.ln x' g' c' d := by subst hx hg hc; rfl

/-- The products of one head over the tile, from the tile's blocks: entry (d, e) of the Gram product of the normalised
    key and value columns of head hn is the tile's part of that head's attention map. -/
theorem head_sum (x0 : Vec Ideal S1x512x256 .f32) (x1 : Vec Ideal S256x1024 .f32) (x2 : Vec Ideal S1x1024 .f32) (x3 : Vec Ideal S256x1024 .f32) (x4 : Vec Ideal S1x1024 .f32) (x5 x6 x7 x8 : Vec Ideal S8x128 .f32)
    (I : Cert.Spec.Inputs) (b : Fin 16) (jt : Fin 4)
    (h0 : ∀ (r : Fin 512) (k : Fin 256), x0 (ix3 (0 : Fin 1) r k) = I.X b (Cert.Spec.row jt r) k)
    (h1 : ∀ (k : Fin 256) (j : Fin 1024), x1 (ix2 k j) = I.Wk k j)
    (h2 : ∀ j : Fin 1024, x2 (ix2 (0 : Fin 1) j) = I.bk j)
    (h3 : ∀ (k : Fin 256) (j : Fin 1024), x3 (ix2 k j) = I.Wv k j)
    (h4 : ∀ j : Fin 1024, x4 (ix2 (0 : Fin 1) j) = I.bv j)
    (h5 : ∀ (h : Fin 8) (d : Fin 128), x5 (ix2 h d) = I.gk h d)
    (h6 : ∀ (h : Fin 8) (d : Fin 128), x6 (ix2 h d) = I.bkl h d)
    (h7 : ∀ (h : Fin 8) (d : Fin 128), x7 (ix2 h d) = I.gv h d)
    (h8 : ∀ (h : Fin 8) (d : Fin 128), x8 (ix2 h d) = I.bvl h d)
    (hn o : ℕ) (hlt : hn < 8) (ho : o = 128 * hn)
    (inbT : ∀ a, (![hn, 0] : Fin 2 → ℕ) a + S1x128.size a ≤ S8x128.size a) (d e : Fin 128) :
    (∑ r : Fin 512,
        Cert.Spec.ln (fun j : Fin 128 => k0_pay4 x0 x1 x2 (ix2 r (⟨o + j.val, by have := j.isLt; omega⟩ : Fin 1024)))
            (fun j => View.ld x5 (Rect.unit (s := S8x128) ![hn, 0] S1x128.size inbT) (ix2 (0 : Fin 1) j))
            (fun j => View.ld x6 (Rect.unit (s := S8x128) ![hn, 0] S1x128.size inbT) (ix2 (0 : Fin 1) j)) d
          * Cert.Spec.ln (fun j : Fin 128 => k0_pay5 x0 x3 x4 (ix2 r (⟨o + j.val, by have := j.isLt; omega⟩ : Fin 1024)))
            (fun j => View.ld x7 (Rect.unit (s := S8x128) ![hn, 0] S1x128.size inbT) (ix2 (0 : Fin 1) j))
            (fun j => View.ld x8 (Rect.unit (s := S8x128) ![hn, 0] S1x128.size inbT) (ix2 (0 : Fin 1) j)) e)
      = I.amapTile b ⟨hn, hlt⟩ jt d e := by
  unfold Cert.Spec.Inputs.amapTile
  refine Finset.sum_congr rfl fun r _ => ?_
  have hcol : ∀ j : Fin 128, (⟨o + j.val, by have := j.isLt; omega⟩ : Fin 1024) = Cert.Spec.hcol ⟨hn, hlt⟩ j :=
    fun j => Fin.ext (by show o + j.val = hn * 128 + j.val; omega)
  have hrow : ∀ (t : Vec Ideal S8x128 .f32) (j : Fin 128),
      View.ld t (Rect.unit (s := S8x128) ![hn, 0] S1x128.size inbT) (ix2 (0 : Fin 1) j) = t (ix2 (⟨hn, hlt⟩ : Fin 8) j) :=
    fun t j => Cert.Ops.ld_rows_apply hn t inbT (0 : Fin 1) j (by show hn + 0 < 8; omega)
  refine congrArg₂ (· * ·) ?_ ?_
  · unfold Cert.Spec.Inputs.kh
    refine ln_congr (funext fun j => ?_) (funext fun j => (hrow x5 j).trans (h5 _ j)) (funext fun j => (hrow x6 j).trans (h6 _ j)) d
    rw [hcol j, proj_apply]
    unfold Cert.Spec.proj
    simp only [h0, h1, h2]
  · unfold Cert.Spec.Inputs.vh
    refine ln_congr (funext fun j => ?_) (funext fun j => (hrow x7 j).trans (h7 _ j)) (funext fun j => (hrow x8 j).trans (h8 _ j)) e
    rw [hcol j, pay5_eq, proj_apply]
    unfold Cert.Spec.proj
    simp only [h0, h3, h4]

/-- The block after the point as one function of its index: what stood there (G0) plus the tile's part of the
    attention map of the head the index names. -/
def blockFn (I : Cert.Spec.Inputs) (b : Fin 16) (jt : Fin 4) (G0 : Vec Ideal S1x8x128x128 .f32) : Vec Ideal S1x8x128x128 .f32 :=
  fun y => G0 y + I.amapTile b (y 1) jt (y 2) (y 3)

/-- Head hn's stored block is the restriction of that function to the head's rectangle. -/
theorem head_agree (x0 : Vec Ideal S1x512x256 .f32) (x1 : Vec Ideal S256x1024 .f32) (x2 : Vec Ideal S1x1024 .f32) (x3 : Vec Ideal S256x1024 .f32) (x4 : Vec Ideal S1x1024 .f32) (x5 x6 x7 x8 : Vec Ideal S8x128 .f32)
    (I : Cert.Spec.Inputs) (b : Fin 16) (jt : Fin 4)
    (h0 : ∀ (r : Fin 512) (k : Fin 256), x0 (ix3 (0 : Fin 1) r k) = I.X b (Cert.Spec.row jt r) k)
    (h1 : ∀ (k : Fin 256) (j : Fin 1024), x1 (ix2 k j) = I.Wk k j)
    (h2 : ∀ j : Fin 1024, x2 (ix2 (0 : Fin 1) j) = I.bk j)
    (h3 : ∀ (k : Fin 256) (j : Fin 1024), x3 (ix2 k j) = I.Wv k j)
    (h4 : ∀ j : Fin 1024, x4 (ix2 (0 : Fin 1) j) = I.bv j)
    (h5 : ∀ (h : Fin 8) (d : Fin 128), x5 (ix2 h d) = I.gk h d)
    (h6 : ∀ (h : Fin 8) (d : Fin 128), x6 (ix2 h d) = I.bkl h d)
    (h7 : ∀ (h : Fin 8) (d : Fin 128), x7 (ix2 h d) = I.gv h d)
    (h8 : ∀ (h : Fin 8) (d : Fin 128), x8 (ix2 h d) = I.bvl h d)
    (G0 : Vec Ideal S1x8x128x128 .f32) (hn o : ℕ) (hlt : hn < 8) (ho : o = 128 * hn)
    (hs : S512x1024.Slices ![0, o] S512x128)
    (inbT : ∀ a, (![hn, 0] : Fin 2 → ℕ) a + S1x128.size a ≤ S8x128.size a)
    (inbO : ∀ a, (![0, hn, 0, 0] : Fin 4 → ℕ) a + S1x1x128x128.size a ≤ S1x8x128x128.size a)
    (acc : Vec Ideal S1x1x128x128 .f32)
    (hacc : ∀ d e : Fin 128, acc (ix4 (0 : Fin 1) (0 : Fin 1) d e) = G0 (ix4 (0 : Fin 1) (⟨hn, hlt⟩ : Fin 8) d e))
    (x : S1x1x128x128.Idx) :
    headOut (k0_pay4 x0 x1 x2) (k0_pay5 x0 x3 x4)
        (View.ld x5 (Rect.unit (s := S8x128) ![hn, 0] S1x128.size inbT))
        (View.ld x6 (Rect.unit (s := S8x128) ![hn, 0] S1x128.size inbT))
        (View.ld x7 (Rect.unit (s := S8x128) ![hn, 0] S1x128.size inbT))
        (View.ld x8 (Rect.unit (s := S8x128) ![hn, 0] S1x128.size inbT)) o hs acc x
      = blockFn I b jt G0 ((Rect.unit (s := S1x8x128x128) ![0, hn, 0, 0] S1x1x128x128.size inbO).emb x) := by
  obtain ⟨u, v, d, e, rfl⟩ : ∃ (u v : Fin 1) (d e : Fin 128), x = ix4 u v d e := ⟨x 0, x 1, x 2, x 3, eq_ix4 x⟩
  refine (headOut_apply _ _ _ _ _ _ o hs acc (by omega) u v d e).trans ?_
  refine Eq.trans ?_ (Cert.Ops.ld_head_apply hn (blockFn I b jt G0) inbO u v d e hlt).symm
  show _ = G0 (ix4 (0 : Fin 1) (⟨hn, hlt⟩ : Fin 8) d e) + I.amapTile b ⟨hn, hlt⟩ jt d e
  exact congrArg₂ (· + ·) (hacc d e) (head_sum x0 x1 x2 x3 x4 x5 x6 x7 x8 I b jt h0 h1 h2 h3 h4 h5 h6 h7 h8 hn o hlt ho inbT d e)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The eight heads' rectangles cover the block. -/
theorem cover8 (w7 w6 w5 w4 w3 w2 w1 w0 : Vec Ideal S1x1x128x128 .f32) (y : S1x8x128x128.Idx) :
    ∃ p ∈ ([⟨Rect.unit (s := S1x8x128x128) ![0, 7, 0, 0] S1x1x128x128.size inb_S1x8x128x128_S1x1x128x128_0_7_0_0, w7⟩,
        ⟨Rect.unit (s := S1x8x128x128) ![0, 6, 0, 0] S1x1x128x128.size inb_S1x8x128x128_S1x1x128x128_0_6_0_0, w6⟩,
        ⟨Rect.unit (s := S1x8x128x128) ![0, 5, 0, 0] S1x1x128x128.size inb_S1x8x128x128_S1x1x128x128_0_5_0_0, w5⟩,
        ⟨Rect.unit (s := S1x8x128x128) ![0, 4, 0, 0] S1x1x128x128.size inb_S1x8x128x128_S1x1x128x128_0_4_0_0, w4⟩,
        ⟨Rect.unit (s := S1x8x128x128) ![0, 3, 0, 0] S1x1x128x128.size inb_S1x8x128x128_S1x1x128x128_0_3_0_0, w3⟩,
        ⟨Rect.unit (s := S1x8x128x128) ![0, 2, 0, 0] S1x1x128x128.size inb_S1x8x128x128_S1x1x128x128_0_2_0_0, w2⟩,
        ⟨Rect.unit (s := S1x8x128x128) ![0, 1, 0, 0] S1x1x128x128.size inb_S1x8x128x128_S1x1x128x128_0_1_0_0, w1⟩,
        ⟨Rect.unit (s := S1x8x128x128) ![0, 0, 0, 0] S1x1x128x128.size inb_S1x8x128x128_S1x1x128x128_0_0_0_0, w0⟩] :
          List (View.Piece (Elt Ideal) S1x8x128x128 .f32)), y ∈ p.1.set :=
  View.cover_of_tiledL (s := S1x8x128x128) _ S1x1x128x128.size (by sl_kernel_rfl) y

/-- A load of head hn's rectangle passes over an earlier store to the rectangle of a head k < hn. -/
theorem acc_step {sig : RefSig} {κ : Kind} {sp : Space} (v : View sig κ sp S1x8x128x128 .f32) (k hn : ℕ) (hk : k < hn)
    (inbK : ∀ a, (![0, k, 0, 0] : Fin 4 → ℕ) a + S1x1x128x128.size a ≤ S1x8x128x128.size a)
    (w : Vec Ideal S1x1x128x128 .f32) (L : List (View.Piece (Elt Ideal) S1x8x128x128 .f32))
    (inbO : ∀ a, (![0, hn, 0, 0] : Fin 4 → ℕ) a + S1x1x128x128.size a ≤ S1x8x128x128.size a) :
    v.readCov (⟨Rect.unit (s := S1x8x128x128) ![0, k, 0, 0] S1x1x128x128.size inbK, w⟩ :: L)
        (Rect.unit (s := S1x8x128x128) ![0, hn, 0, 0] S1x1x128x128.size inbO).toLoadRect
      = v.readCov L (Rect.unit (s := S1x8x128x128) ![0, hn, 0, 0] S1x1x128x128.size inbO).toLoadRect :=
  View.readCov_cons_of_disjoint v _ L _ (Rect.unit_disjoint (inb := inbK) (inb' := inbO) 1 (Or.inl (by show k + 1 ≤ hn; omega)))

/-- A load of a head's rectangle after the store of the zero block alone reads zero. -/
theorem acc_base {sig : RefSig} {κ : Kind} {sp : Space} (v : View sig κ sp S1x8x128x128 .f32) (hn : ℕ)
    (inbW : ∀ a, (![0, 0, 0, 0] : Fin 4 → ℕ) a + S1x8x128x128.size a ≤ S1x8x128x128.size a)
    (inbO : ∀ a, (![0, hn, 0, 0] : Fin 4 → ℕ) a + S1x1x128x128.size a ≤ S1x8x128x128.size a) (j : S1x1x128x128.Idx) :
    v.readCov [(⟨Rect.unit (s := S1x8x128x128) ![0, 0, 0, 0] S1x8x128x128.size inbW, k0_pay2 (F := Ideal)⟩ : View.Piece (Elt Ideal) S1x8x128x128 .f32)]
        (Rect.unit (s := S1x8x128x128) ![0, hn, 0, 0] S1x1x128x128.size inbO).toLoadRect j = 0 := by
  rw [View.readCov_eq_canon', View.canon_unit_zero hz4]
  exact Ideal.ofBits_zero_f32

/-- The first tile of a batch member (the block is reset first): the block ends at the tile's products. -/
theorem outA_apply (c : Dev nD) (i : grid0.Coords) (arg2 : Memref sig .tc .vmem S1x512x256 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x8x128x128 .f32) (harg11 : arg11.IsWhole) (hc0 : cond0_0 i)
    (x0 : Vec Ideal S1x512x256 .f32) (x1 : Vec Ideal S256x1024 .f32) (x2 : Vec Ideal S1x1024 .f32) (x3 : Vec Ideal S256x1024 .f32) (x4 : Vec Ideal S1x1024 .f32) (x5 x6 x7 x8 : Vec Ideal S8x128 .f32)
    (I : Cert.Spec.Inputs) (b : Fin 16) (jt : Fin 4)
    (h0 : ∀ (r : Fin 512) (k : Fin 256), x0 (ix3 (0 : Fin 1) r k) = I.X b (Cert.Spec.row jt r) k)
    (h1 : ∀ (k : Fin 256) (j : Fin 1024), x1 (ix2 k j) = I.Wk k j)
    (h2 : ∀ j : Fin 1024, x2 (ix2 (0 : Fin 1) j) = I.bk j)
    (h3 : ∀ (k : Fin 256) (j : Fin 1024), x3 (ix2 k j) = I.Wv k j)
    (h4 : ∀ j : Fin 1024, x4 (ix2 (0 : Fin 1) j) = I.bv j)
    (h5 : ∀ (h : Fin 8) (d : Fin 128), x5 (ix2 h d) = I.gk h d)
    (h6 : ∀ (h : Fin 8) (d : Fin 128), x6 (ix2 h d) = I.bkl h d)
    (h7 : ∀ (h : Fin 8) (d : Fin 128), x7 (ix2 h d) = I.gv h d)
    (h8 : ∀ (h : Fin 8) (d : Fin 128), x8 (ix2 h d) = I.bvl h d)
    (h : Fin 8) (d e : Fin 128) :
    out0_A_9 (F := Ideal) c i arg2 harg2 arg3 harg3 arg4 harg4 arg5 harg5 arg6 harg6 arg7 harg7 arg8 harg8 arg9 harg9 arg10 harg10 arg11 harg11 hc0 x0 x1 x2 x3 x4 x5 x6 x7 x8 (ix4 (0 : Fin 1) h d e)
      = I.amapTile b h jt d e := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 hc0 x0 x1 x2 x3 x4 x5 x6 x7 x8)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, View.ld_unit_zero (S := S1x512x256) hz3, View.ld_unit_zero (S := S256x1024) hz2, View.ld_unit_zero (S := S1x1024) hz2, head0_eq, head1_eq, head2_eq, head3_eq, head4_eq, head5_eq, head6_eq, head7_eq]
  refine (View.canon_append_of_pieces (blockFn I b jt (fun _ => 0)) [_] [_, _, _, _, _, _, _, _] ?_ (ix4 (0 : Fin 1) h d e) (cover8 _ _ _ _ _ _ _ _ _)).trans ?_
  · intro p hp
    simp only [List.mem_cons, List.not_mem_nil, or_false] at hp
    rcases hp with rfl | rfl | rfl | rfl | rfl | rfl | rfl | rfl
    · exact head_agree x0 x1 x2 x3 x4 x5 x6 x7 x8 I b jt h0 h1 h2 h3 h4 h5 h6 h7 h8 (fun _ => 0) 7 896 (by decide) (by decide) slices_S512x1024_o0_896_S512x128 inb_S8x128_S1x128_7_0 inb_S1x8x128x128_S1x1x128x128_0_7_0_0 _
        (fun d e => by rw [acc_step _ 6 7 (by decide), acc_step _ 5 7 (by decide), acc_step _ 4 7 (by decide), acc_step _ 3 7 (by decide), acc_step _ 2 7 (by decide), acc_step _ 1 7 (by decide), acc_step _ 0 7 (by decide)]; exact acc_base _ 7 _ _ _)
    · exact head_agree x0 x1 x2 x3 x4 x5 x6 x7 x8 I b jt h0 h1 h2 h3 h4 h5 h6 h7 h8 (fun _ => 0) 6 768 (by decide) (by decide) slices_S512x1024_o0_768_S512x128 inb_S8x128_S1x128_6_0 inb_S1x8x128x128_S1x1x128x128_0_6_0_0 _
        (fun d e => by rw [acc_step _ 5 6 (by decide), acc_step _ 4 6 (by decide), acc_step _ 3 6 (by decide), acc_step _ 2 6 (by decide), acc_step _ 1 6 (by decide), acc_step _ 0 6 (by decide)]; exact acc_base _ 6 _ _ _)
    · exact head_agree x0 x1 x2 x3 x4 x5 x6 x7 x8 I b jt h0 h1 h2 h3 h4 h5 h6 h7 h8 (fun _ => 0) 5 640 (by decide) (by decide) slices_S512x1024_o0_640_S512x128 inb_S8x128_S1x128_5_0 inb_S1x8x128x128_S1x1x128x128_0_5_0_0 _
        (fun d e => by rw [acc_step _ 4 5 (by decide), acc_step _ 3 5 (by decide), acc_step _ 2 5 (by decide), acc_step _ 1 5 (by decide), acc_step _ 0 5 (by decide)]; exact acc_base _ 5 _ _ _)
    · exact head_agree x0 x1 x2 x3 x4 x5 x6 x7 x8 I b jt h0 h1 h2 h3 h4 h5 h6 h7 h8 (fun _ => 0) 4 512 (by decide) (by decide) slices_S512x1024_o0_512_S512x128 inb_S8x128_S1x128_4_0 inb_S1x8x128x128_S1x1x128x128_0_4_0_0 _
        (fun d e => by rw [acc_step _ 3 4 (by decide), acc_step _ 2 4 (by decide), acc_step _ 1 4 (by decide), acc_step _ 0 4 (by decide)]; exact acc_base _ 4 _ _ _)
    · exact head_agree x0 x1 x2 x3 x4 x5 x6 x7 x8 I b jt h0 h1 h2 h3 h4 h5 h6 h7 h8 (fun _ => 0) 3 384 (by decide) (by decide) slices_S512x1024_o0_384_S512x128 inb_S8x128_S1x128_3_0 inb_S1x8x128x128_S1x1x128x128_0_3_0_0 _
        (fun d e => by rw [acc_step _ 2 3 (by decide), acc_step _ 1 3 (by decide), acc_step _ 0 3 (by decide)]; exact acc_base _ 3 _ _ _)
    · exact head_agree x0 x1 x2 x3 x4 x5 x6 x7 x8 I b jt h0 h1 h2 h3 h4 h5 h6 h7 h8 (fun _ => 0) 2 256 (by decide) (by decide) slices_S512x1024_o0_256_S512x128 inb_S8x128_S1x128_2_0 inb_S1x8x128x128_S1x1x128x128_0_2_0_0 _
        (fun d e => by rw [acc_step _ 1 2 (by decide), acc_step _ 0 2 (by decide)]; exact acc_base _ 2 _ _ _)
    · exact head_agree x0 x1 x2 x3 x4 x5 x6 x7 x8 I b jt h0 h1 h2 h3 h4 h5 h6 h7 h8 (fun _ => 0) 1 128 (by decide) (by decide) slices_S512x1024_o0_128_S512x128 inb_S8x128_S1x128_1_0 inb_S1x8x128x128_S1x1x128x128_0_1_0_0 _
        (fun d e => by rw [acc_step _ 0 1 (by decide)]; exact acc_base _ 1 _ _ _)
    · exact head_agree x0 x1 x2 x3 x4 x5 x6 x7 x8 I b jt h0 h1 h2 h3 h4 h5 h6 h7 h8 (fun _ => 0) 0 0 (by decide) (by decide) slices_S512x1024_o0_0_S512x128 inb_S8x128_S1x128_0_0 inb_S1x8x128x128_S1x1x128x128_0_0_0_0 _
        (fun d e => by exact acc_base _ 0 _ _ _)
  · exact zero_add _

/-- A later tile: the tile's products are added to what the block held. -/
theorem outB_apply (c : Dev nD) (i : grid0.Coords) (arg2 : Memref sig .tc .vmem S1x512x256 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x8x128x128 .f32) (harg11 : arg11.IsWhole) (hc0 : ¬cond0_0 i)
    (x0 : Vec Ideal S1x512x256 .f32) (x1 : Vec Ideal S256x1024 .f32) (x2 : Vec Ideal S1x1024 .f32) (x3 : Vec Ideal S256x1024 .f32) (x4 : Vec Ideal S1x1024 .f32) (x5 x6 x7 x8 : Vec Ideal S8x128 .f32) (xo9 : Vec Ideal S1x8x128x128 .f32)
    (I : Cert.Spec.Inputs) (b : Fin 16) (jt : Fin 4)
    (h0 : ∀ (r : Fin 512) (k : Fin 256), x0 (ix3 (0 : Fin 1) r k) = I.X b (Cert.Spec.row jt r) k)
    (h1 : ∀ (k : Fin 256) (j : Fin 1024), x1 (ix2 k j) = I.Wk k j)
    (h2 : ∀ j : Fin 1024, x2 (ix2 (0 : Fin 1) j) = I.bk j)
    (h3 : ∀ (k : Fin 256) (j : Fin 1024), x3 (ix2 k j) = I.Wv k j)
    (h4 : ∀ j : Fin 1024, x4 (ix2 (0 : Fin 1) j) = I.bv j)
    (h5 : ∀ (h : Fin 8) (d : Fin 128), x5 (ix2 h d) = I.gk h d)
    (h6 : ∀ (h : Fin 8) (d : Fin 128), x6 (ix2 h d) = I.bkl h d)
    (h7 : ∀ (h : Fin 8) (d : Fin 128), x7 (ix2 h d) = I.gv h d)
    (h8 : ∀ (h : Fin 8) (d : Fin 128), x8 (ix2 h d) = I.bvl h d)
    (h : Fin 8) (d e : Fin 128) :
    out0_B_9 (F := Ideal) c i arg2 harg2 arg3 harg3 arg4 harg4 arg5 harg5 arg6 harg6 arg7 harg7 arg8 harg8 arg9 harg9 arg10 harg10 arg11 harg11 hc0 x0 x1 x2 x3 x4 x5 x6 x7 x8 xo9 (ix4 (0 : Fin 1) h d e)
      = xo9 (ix4 (0 : Fin 1) h d e) + I.amapTile b h jt d e := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 hc0 x0 x1 x2 x3 x4 x5 x6 x7 x8 xo9)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, View.ld_unit_zero (S := S1x512x256) hz3, View.ld_unit_zero (S := S256x1024) hz2, View.ld_unit_zero (S := S1x1024) hz2, head0_eq, head1_eq, head2_eq, head3_eq, head4_eq, head5_eq, head6_eq, head7_eq]
  refine (View.canon_apply_of_pieces (blockFn I b jt xo9) _ ?_ (ix4 (0 : Fin 1) h d e) (cover8 _ _ _ _ _ _ _ _ _)).trans ?_
  · intro p hp
    simp only [List.mem_cons, List.not_mem_nil, or_false] at hp
    rcases hp with rfl | rfl | rfl | rfl | rfl | rfl | rfl | rfl
    · exact head_agree x0 x1 x2 x3 x4 x5 x6 x7 x8 I b jt h0 h1 h2 h3 h4 h5 h6 h7 h8 xo9 7 896 (by decide) (by decide) slices_S512x1024_o0_896_S512x128 inb_S8x128_S1x128_7_0 inb_S1x8x128x128_S1x1x128x128_0_7_0_0 _
        (fun d e => Cert.Ops.ld_head_apply 7 xo9 inb_S1x8x128x128_S1x1x128x128_0_7_0_0 (0 : Fin 1) (0 : Fin 1) d e (by decide))
    · exact head_agree x0 x1 x2 x3 x4 x5 x6 x7 x8 I b jt h0 h1 h2 h3 h4 h5 h6 h7 h8 xo9 6 768 (by decide) (by decide) slices_S512x1024_o0_768_S512x128 inb_S8x128_S1x128_6_0 inb_S1x8x128x128_S1x1x128x128_0_6_0_0 _
        (fun d e => Cert.Ops.ld_head_apply 6 xo9 inb_S1x8x128x128_S1x1x128x128_0_6_0_0 (0 : Fin 1) (0 : Fin 1) d e (by decide))
    · exact head_agree x0 x1 x2 x3 x4 x5 x6 x7 x8 I b jt h0 h1 h2 h3 h4 h5 h6 h7 h8 xo9 5 640 (by decide) (by decide) slices_S512x1024_o0_640_S512x128 inb_S8x128_S1x128_5_0 inb_S1x8x128x128_S1x1x128x128_0_5_0_0 _
        (fun d e => Cert.Ops.ld_head_apply 5 xo9 inb_S1x8x128x128_S1x1x128x128_0_5_0_0 (0 : Fin 1) (0 : Fin 1) d e (by decide))
    · exact head_agree x0 x1 x2 x3 x4 x5 x6 x7 x8 I b jt h0 h1 h2 h3 h4 h5 h6 h7 h8 xo9 4 512 (by decide) (by decide) slices_S512x1024_o0_512_S512x128 inb_S8x128_S1x128_4_0 inb_S1x8x128x128_S1x1x128x128_0_4_0_0 _
        (fun d e => Cert.Ops.ld_head_apply 4 xo9 inb_S1x8x128x128_S1x1x128x128_0_4_0_0 (0 : Fin 1) (0 : Fin 1) d e (by decide))
    · exact head_agree x0 x1 x2 x3 x4 x5 x6 x7 x8 I b jt h0 h1 h2 h3 h4 h5 h6 h7 h8 xo9 3 384 (by decide) (by decide) slices_S512x1024_o0_384_S512x128 inb_S8x128_S1x128_3_0 inb_S1x8x128x128_S1x1x128x128_0_3_0_0 _
        (fun d e => Cert.Ops.ld_head_apply 3 xo9 inb_S1x8x128x128_S1x1x128x128_0_3_0_0 (0 : Fin 1) (0 : Fin 1) d e (by decide))
    · exact head_agree x0 x1 x2 x3 x4 x5 x6 x7 x8 I b jt h0 h1 h2 h3 h4 h5 h6 h7 h8 xo9 2 256 (by decide) (by decide) slices_S512x1024_o0_256_S512x128 inb_S8x128_S1x128_2_0 inb_S1x8x128x128_S1x1x128x128_0_2_0_0 _
        (fun d e => Cert.Ops.ld_head_apply 2 xo9 inb_S1x8x128x128_S1x1x128x128_0_2_0_0 (0 : Fin 1) (0 : Fin 1) d e (by decide))
    · exact head_agree x0 x1 x2 x3 x4 x5 x6 x7 x8 I b jt h0 h1 h2 h3 h4 h5 h6 h7 h8 xo9 1 128 (by decide) (by decide) slices_S512x1024_o0_128_S512x128 inb_S8x128_S1x128_1_0 inb_S1x8x128x128_S1x1x128x128_0_1_0_0 _
        (fun d e => Cert.Ops.ld_head_apply 1 xo9 inb_S1x8x128x128_S1x1x128x128_0_1_0_0 (0 : Fin 1) (0 : Fin 1) d e (by decide))
    · exact head_agree x0 x1 x2 x3 x4 x5 x6 x7 x8 I b jt h0 h1 h2 h3 h4 h5 h6 h7 h8 xo9 0 0 (by decide) (by decide) slices_S512x1024_o0_0_S512x128 inb_S8x128_S1x128_0_0 inb_S1x8x128x128_S1x1x128x128_0_0_0_0 _
        (fun d e => Cert.Ops.ld_head_apply 0 xo9 inb_S1x8x128x128_S1x1x128x128_0_0_0_0 (0 : Fin 1) (0 : Fin 1) d e (by decide))
  · rfl

end Cert.ReferenceIdeal.Body0

end
-- ==== Proof.Ref0Arr.lean ====
/-
  The first region of the second program leaves the attention maps in its output array. The grid is sixteen batch
  members times four tiles of 512 rows, the tile index running fastest; the output block of a batch member is carried
  across its four points: reset and set to the first tile's products at the first, increased by the tile's products at
  each later one, and written back; so after the region, entry (b, h, d, e) is the sum over the four tiles of the
  tiles' contributions, which is the sum over all 2048 rows (Spec.amap).
-/
import proofs.«135597_g2000303815147335_pallasbulk_1180_1_alg».proof.Proof.Gen.ReferenceIdeal.Frame
import proofs.«135597_g2000303815147335_pallasbulk_1180_1_alg».proof.Proof.Spec
import proofs.«135597_g2000303815147335_pallasbulk_1180_1_alg».proof.Proof.SpecTile
import proofs.«135597_g2000303815147335_pallasbulk_1180_1_alg».proof.Proof.TileSum
import proofs.«135597_g2000303815147335_pallasbulk_1180_1_alg».proof.Proof.Ref0Body
import Idealize.ShloMosaic.Lib.Pipeline.Value

noncomputable section

open scoped BigOperators

namespace Cert.ReferenceIdeal.Arr0

open Idealize.ShloMosaic Idealize.ShloMosaic.TcCoe Idealize.ShloMosaic.ValueIdx Idealize.SL.Sem
open Cert.ReferenceIdeal Cert.ReferenceIdeal.Gen
open Idealize.ShloMosaic.Pipeline (Dat)

variable (V : (c : Dev nD) → (b : Ref sig .tc) → Buf (Elt Ideal) ((c : Thread nD τ).loc b))

/-! ## Where each window's block sits in its array -/

/-- The input rows' block at a point is (batch member, tile, 0): the tile index runs fastest. -/
theorem idx0 : ∀ t : Fin cfg0.N, win0_0.index t (0 : Fin 3) = t.val / 4 ∧ win0_0.index t (1 : Fin 3) = t.val % 4
    ∧ win0_0.index t (2 : Fin 3) = 0 :=
  (by decide +kernel : ∀ t : Fin grid0.N, _)
/-- The weights, biases and layer-norm parameters are single blocks: their block index never moves. -/
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
/-- The output's block at a point is the batch member's: the same for the four tiles. -/
theorem idx9 : ∀ t : Fin cfg0.N, win0_9.index t (0 : Fin 4) = t.val / 4 ∧ win0_9.index t (1 : Fin 4) = 0
    ∧ win0_9.index t (2 : Fin 4) = 0 ∧ win0_9.index t (3 : Fin 4) = 0 :=
  (by decide +kernel : ∀ t : Fin grid0.N, _)

/-! ## The input blocks, read off their arrays -/

/-- Row r, channel k of the rows' block at point t is row 512 jt + r of batch member b. -/
theorem blk0_read (c : Dev nD) (t : Fin cfg0.N) (b : Fin 16) (jt : Fin 4) (hb : b.val = t.val / 4) (hj : jt.val = t.val % 4)
    (r : Fin 512) (k : Fin 256) :
    (iblk0 V c 0 t : Vec Ideal S1x512x256 .f32) (ix3 (0 : Fin 1) r k) = V c main_arg0 (ix3 b (Cert.Spec.row jt r) k) := by
  obtain ⟨e0, e1, e2⟩ := idx0 t
  show V c main_arg0 (((cfg0.win 0).blk t).view.emb (ix3 (0 : Fin 1) r k)) = _
  refine congrArg (V c main_arg0) ?_
  funext a; apply Fin.ext
  match a with
  | ⟨0, _⟩ => show win0_0.index t (0 : Fin 3) * 1 + 1 * (0 : Nat) = b.val; omega
  | ⟨1, _⟩ => show win0_0.index t (1 : Fin 3) * 512 + 1 * r.val = 512 * jt.val + r.val; omega
  | ⟨2, _⟩ => show win0_0.index t (2 : Fin 3) * 256 + 1 * k.val = k.val; omega

theorem blk1_read (c : Dev nD) (t : Fin cfg0.N) (k : Fin 256) (j : Fin 1024) :
    (iblk0 V c 1 t : Vec Ideal S256x1024 .f32) (ix2 k j) = V c main_arg3 (ix2 k j) := by
  obtain ⟨e0, e1⟩ := idx1 t
  show V c main_arg3 (((cfg0.win 1).blk t).view.emb (ix2 k j)) = _
  refine congrArg (V c main_arg3) ?_
  funext a; apply Fin.ext
  match a with
  | ⟨0, _⟩ => show win0_1.index t (0 : Fin 2) * 256 + 1 * k.val = k.val; omega
  | ⟨1, _⟩ => show win0_1.index t (1 : Fin 2) * 1024 + 1 * j.val = j.val; omega

theorem blk2_read (c : Dev nD) (t : Fin cfg0.N) (j : Fin 1024) :
    (iblk0 V c 2 t : Vec Ideal S1x1024 .f32) (ix2 (0 : Fin 1) j) = V c main_arg4 (ix2 (0 : Fin 1) j) := by
  obtain ⟨e0, e1⟩ := idx2 t
  show V c main_arg4 (((cfg0.win 2).blk t).view.emb (ix2 (0 : Fin 1) j)) = _
  refine congrArg (V c main_arg4) ?_
  funext a; apply Fin.ext
  match a with
  | ⟨0, _⟩ => show win0_2.index t (0 : Fin 2) * 1 + 1 * (0 : Nat) = (0 : Nat); omega
  | ⟨1, _⟩ => show win0_2.index t (1 : Fin 2) * 1024 + 1 * j.val = j.val; omega

theorem blk3_read (c : Dev nD) (t : Fin cfg0.N) (k : Fin 256) (j : Fin 1024) :
    (iblk0 V c 3 t : Vec Ideal S256x1024 .f32) (ix2 k j) = V c main_arg5 (ix2 k j) := by
  obtain ⟨e0, e1⟩ := idx3 t
  show V c main_arg5 (((cfg0.win 3).blk t).view.emb (ix2 k j)) = _
  refine congrArg (V c main_arg5) ?_
  funext a; apply Fin.ext
  match a with
  | ⟨0, _⟩ => show win0_3.index t (0 : Fin 2) * 256 + 1 * k.val = k.val; omega
  | ⟨1, _⟩ => show win0_3.index t (1 : Fin 2) * 1024 + 1 * j.val = j.val; omega

theorem blk4_read (c : Dev nD) (t : Fin cfg0.N) (j : Fin 1024) :
    (iblk0 V c 4 t : Vec Ideal S1x1024 .f32) (ix2 (0 : Fin 1) j) = V c main_arg6 (ix2 (0 : Fin 1) j) := by
  obtain ⟨e0, e1⟩ := idx4 t
  show V c main_arg6 (((cfg0.win 4).blk t).view.emb (ix2 (0 : Fin 1) j)) = _
  refine congrArg (V c main_arg6) ?_
  funext a; apply Fin.ext
  match a with
  | ⟨0, _⟩ => show win0_4.index t (0 : Fin 2) * 1 + 1 * (0 : Nat) = (0 : Nat); omega
  | ⟨1, _⟩ => show win0_4.index t (1 : Fin 2) * 1024 + 1 * j.val = j.val; omega

theorem blk5_read (c : Dev nD) (t : Fin cfg0.N) (h : Fin 8) (d : Fin 128) :
    (iblk0 V c 5 t : Vec Ideal S8x128 .f32) (ix2 h d) = V c main_arg9 (ix2 h d) := by
  obtain ⟨e0, e1⟩ := idx5 t
  show V c main_arg9 (((cfg0.win 5).blk t).view.emb (ix2 h d)) = _
  refine congrArg (V c main_arg9) ?_
  funext a; apply Fin.ext
  match a with
  | ⟨0, _⟩ => show win0_5.index t (0 : Fin 2) * 8 + 1 * h.val = h.val; omega
  | ⟨1, _⟩ => show win0_5.index t (1 : Fin 2) * 128 + 1 * d.val = d.val; omega

theorem blk6_read (c : Dev nD) (t : Fin cfg0.N) (h : Fin 8) (d : Fin 128) :
    (iblk0 V c 6 t : Vec Ideal S8x128 .f32) (ix2 h d) = V c main_arg10 (ix2 h d) := by
  obtain ⟨e0, e1⟩ := idx6 t
  show V c main_arg10 (((cfg0.win 6).blk t).view.emb (ix2 h d)) = _
  refine congrArg (V c main_arg10) ?_
  funext a; apply Fin.ext
  match a with
  | ⟨0, _⟩ => show win0_6.index t (0 : Fin 2) * 8 + 1 * h.val = h.val; omega
  | ⟨1, _⟩ => show win0_6.index t (1 : Fin 2) * 128 + 1 * d.val = d.val; omega

theorem blk7_read (c : Dev nD) (t : Fin cfg0.N) (h : Fin 8) (d : Fin 128) :
    (iblk0 V c 7 t : Vec Ideal S8x128 .f32) (ix2 h d) = V c main_arg11 (ix2 h d) := by
  obtain ⟨e0, e1⟩ := idx7 t
  show V c main_arg11 (((cfg0.win 7).blk t).view.emb (ix2 h d)) = _
  refine congrArg (V c main_arg11) ?_
  funext a; apply Fin.ext
  match a with
  | ⟨0, _⟩ => show win0_7.index t (0 : Fin 2) * 8 + 1 * h.val = h.val; omega
  | ⟨1, _⟩ => show win0_7.index t (1 : Fin 2) * 128 + 1 * d.val = d.val; omega

theorem blk8_read (c : Dev nD) (t : Fin cfg0.N) (h : Fin 8) (d : Fin 128) :
    (iblk0 V c 8 t : Vec Ideal S8x128 .f32) (ix2 h d) = V c main_arg12 (ix2 h d) := by
  obtain ⟨e0, e1⟩ := idx8 t
  show V c main_arg12 (((cfg0.win 8).blk t).view.emb (ix2 h d)) = _
  refine congrArg (V c main_arg12) ?_
  funext a; apply Fin.ext
  match a with
  | ⟨0, _⟩ => show win0_8.index t (0 : Fin 2) * 8 + 1 * h.val = h.val; omega
  | ⟨1, _⟩ => show win0_8.index t (1 : Fin 2) * 128 + 1 * d.val = d.val; omega

/-! ## The running sum -/

/-- The inputs the arrays hold when the region is entered. -/
abbrev inp (c : Dev nD) : Cert.Spec.Inputs :=
  Cert.Spec.Inputs.ofArrays (V c main_arg0) (V c main_arg1) (V c main_arg2) (V c main_arg3) (V c main_arg4) (V c main_arg5) (V c main_arg6) (V c main_arg7) (V c main_arg8) (V c main_arg9) (V c main_arg10) (V c main_arg11) (V c main_arg12)

/-- The sum of the contributions of tiles 0 … j to a head's map, in the order they are accumulated. -/
def acc (I : Cert.Spec.Inputs) (b : Fin 16) (h : Fin 8) (d e : Fin 128) : ℕ → EReal
  | 0 => I.amapTile b h 0 d e
  | j + 1 => acc I b h d e j + I.amapTile b h ⟨(j + 1) % 4, Nat.mod_lt _ (by decide)⟩ d e

/-- After the fourth tile it is the whole map. -/
theorem acc_three (I : Cert.Spec.Inputs) (b : Fin 16) (h : Fin 8) (d e : Fin 128) : acc I b h d e 3 = I.amap b h d e :=
  (Cert.Spec.amap_eq_four I b h d e).symm

/-- At the first tile of a batch member the output block ends at that tile's contribution. -/
theorem stepA (c : Dev nD) (t : Fin cfg0.N) (h0 : t.val % 4 = 0) (b : Fin 16) (hb : b.val = t.val / 4) (jt : Fin 4)
    (hj : jt.val = t.val % 4) (h : Fin 8) (d e : Fin 128) :
    outsAt0 V c t.val t.isLt (ix4 (0 : Fin 1) h d e) = (inp V c).amapTile b h jt d e := by
  rw [outsAt0_A V c t h0]
  exact Body0.outA_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0)
    (iblk0 V c 0 t) (iblk0 V c 1 t) (iblk0 V c 2 t) (iblk0 V c 3 t) (iblk0 V c 4 t) (iblk0 V c 5 t) (iblk0 V c 6 t) (iblk0 V c 7 t) (iblk0 V c 8 t) (inp V c) b jt
    (fun r k => blk0_read V c t b jt hb hj r k) (fun k j => blk1_read V c t k j) (fun j => blk2_read V c t j) (fun k j => blk3_read V c t k j) (fun j => blk4_read V c t j) (fun h d => blk5_read V c t h d) (fun h d => blk6_read V c t h d) (fun h d => blk7_read V c t h d) (fun h d => blk8_read V c t h d) h d e

/-- At a later tile the tile's contribution is added to what the point before left. -/
theorem stepB (c : Dev nD) (t : Fin cfg0.N) (h0 : ¬t.val % 4 = 0) (b : Fin 16) (hb : b.val = t.val / 4) (jt : Fin 4)
    (hj : jt.val = t.val % 4) (h : Fin 8) (d e : Fin 128) :
    outsAt0 V c t.val t.isLt (ix4 (0 : Fin 1) h d e)
      = outsAt0 V c (t.val - 1) (Nat.lt_of_le_of_lt (Nat.sub_le _ _) t.isLt) (ix4 (0 : Fin 1) h d e) + (inp V c).amapTile b h jt d e := by
  rw [outsAt0_B V c t h0]
  exact Body0.outB_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun hc => h0 ((hcond0_0 t).mp hc))
    (iblk0 V c 0 t) (iblk0 V c 1 t) (iblk0 V c 2 t) (iblk0 V c 3 t) (iblk0 V c 4 t) (iblk0 V c 5 t) (iblk0 V c 6 t) (iblk0 V c 7 t) (iblk0 V c 8 t) (outsAt0 V c (t.val - 1) (Nat.lt_of_le_of_lt (Nat.sub_le _ _) t.isLt)) (inp V c) b jt
    (fun r k => blk0_read V c t b jt hb hj r k) (fun k j => blk1_read V c t k j) (fun j => blk2_read V c t j) (fun k j => blk3_read V c t k j) (fun j => blk4_read V c t j) (fun h d => blk5_read V c t h d) (fun h d => blk6_read V c t h d) (fun h d => blk7_read V c t h d) (fun h d => blk8_read V c t h d) h d e

/-- THE INVARIANT: after point n the output block of batch member n / 4 holds the sum of its tiles 0 … n mod 4. -/
theorem outs_eq (c : Dev nD) : ∀ (n : ℕ) (hn : n < cfg0.N) (b : Fin 16) (_ : b.val = n / 4) (h : Fin 8) (d e : Fin 128),
    outsAt0 V c n hn (ix4 (0 : Fin 1) h d e) = acc (inp V c) b h d e (n % 4) := by
  intro n
  induction n with
  | zero =>
    intro hn b hb h d e
    exact stepA V c ⟨0, hn⟩ rfl b hb 0 rfl h d e
  | succ n ih =>
    intro hn b hb h d e
    by_cases h0 : (n + 1) % 4 = 0
    · rw [h0]
      exact stepA V c ⟨n + 1, hn⟩ h0 b hb 0 h0.symm h d e
    · have hj : (n + 1) % 4 = n % 4 + 1 := by omega
      rw [hj]
      show _ = acc (inp V c) b h d e (n % 4) + (inp V c).amapTile b h ⟨(n % 4 + 1) % 4, Nat.mod_lt _ (by decide)⟩ d e
      rw [← ih (Nat.lt_of_succ_lt hn) b (by omega) h d e]
      exact stepB V c ⟨n + 1, hn⟩ h0 b hb ⟨(n % 4 + 1) % 4, Nat.mod_lt _ (by decide)⟩ (by show (n % 4 + 1) % 4 = (n + 1) % 4; omega) h d e

/-! ## The write-backs, and the array they leave -/

/-- Entry (0, h, d, e) of the output's block at point t is entry (b, h, d, e) of the array, b the point's batch member. -/
theorem blk9_emb (t : Fin cfg0.N) (b : Fin 16) (hb : b.val = t.val / 4) (h : Fin 8) (d e : Fin 128) :
    ((cfg0.win 9).blk t).view.emb (ix4 (0 : Fin 1) h d e) = (ix4 b h d e : S16x8x128x128.Idx) := by
  obtain ⟨e0, e1, e2, e3⟩ := idx9 t
  funext a; apply Fin.ext
  match a with
  | ⟨0, _⟩ => show win0_9.index t (0 : Fin 4) * 1 + 1 * (0 : Nat) = b.val; omega
  | ⟨1, _⟩ => show win0_9.index t (1 : Fin 4) * 8 + 1 * h.val = h.val; omega
  | ⟨2, _⟩ => show win0_9.index t (2 : Fin 4) * 128 + 1 * d.val = d.val; omega
  | ⟨3, _⟩ => show win0_9.index t (3 : Fin 4) * 128 + 1 * e.val = e.val; omega

/-- What a point that writes back (the last tile of a batch member) writes is its block of the array of maps. -/
theorem flushed_eq (c : Dev nD) (t : Fin cfg0.N) (hf : (cfg0.win 9).flush t = true) :
    (dat0 V c).flushed 9 t = ((cfg0.win 9).blk t).view.read (Elt Ideal) (inp V c).arrA := by
  have h3 : t.val % 4 = 3 := (flush0_9 t).mp hf
  have hN : t.val < 64 := lt_of_lt_of_eq t.isLt (show cfg0.N = 64 from N_0)
  show (cfg0.win 9).cut (grid0.coords t) ((dat0 V c).after 9 t) = _
  rw [after0_9]
  funext y
  obtain ⟨z, h, d, e, rfl⟩ : ∃ (z : Fin 1) (h : Fin 8) (d e : Fin 128), y = ix4 z h d e :=
    ⟨y 0, y 1, y 2, y 3, eq_ix4 (n0 := 1) (n1 := 8) (n2 := 128) (n3 := 128) y⟩
  obtain rfl : z = 0 := Subsingleton.elim _ _
  show outsAt0 V c t.val t.isLt (ix4 (0 : Fin 1) h d e) = (inp V c).arrA (((cfg0.win 9).blk t).view.emb (ix4 (0 : Fin 1) h d e))
  rw [blk9_emb t ⟨t.val / 4, by omega⟩ rfl h d e, outs_eq V c t.val t.isLt ⟨t.val / 4, by omega⟩ rfl h d e, h3, acc_three]
  rfl

/-- An entry of the array is in point t's block iff each coordinate is in the block's range on its axis. -/
theorem mem_blk9 (t : Fin cfg0.N) (i : S16x8x128x128.Idx) :
    i ∈ ((cfg0.win 9).blk t).view.set ↔ ∀ a : Fin 4, win0_9.index t a * S1x8x128x128.size a ≤ (i a).val ∧ (i a).val < win0_9.index t a * S1x8x128x128.size a + S1x8x128x128.size a := by
  show i ∈ ((View.whole main_v0).slice (win0_9.rect t)).set ↔ _
  rw [View.set_slice_whole, Rect.mem_set_unit]
  exact Iff.rfl

/-- Every entry of the array is in the block some batch member's last point writes back. -/
theorem cover (i : S16x8x128x128.Idx) :
    ∃ t : Fin cfg0.N, (cfg0.win 9).flush t = true ∧ i ∈ ((cfg0.win 9).blk t).view.set := by
  have hi0 : (i 0).val < 16 := (i 0).isLt
  have hi1 : (i 1).val < 8 := (i 1).isLt
  have hi2 : (i 2).val < 128 := (i 2).isLt
  have hi3 : (i 3).val < 128 := (i 3).isLt
  have hN : cfg0.N = 64 := N_0
  obtain ⟨t, ht⟩ : ∃ t : Fin cfg0.N, t.val = 4 * (i 0).val + 3 := ⟨⟨4 * (i 0).val + 3, by omega⟩, rfl⟩
  obtain ⟨e0, e1, e2, e3⟩ := idx9 t
  refine ⟨t, (flush0_9 t).mpr (by omega), ?_⟩
  rw [mem_blk9]
  intro a
  match a with
  | ⟨0, _⟩ => show win0_9.index t (0 : Fin 4) * 1 ≤ (i 0).val ∧ (i 0).val < win0_9.index t (0 : Fin 4) * 1 + 1; omega
  | ⟨1, _⟩ => show win0_9.index t (1 : Fin 4) * 8 ≤ (i 1).val ∧ (i 1).val < win0_9.index t (1 : Fin 4) * 8 + 8; omega
  | ⟨2, _⟩ => show win0_9.index t (2 : Fin 4) * 128 ≤ (i 2).val ∧ (i 2).val < win0_9.index t (2 : Fin 4) * 128 + 128; omega
  | ⟨3, _⟩ => show win0_9.index t (3 : Fin 4) * 128 ≤ (i 3).val ∧ (i 3).val < win0_9.index t (3 : Fin 4) * 128 + 128; omega

/-- After region 0, entered at the contents `V`, its output array holds the attention maps of the inputs `V` holds. -/
theorem amap_arr (c : Dev nD) :
    (dat0 V c).arrAt 9 cfg0.N = (Cert.Spec.Inputs.ofArrays (V c main_arg0) (V c main_arg1) (V c main_arg2) (V c main_arg3) (V c main_arg4) (V c main_arg5) (V c main_arg6) (V c main_arg7) (V c main_arg8) (V c main_arg9) (V c main_arg10) (V c main_arg11) (V c main_arg12)).arrA :=
  (dat0 V c).arrAt_eq_of_cover 9 (inp V c).arrA (flushed_eq V c) cover

end Cert.ReferenceIdeal.Arr0

end
-- ==== Proof.Ref1Body.lean ====
/-
  What one grid point of the second region of the second program computes: from the point's tile of 512 input rows of
  batch member b, that member's eight attention maps, the query weight and bias and the output weight and bias, the
  block it stores is the second arrangement of the attention output (Spec.outR) at those rows.
-/
import proofs.«135597_g2000303815147335_pallasbulk_1180_1_alg».proof.Proof.Gen.ReferenceIdeal.Frame
import proofs.«135597_g2000303815147335_pallasbulk_1180_1_alg».proof.Proof.Spec
import proofs.«135597_g2000303815147335_pallasbulk_1180_1_alg».proof.Proof.SpecTile
import proofs.«135597_g2000303815147335_pallasbulk_1180_1_alg».proof.Proof.OpsLn
import proofs.«135597_g2000303815147335_pallasbulk_1180_1_alg».proof.Proof.OpsLayout

noncomputable section

open scoped BigOperators

namespace Cert.ReferenceIdeal.Body1

open Idealize.ShloMosaic Idealize.ShloMosaic.TcCoe Idealize.ShloMosaic.ValueIdx Cert.ReferenceIdeal Cert.ReferenceIdeal.Gen

section Clean

variable {F : FTy → Type} [FloatOps F]

/-- One head's term: the 128 columns of q from column o on, times the head's map, times the head's rows of the
    output weight; both products into a zero accumulator. -/
def headTerm {o : ℕ} (q : FVec F S512x1024 .f32) (hs : S512x1024.Slices ![0, o] S512x128)
    (m : Vec F S1x1x128x128 .f32) (w : Vec F S128x128 .f32) : FVec F S512x128 .f32 :=
  matmul dot_S512x128_S128x128_S512x128_1_0_0_1_n_n none
    (matmul dot_S512x128_S128x128_S512x128_1_0_0_1_n_n none (extractStridedSlice S512x128 ![0, o] q hs)
      (shapeCast S128x128 m shapeCasts_S1x1x128x128_S128x128) (constant S512x128 .f32 0x00000000#32))
    w (constant S512x128 .f32 0x00000000#32)

/-- The end of the body: the output bias is added to every row, the result is scaled by 1/2048 and cast to a
    one-member stack. -/
def finish (acc : FVec F S512x128 .f32) (bo : Vec F S1x128 .f32) : FVec F S1x512x128 .f32 :=
  shapeCast S1x512x128 (mulf (addf acc (broadcastTo S512x128 bo broadcasts_S1x128_S512x128))
    (broadcast S512x128 (Scalar.ofBits .f32 0x3A000000#32))) shapeCasts_S512x128_S1x512x128

/-- The body's value is the eight heads' terms added one after the other to zero, then finished. -/
theorem body_eq (L0 : Vec F S1x512x256 .f32) (L2 : Vec F S256x1024 .f32) (L3 : Vec F S1x1024 .f32)
    (M0 M1 M2 M3 M4 M5 M6 M7 : Vec F S1x1x128x128 .f32) (W0 W1 W2 W3 W4 W5 W6 W7 : Vec F S128x128 .f32) (B : Vec F S1x128 .f32) :
    k1_pay1 (k1_pay2 L0 L2 L3) (k1_pay5 (k1_pay2 L0 L2 L3) (k1_pay3 L0 L2 L3 M0 W0 M1 W1) (k1_pay4 L0 L2 L3 M2) W2 M3 W3 M4 W4 M5 W5) (k1_pay6 (k1_pay2 L0 L2 L3) M6) W6 M7 W7 B
      = finish (addf (addf (addf (addf (addf (addf (addf (addf (broadcast S512x128 (Scalar.ofBits .f32 0x00000000#32)) (headTerm (k1_pay2 L0 L2 L3) slices_S512x1024_o0_0_S512x128 M0 W0)) (headTerm (k1_pay2 L0 L2 L3) slices_S512x1024_o0_128_S512x128 M1 W1)) (headTerm (k1_pay2 L0 L2 L3) slices_S512x1024_o0_256_S512x128 M2 W2)) (headTerm (k1_pay2 L0 L2 L3) slices_S512x1024_o0_384_S512x128 M3 W3)) (headTerm (k1_pay2 L0 L2 L3) slices_S512x1024_o0_512_S512x128 M4 W4)) (headTerm (k1_pay2 L0 L2 L3) slices_S512x1024_o0_640_S512x128 M5 W5)) (headTerm (k1_pay2 L0 L2 L3) slices_S512x1024_o0_768_S512x128 M6 W6)) (headTerm (k1_pay2 L0 L2 L3) slices_S512x1024_o0_896_S512x128 M7 W7)) B := rfl

end Clean

/-! ## The clean pieces read at an entry -/

/-- Column d of head h among the packed columns, from the head's first column o = 128 h. -/
theorem hcol_eq (hn : ℕ) (hh : hn < 8) (o : ℕ) (ho : o = 128 * hn) (d : Fin 128) (hlt : o + d.val < 1024) :
    (⟨o + d.val, hlt⟩ : Fin 1024) = Cert.Spec.hcol ⟨hn, hh⟩ d :=
  Fin.ext (by show o + d.val = hn * 128 + d.val; omega)

/-- The query projection at row r, column j: the row of x against column j of the weight, plus the bias. -/
theorem q_apply (L0 : Vec Ideal S1x512x256 .f32) (L2 : Vec Ideal S256x1024 .f32) (L3 : Vec Ideal S1x1024 .f32)
    (r : Fin 512) (j : Fin 1024) :
    k1_pay2 L0 L2 L3 (ix2 r j) = (∑ k : Fin 256, L0 (ix3 (0 : Fin 1) r k) * L2 (ix2 k j)) + L3 (ix2 (0 : Fin 1) j) := by
  unfold k1_pay2
  refine congrArg₂ (· + ·) ?_ (broadcastTo_1b_ab_apply L3 broadcasts_S1x1024_S512x1024 r j)
  refine (Cert.Ops.matmul_plain_apply dot_S512x256_S256x1024_S512x1024_1_0_0_1_n_n rfl rfl rfl rfl rfl rfl none _ L2 r j).trans ?_
  exact Finset.sum_congr rfl fun k _ =>
    congrArg (· * L2 (ix2 k j)) (Cert.Ops.shapeCast_1ab_ab_apply L0 shapeCasts_S1x512x256_S512x256 r k)

/-- One head's term at row r, channel c: the sum over e of (the sum over d of q at the head's column d times the map
    at (d, e)) times the weight at (e, c). -/
theorem headTerm_apply {o : ℕ} (q : FVec Ideal S512x1024 .f32) (hs : S512x1024.Slices ![0, o] S512x128)
    (m : Vec Ideal S1x1x128x128 .f32) (w : Vec Ideal S128x128 .f32) (ho : o + 128 ≤ 1024) (r : Fin 512) (c : Fin 128) :
    headTerm q hs m w (ix2 r c)
      = ∑ e : Fin 128, (∑ d : Fin 128, q (ix2 r ⟨o + d.val, by have := d.isLt; omega⟩) * m (ix4 (0 : Fin 1) (0 : Fin 1) d e))
          * w (ix2 e c) := by
  unfold headTerm
  refine (Cert.Ops.matmul_plain_apply dot_S512x128_S128x128_S512x128_1_0_0_1_n_n rfl rfl rfl rfl rfl rfl none _ w r c).trans ?_
  refine Finset.sum_congr rfl fun e _ => congrArg (· * w (ix2 e c)) ?_
  refine (Cert.Ops.matmul_plain_apply dot_S512x128_S128x128_S512x128_1_0_0_1_n_n rfl rfl rfl rfl rfl rfl none _ _ r e).trans ?_
  exact Finset.sum_congr rfl fun d _ => congrArg₂ (· * ·)
    (Cert.Ops.slice_cols_apply o q hs r d (by have := d.isLt; omega))
    (Cert.Ops.shapeCast_11ab_ab_apply m shapeCasts_S1x1x128x128_S128x128 d e)

/-- The finished block at (0, r, c): the accumulator plus the bias, times 1/2048. -/
theorem finish_apply (acc : FVec Ideal S512x128 .f32) (bo : Vec Ideal S1x128 .f32) (r : Fin 512) (c : Fin 128) :
    finish acc bo (ix3 (0 : Fin 1) r c) = (acc (ix2 r c) + bo (ix2 (0 : Fin 1) c)) * Cert.Spec.invN := by
  unfold finish
  refine (Cert.Ops.shapeCast_ab_1ab_apply _ shapeCasts_S512x128_S1x512x128 (0 : Fin 1) r c).trans ?_
  exact congrArg (fun t => (acc (ix2 r c) + t) * Cert.Spec.invN) (broadcastTo_1b_ab_apply bo broadcasts_S1x128_S512x128 r c)

/-- The stored block at row r, channel c is the second arrangement's output at row (jt, r) of batch member b. -/
theorem out_apply (x0 : Vec Ideal S1x512x256 .f32) (x1 : Vec Ideal S1x8x128x128 .f32) (x2 : Vec Ideal S256x1024 .f32)
    (x3 : Vec Ideal S1x1024 .f32) (x4 : Vec Ideal S1024x128 .f32) (x5 : Vec Ideal S1x128 .f32)
    (I : Cert.Spec.Inputs) (b : Fin 16) (jt : Fin 4)
    (h0 : ∀ (r : Fin 512) (k : Fin 256), x0 (ix3 (0 : Fin 1) r k) = I.X b (Cert.Spec.row jt r) k)
    (h1 : ∀ (h : Fin 8) (d e : Fin 128), x1 (ix4 (0 : Fin 1) h d e) = I.amap b h d e)
    (h2 : ∀ (k : Fin 256) (j : Fin 1024), x2 (ix2 k j) = I.Wq k j)
    (h3 : ∀ j : Fin 1024, x3 (ix2 (0 : Fin 1) j) = I.bq j)
    (h4 : ∀ (j : Fin 1024) (c : Fin 128), x4 (ix2 j c) = I.Wo j c)
    (h5 : ∀ c : Fin 128, x5 (ix2 (0 : Fin 1) c) = I.bo c)
    (r : Fin 512) (c : Fin 128) :
    out1_6 x0 x1 x2 x3 x4 x5 (ix3 (0 : Fin 1) r c) = I.outR b (Cert.Spec.row jt r) c := by
  have hz3 : (![0, 0, 0] : Fin 3 → ℕ) = fun _ => 0 := funext fun a => by fin_cases a <;> rfl
  have hz2 : (![0, 0] : Fin 2 → ℕ) = fun _ => 0 := funext fun a => by fin_cases a <;> rfl
  have e0 : View.ld x0 r1_0 = x0 := View.ld_unit_zero (S := S1x512x256) hz3 _ x0
  have e2 : View.ld x2 r1_1 = x2 := View.ld_unit_zero (S := S256x1024) hz2 _ x2
  have e3 : View.ld x3 r1_2 = x3 := View.ld_unit_zero (S := S1x1024) hz2 _ x3
  have e5 : View.ld x5 r1_19 = x5 := View.ld_unit_zero (S := S1x128) hz2 _ x5
  -- the query projection at row r
  have hq : ∀ j : Fin 1024, k1_pay2 (View.ld x0 r1_0) (View.ld x2 r1_1) (View.ld x3 r1_2) (ix2 r j)
      = Cert.Spec.proj (I.X b (Cert.Spec.row jt r)) I.Wq I.bq j := by
    intro j
    rw [e0, e2, e3]
    refine (q_apply x0 x2 x3 r j).trans ?_
    unfold Cert.Spec.proj
    rw [h3 j]
    exact congrArg (· + I.bq j) (Finset.sum_congr rfl fun k _ => by rw [h0 r k, h2 k j])
  -- one head's term
  have ht : ∀ (hn : ℕ) (hh : hn < 8) (o : ℕ) (ho : o = 128 * hn) (hs : S512x1024.Slices ![0, o] S512x128)
      (inbM : ∀ ax, (![0, hn, 0, 0] : Fin 4 → ℕ) ax + S1x1x128x128.size ax ≤ S1x8x128x128.size ax)
      (inbW : ∀ ax, (![o, 0] : Fin 2 → ℕ) ax + S128x128.size ax ≤ S1024x128.size ax),
      headTerm (k1_pay2 (View.ld x0 r1_0) (View.ld x2 r1_1) (View.ld x3 r1_2)) hs
          (View.ld x1 (Rect.unit (s := S1x8x128x128) ![0, hn, 0, 0] S1x1x128x128.size inbM))
          (View.ld x4 (Rect.unit (s := S1024x128) ![o, 0] S128x128.size inbW)) (ix2 r c)
        = ∑ e : Fin 128, (∑ d : Fin 128, Cert.Spec.proj (I.X b (Cert.Spec.row jt r)) I.Wq I.bq (Cert.Spec.hcol ⟨hn, hh⟩ d)
            * I.amap b ⟨hn, hh⟩ d e) * I.Wo (Cert.Spec.hcol ⟨hn, hh⟩ e) c := by
    intro hn hh o ho hs inbM inbW
    refine (headTerm_apply _ hs _ _ (by omega) r c).trans ?_
    refine Finset.sum_congr rfl fun e _ => congrArg₂ (· * ·) (Finset.sum_congr rfl fun d _ => congrArg₂ (· * ·) ?_ ?_) ?_
    · rw [hq, hcol_eq hn hh o ho d]
    · exact (Cert.Ops.ld_head_apply hn x1 inbM 0 0 d e hh).trans (h1 ⟨hn, hh⟩ d e)
    · refine (Cert.Ops.ld_rows_apply o x4 inbW e c (by have := e.isLt; omega)).trans ?_
      rw [h4, hcol_eq hn hh o ho e]
  unfold out1_6
  refine (congrFun (View.canon_unit_zero (S := S1x512x128) hz3 _ _) (ix3 (0 : Fin 1) r c)).trans ?_
  refine (congrFun (body_eq (F := Ideal) _ _ _ _ _ _ _ _ _ _ _ _ _ _ _ _ _ _ _ _) (ix3 (0 : Fin 1) r c)).trans ?_
  refine (finish_apply _ _ r c).trans ?_
  unfold Cert.Spec.Inputs.outR
  rw [Fin.sum_univ_eight, e5, h5 c]
  refine congrArg (fun t => (t + I.bo c) * Cert.Spec.invN) ?_
  refine (congrArg₂ (· + ·) (congrArg₂ (· + ·) (congrArg₂ (· + ·) (congrArg₂ (· + ·) (congrArg₂ (· + ·) (congrArg₂ (· + ·) (congrArg₂ (· + ·) (congrArg₂ (· + ·) Ideal.ofBits_zero_f32 (ht 0 (by omega) 0 rfl _ _ _))
      (ht 1 (by omega) 128 rfl _ _ _))
      (ht 2 (by omega) 256 rfl _ _ _))
      (ht 3 (by omega) 384 rfl _ _ _))
      (ht 4 (by omega) 512 rfl _ _ _))
      (ht 5 (by omega) 640 rfl _ _ _))
      (ht 6 (by omega) 768 rfl _ _ _))
      (ht 7 (by omega) 896 rfl _ _ _)).trans ?_
  rw [zero_add]
  rfl

end Cert.ReferenceIdeal.Body1

end
-- ==== Proof.Ref1Arr.lean ====
/-
  The second region of the second program writes the result array. Grid point (b, jt) stores, through the output
  window, the block of rows 512 jt … 512 jt + 511 of batch member b, whose entries are the second arrangement's output
  (Spec.outR) when the intermediate array it reads holds the attention maps; the sixty-four blocks cover the array.
-/
import proofs.«135597_g2000303815147335_pallasbulk_1180_1_alg».proof.Proof.Gen.ReferenceIdeal.Frame
import proofs.«135597_g2000303815147335_pallasbulk_1180_1_alg».proof.Proof.Spec
import proofs.«135597_g2000303815147335_pallasbulk_1180_1_alg».proof.Proof.SpecTile
import proofs.«135597_g2000303815147335_pallasbulk_1180_1_alg».proof.Proof.Ref1Body
import Idealize.ShloMosaic.Lib.Pipeline.Value

noncomputable section

open scoped BigOperators

namespace Cert.ReferenceIdeal.Arr1

open Idealize.ShloMosaic Idealize.ShloMosaic.TcCoe Idealize.ShloMosaic.ValueIdx Idealize.SL.Sem
open Cert.ReferenceIdeal Cert.ReferenceIdeal.Gen
open Idealize.ShloMosaic.Pipeline (Dat)

variable (V : (c : Dev nD) → (b : Ref sig .tc) → Buf (Elt Ideal) ((c : Thread nD τ).loc b))

/-- The printed index maps over the sixty-four grid points t = 4 b + jt: the row tile and the result block sit at
    (b, jt, 0), the attention maps at (b, 0, 0, 0), the weights and biases at the origin. -/
theorem idx_facts : ∀ t : Fin cfg1.N,
    win1_0.index t (0 : Fin 3) = t.val / 4 ∧ win1_0.index t (1 : Fin 3) = t.val % 4 ∧ win1_0.index t (2 : Fin 3) = 0
    ∧ win1_1.index t (0 : Fin 4) = t.val / 4 ∧ win1_1.index t (1 : Fin 4) = 0 ∧ win1_1.index t (2 : Fin 4) = 0 ∧ win1_1.index t (3 : Fin 4) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 3) = t.val / 4 ∧ win1_6.index t (1 : Fin 3) = t.val % 4 ∧ win1_6.index t (2 : Fin 3) = 0 :=
  (by decide +kernel : ∀ t : Fin grid1.N, _)

/-- The inputs the argument arrays hold. -/
abbrev inputs (c : Dev nD) : Cert.Spec.Inputs :=
  Cert.Spec.Inputs.ofArrays (V c main_arg0) (V c main_arg1) (V c main_arg2) (V c main_arg3) (V c main_arg4) (V c main_arg5) (V c main_arg6) (V c main_arg7) (V c main_arg8) (V c main_arg9) (V c main_arg10) (V c main_arg11) (V c main_arg12)

/-! ## The blocks the point t = 4 b + jt reads

A block's coordinate in its array is the block index times the block size plus the coordinate inside the block. -/

/-- The tile of 512 input rows: rows 512 jt … 512 jt + 511 of batch member b. -/
theorem blk0_apply (c : Dev nD) (t : Fin cfg1.N) (b : Fin 16) (jt : Fin 4) (hb : b.val = t.val / 4) (hjt : jt.val = t.val % 4)
    (r : Fin 512) (k : Fin 256) :
    (iblk1 V c 0 t : Vec Ideal S1x512x256 .f32) (ix3 (0 : Fin 1) r k)
      = (V c main_arg0 : S16x2048x256.Idx → EReal) (ix3 b (Cert.Spec.row jt r) k) := by
  obtain ⟨e0, e1, e2, -⟩ := idx_facts t
  unfold iblk1
  rw [View.read_apply]
  show V c main_arg0 _ = V c main_arg0 _
  congr 1
  funext a
  apply Fin.ext
  match a with
  | ⟨0, _⟩ => show win1_0.index t (0 : Fin 3) * 1 + 1 * 0 = b.val; omega
  | ⟨1, _⟩ => show win1_0.index t (1 : Fin 3) * 512 + 1 * r.val = 512 * jt.val + r.val; omega
  | ⟨2, _⟩ => show win1_0.index t (2 : Fin 3) * 256 + 1 * k.val = k.val; omega

/-- The eight maps of batch member b in the intermediate array. -/
theorem blk1_apply (c : Dev nD) (t : Fin cfg1.N) (b : Fin 16) (hb : b.val = t.val / 4) (h : Fin 8) (d e : Fin 128) :
    (iblk1 V c 1 t : Vec Ideal S1x8x128x128 .f32) (ix4 (0 : Fin 1) h d e)
      = (V c main_v0 : S16x8x128x128.Idx → EReal) (ix4 b h d e) := by
  obtain ⟨-, -, -, e0, e1, e2, e3, -⟩ := idx_facts t
  unfold iblk1
  rw [View.read_apply]
  show V c main_v0 _ = V c main_v0 _
  congr 1
  funext a
  apply Fin.ext
  match a with
  | ⟨0, _⟩ => show win1_1.index t (0 : Fin 4) * 1 + 1 * 0 = b.val; omega
  | ⟨1, _⟩ => show win1_1.index t (1 : Fin 4) * 8 + 1 * h.val = h.val; omega
  | ⟨2, _⟩ => show win1_1.index t (2 : Fin 4) * 128 + 1 * d.val = d.val; omega
  | ⟨3, _⟩ => show win1_1.index t (3 : Fin 4) * 128 + 1 * e.val = e.val; omega

/-- The whole query weight. -/
theorem blk2_apply (c : Dev nD) (t : Fin cfg1.N) (k : Fin 256) (j : Fin 1024) :
    (iblk1 V c 2 t : Vec Ideal S256x1024 .f32) (ix2 k j) = (V c main_arg1 : S256x1024.Idx → EReal) (ix2 k j) := by
  obtain ⟨-, -, -, -, -, -, -, e0, e1, -⟩ := idx_facts t
  unfold iblk1
  rw [View.read_apply]
  show V c main_arg1 _ = V c main_arg1 _
  congr 1
  funext a
  apply Fin.ext
  match a with
  | ⟨0, _⟩ => show win1_2.index t (0 : Fin 2) * 256 + 1 * k.val = k.val; omega
  | ⟨1, _⟩ => show win1_2.index t (1 : Fin 2) * 1024 + 1 * j.val = j.val; omega

/-- The whole query bias. -/
theorem blk3_apply (c : Dev nD) (t : Fin cfg1.N) (j : Fin 1024) :
    (iblk1 V c 3 t : Vec Ideal S1x1024 .f32) (ix2 (0 : Fin 1) j) = (V c main_arg2 : S1x1024.Idx → EReal) (ix2 (0 : Fin 1) j) := by
  obtain ⟨-, -, -, -, -, -, -, -, -, e0, e1, -⟩ := idx_facts t
  unfold iblk1
  rw [View.read_apply]
  show V c main_arg2 _ = V c main_arg2 _
  congr 1
  funext a
  apply Fin.ext
  match a with
  | ⟨0, _⟩ => show win1_3.index t (0 : Fin 2) * 1 + 1 * 0 = 0; omega
  | ⟨1, _⟩ => show win1_3.index t (1 : Fin 2) * 1024 + 1 * j.val = j.val; omega

/-- The whole output weight. -/
theorem blk4_apply (c : Dev nD) (t : Fin cfg1.N) (j : Fin 1024) (ch : Fin 128) :
    (iblk1 V c 4 t : Vec Ideal S1024x128 .f32) (ix2 j ch) = (V c main_arg7 : S1024x128.Idx → EReal) (ix2 j ch) := by
  obtain ⟨-, -, -, -, -, -, -, -, -, -, -, e0, e1, -⟩ := idx_facts t
  unfold iblk1
  rw [View.read_apply]
  show V c main_arg7 _ = V c main_arg7 _
  congr 1
  funext a
  apply Fin.ext
  match a with
  | ⟨0, _⟩ => show win1_4.index t (0 : Fin 2) * 1024 + 1 * j.val = j.val; omega
  | ⟨1, _⟩ => show win1_4.index t (1 : Fin 2) * 128 + 1 * ch.val = ch.val; omega

/-- The whole output bias. -/
theorem blk5_apply (c : Dev nD) (t : Fin cfg1.N) (ch : Fin 128) :
    (iblk1 V c 5 t : Vec Ideal S1x128 .f32) (ix2 (0 : Fin 1) ch) = (V c main_arg8 : S1x128.Idx → EReal) (ix2 (0 : Fin 1) ch) := by
  obtain ⟨-, -, -, -, -, -, -, -, -, -, -, -, -, e0, e1, -⟩ := idx_facts t
  unfold iblk1
  rw [View.read_apply]
  show V c main_arg8 _ = V c main_arg8 _
  congr 1
  funext a
  apply Fin.ext
  match a with
  | ⟨0, _⟩ => show win1_5.index t (0 : Fin 2) * 1 + 1 * 0 = 0; omega
  | ⟨1, _⟩ => show win1_5.index t (1 : Fin 2) * 128 + 1 * ch.val = ch.val; omega

/-! ## What the point stores -/

/-- The block the point t = 4 b + jt leaves in the output window's buffer, at row r and channel ch, is the second
    arrangement's output at row 512 jt + r of batch member b, when the intermediate array holds the attention maps. -/
theorem stored_apply (c : Dev nD) (hA : V c main_v0 = (inputs V c).arrA) (t : Fin cfg1.N) (b : Fin 16) (jt : Fin 4)
    (hb : b.val = t.val / 4) (hjt : jt.val = t.val % 4) (r : Fin 512) (ch : Fin 128) :
    out1_6 (iblk1 V c 0 t) (iblk1 V c 1 t) (iblk1 V c 2 t) (iblk1 V c 3 t) (iblk1 V c 4 t) (iblk1 V c 5 t) (ix3 (0 : Fin 1) r ch)
      = (inputs V c).outR b (Cert.Spec.row jt r) ch :=
  Cert.ReferenceIdeal.Body1.out_apply (iblk1 V c 0 t) (iblk1 V c 1 t) (iblk1 V c 2 t) (iblk1 V c 3 t) (iblk1 V c 4 t) (iblk1 V c 5 t)
    (inputs V c) b jt
    (fun r k => blk0_apply V c t b jt hb hjt r k)
    (fun h d e => (blk1_apply V c t b hb h d e).trans (congrFun hA (ix4 b h d e)))
    (fun k j => blk2_apply V c t k j)
    (fun j => blk3_apply V c t j)
    (fun j ch => blk4_apply V c t j ch)
    (fun ch => blk5_apply V c t ch)
    r ch

/-- The same at any index y of the block (its leading coordinate is 0). -/
theorem stored_at (c : Dev nD) (hA : V c main_v0 = (inputs V c).arrA) (t : Fin cfg1.N) (b : Fin 16) (jt : Fin 4)
    (hb : b.val = t.val / 4) (hjt : jt.val = t.val % 4) (y : S1x512x128.Idx) :
    out1_6 (iblk1 V c 0 t) (iblk1 V c 1 t) (iblk1 V c 2 t) (iblk1 V c 3 t) (iblk1 V c 4 t) (iblk1 V c 5 t) y
      = (inputs V c).outR b (Cert.Spec.row jt (y 1)) (y 2) := by
  have h0 : y 0 = (0 : Fin 1) := Fin.ext (by have h : (y 0).val < 1 := (y 0).isLt; show (y 0).val = 0; omega)
  have e : y = ix3 (0 : Fin 1) (y 1) (y 2) := by
    have := eq_ix3 y
    rw [h0] at this
    exact this
  exact (congrArg (out1_6 (iblk1 V c 0 t) (iblk1 V c 1 t) (iblk1 V c 2 t) (iblk1 V c 3 t) (iblk1 V c 4 t) (iblk1 V c 5 t)) e).trans
    (stored_apply V c hA t b jt hb hjt (y 1) (y 2))

/-! ## From the blocks to the array -/

/-- What the point t writes back is its block of the second arrangement's result array. -/
theorem flushed_eq (c : Dev nD) (hA : V c main_v0 = (inputs V c).arrA) (t : Fin cfg1.N) :
    (dat1 V c).flushed 6 t = ((cfg1.win 6).blk t).view.read (Elt Ideal) (inputs V c).arrR := by
  have hN : t.val < 64 := lt_of_lt_of_eq t.isLt N_1
  obtain ⟨-, -, -, -, -, -, -, -, -, -, -, -, -, -, -, e0, e1, e2⟩ := idx_facts t
  show (cfg1.win 6).cut (grid1.coords t) ((dat1 V c).after 6 t) = _
  rw [after1_6]
  funext j
  show out1_6 (iblk1 V c 0 t) (iblk1 V c 1 t) (iblk1 V c 2 t) (iblk1 V c 3 t) (iblk1 V c 4 t) (iblk1 V c 5 t) j
    = (inputs V c).arrR (((cfg1.win 6).blk t).view.emb j)
  refine (stored_at V c hA t ⟨t.val / 4, by omega⟩ ⟨t.val % 4, by omega⟩ rfl rfl j).trans ?_
  show (inputs V c).arrR (ix3 (⟨t.val / 4, by omega⟩ : Fin 16) (Cert.Spec.row (⟨t.val % 4, by omega⟩ : Fin 4) (j 1)) (j 2))
    = (inputs V c).arrR (((cfg1.win 6).blk t).view.emb j)
  refine congrArg (inputs V c).arrR (funext fun a => Fin.ext ?_)
  have hj0 : (j 0).val < 1 := (j 0).isLt
  match a with
  | ⟨0, _⟩ => show t.val / 4 = win1_6.index t (0 : Fin 3) * 1 + 1 * (j 0).val; omega
  | ⟨1, _⟩ => show 512 * (t.val % 4) + (j 1).val = win1_6.index t (1 : Fin 3) * 512 + 1 * (j 1).val; omega
  | ⟨2, _⟩ => show (j 2).val = win1_6.index t (2 : Fin 3) * 128 + 1 * (j 2).val; omega

/-- An index of the result array is in the point t's block iff each coordinate is in the block's range on its axis. -/
theorem mem_blk (t : Fin cfg1.N) (i : S16x2048x128.Idx) :
    i ∈ ((cfg1.win 6).blk t).view.set ↔ ∀ a : Fin 3, win1_6.index t a * S1x512x128.size a ≤ (i a).val
      ∧ (i a).val < win1_6.index t a * S1x512x128.size a + S1x512x128.size a := by
  show i ∈ ((View.whole main_v1).slice (win1_6.rect t)).set ↔ _
  rw [View.set_slice_whole, Rect.mem_set_unit]
  exact Iff.rfl

/-- The sixty-four blocks cover the result array: row r of batch member b is in the block of the point 4 b + r / 512. -/
theorem cover (i : S16x2048x128.Idx) :
    ∃ t : Fin cfg1.N, (cfg1.win 6).flush t = true ∧ i ∈ ((cfg1.win 6).blk t).view.set := by
  have h0 : (i 0).val < 16 := (i 0).isLt
  have h1 : (i 1).val < 2048 := (i 1).isLt
  have h2 : (i 2).val < 128 := (i 2).isLt
  have hN : cfg1.N = 64 := N_1
  obtain ⟨t, ht⟩ : ∃ t : Fin cfg1.N, t.val = 4 * (i 0).val + (i 1).val / 512 := ⟨⟨_, by rw [hN]; omega⟩, rfl⟩
  obtain ⟨-, -, -, -, -, -, -, -, -, -, -, -, -, -, -, e0, e1, e2⟩ := idx_facts t
  refine ⟨t, flush1_6 t, ?_⟩
  rw [mem_blk]
  intro a
  match a with
  | ⟨0, _⟩ => show win1_6.index t (0 : Fin 3) * 1 ≤ (i 0).val ∧ (i 0).val < win1_6.index t (0 : Fin 3) * 1 + 1; omega
  | ⟨1, _⟩ => show win1_6.index t (1 : Fin 3) * 512 ≤ (i 1).val ∧ (i 1).val < win1_6.index t (1 : Fin 3) * 512 + 512; omega
  | ⟨2, _⟩ => show win1_6.index t (2 : Fin 3) * 128 ≤ (i 2).val ∧ (i 2).val < win1_6.index t (2 : Fin 3) * 128 + 128; omega

/-- After region 1, entered at contents `V` whose intermediate array holds the attention maps of the inputs `V`
    holds, its output array is the second arrangement's output of those inputs. -/
theorem out_arr (c : Dev nD)
    (hA : V c main_v0 = (Cert.Spec.Inputs.ofArrays (V c main_arg0) (V c main_arg1) (V c main_arg2) (V c main_arg3) (V c main_arg4) (V c main_arg5) (V c main_arg6) (V c main_arg7) (V c main_arg8) (V c main_arg9) (V c main_arg10) (V c main_arg11) (V c main_arg12)).arrA) :
    (dat1 V c).arrAt 6 cfg1.N = (Cert.Spec.Inputs.ofArrays (V c main_arg0) (V c main_arg1) (V c main_arg2) (V c main_arg3) (V c main_arg4) (V c main_arg5) (V c main_arg6) (V c main_arg7) (V c main_arg8) (V c main_arg9) (V c main_arg10) (V c main_arg11) (V c main_arg12)).arrR :=
  (dat1 V c).arrAt_eq_of_cover 6 (inputs V c).arrR (fun t _ => flushed_eq V c hA t) cover

end Cert.ReferenceIdeal.Arr1

end
-- ==== Proof.RefArr.lean ====
/-
  The second program's result array: region 0 leaves the attention maps of the launch inputs in the intermediate array,
  no argument array is changed by it, so region 1 is entered with those maps and the launch inputs and leaves the second
  arrangement's output (Spec.outR) in the result array.
-/
import proofs.«135597_g2000303815147335_pallasbulk_1180_1_alg».proof.Proof.RefRun
import proofs.«135597_g2000303815147335_pallasbulk_1180_1_alg».proof.Proof.Ref0Arr
import proofs.«135597_g2000303815147335_pallasbulk_1180_1_alg».proof.Proof.Ref1Arr
import proofs.«135597_g2000303815147335_pallasbulk_1180_1_alg».proof.Proof.Spec
import proofs.«135597_g2000303815147335_pallasbulk_1180_1_alg».proof.Proof.SpecTile

noncomputable section

namespace Cert.ReferenceIdeal.Arr

open Idealize.ShloMosaic Idealize.ShloMosaic.TcCoe Idealize.ShloMosaic.ValueIdx Idealize.SL.Sem
open Cert.ReferenceIdeal Cert.ReferenceIdeal.Gen
open Idealize.ShloMosaic.Pipeline (Dat)

variable (m : (ℓ : Loc nD τ sig) → Buf (Elt Ideal) ℓ) (ρ : Dev nD → PrngReg)

/-- The inputs as the memory `m` holds them on core `c`. -/
def inputs (c : Dev nD) : Cert.Spec.Inputs :=
  Cert.Spec.Inputs.ofArrays
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12))

/-! Region 1 is entered with every argument array as launched: region 0 stages some of them through input windows and
    writes none back. -/
theorem V1_main_arg0 (c : Dev nD) : V1 m ρ c main_arg0 = m ((c : Thread nD τ).loc main_arg0) :=
  ((W1_arr m ρ c 0).trans (((dat0 (V0 m ρ) c).arrAt_in 0 rfl _).trans (A_eq0 (V0 m ρ) c 0)) : W1 m ρ c (Proc.devRef .tc main_arg0) = W0 m ρ c (Proc.devRef .tc main_arg0)).trans rfl
theorem V1_main_arg1 (c : Dev nD) : V1 m ρ c main_arg1 = m ((c : Thread nD τ).loc main_arg1) :=
  (W1_of_ne m ρ c main_arg1 (by decide) : W1 m ρ c (Proc.devRef .tc main_arg1) = W0 m ρ c (Proc.devRef .tc main_arg1)).trans rfl
theorem V1_main_arg2 (c : Dev nD) : V1 m ρ c main_arg2 = m ((c : Thread nD τ).loc main_arg2) :=
  (W1_of_ne m ρ c main_arg2 (by decide) : W1 m ρ c (Proc.devRef .tc main_arg2) = W0 m ρ c (Proc.devRef .tc main_arg2)).trans rfl
theorem V1_main_arg3 (c : Dev nD) : V1 m ρ c main_arg3 = m ((c : Thread nD τ).loc main_arg3) :=
  ((W1_arr m ρ c 1).trans (((dat0 (V0 m ρ) c).arrAt_in 1 rfl _).trans (A_eq0 (V0 m ρ) c 1)) : W1 m ρ c (Proc.devRef .tc main_arg3) = W0 m ρ c (Proc.devRef .tc main_arg3)).trans rfl
theorem V1_main_arg4 (c : Dev nD) : V1 m ρ c main_arg4 = m ((c : Thread nD τ).loc main_arg4) :=
  ((W1_arr m ρ c 2).trans (((dat0 (V0 m ρ) c).arrAt_in 2 rfl _).trans (A_eq0 (V0 m ρ) c 2)) : W1 m ρ c (Proc.devRef .tc main_arg4) = W0 m ρ c (Proc.devRef .tc main_arg4)).trans rfl
theorem V1_main_arg5 (c : Dev nD) : V1 m ρ c main_arg5 = m ((c : Thread nD τ).loc main_arg5) :=
  ((W1_arr m ρ c 3).trans (((dat0 (V0 m ρ) c).arrAt_in 3 rfl _).trans (A_eq0 (V0 m ρ) c 3)) : W1 m ρ c (Proc.devRef .tc main_arg5) = W0 m ρ c (Proc.devRef .tc main_arg5)).trans rfl
theorem V1_main_arg6 (c : Dev nD) : V1 m ρ c main_arg6 = m ((c : Thread nD τ).loc main_arg6) :=
  ((W1_arr m ρ c 4).trans (((dat0 (V0 m ρ) c).arrAt_in 4 rfl _).trans (A_eq0 (V0 m ρ) c 4)) : W1 m ρ c (Proc.devRef .tc main_arg6) = W0 m ρ c (Proc.devRef .tc main_arg6)).trans rfl
theorem V1_main_arg7 (c : Dev nD) : V1 m ρ c main_arg7 = m ((c : Thread nD τ).loc main_arg7) :=
  (W1_of_ne m ρ c main_arg7 (by decide) : W1 m ρ c (Proc.devRef .tc main_arg7) = W0 m ρ c (Proc.devRef .tc main_arg7)).trans rfl
theorem V1_main_arg8 (c : Dev nD) : V1 m ρ c main_arg8 = m ((c : Thread nD τ).loc main_arg8) :=
  (W1_of_ne m ρ c main_arg8 (by decide) : W1 m ρ c (Proc.devRef .tc main_arg8) = W0 m ρ c (Proc.devRef .tc main_arg8)).trans rfl
theorem V1_main_arg9 (c : Dev nD) : V1 m ρ c main_arg9 = m ((c : Thread nD τ).loc main_arg9) :=
  ((W1_arr m ρ c 5).trans (((dat0 (V0 m ρ) c).arrAt_in 5 rfl _).trans (A_eq0 (V0 m ρ) c 5)) : W1 m ρ c (Proc.devRef .tc main_arg9) = W0 m ρ c (Proc.devRef .tc main_arg9)).trans rfl
theorem V1_main_arg10 (c : Dev nD) : V1 m ρ c main_arg10 = m ((c : Thread nD τ).loc main_arg10) :=
  ((W1_arr m ρ c 6).trans (((dat0 (V0 m ρ) c).arrAt_in 6 rfl _).trans (A_eq0 (V0 m ρ) c 6)) : W1 m ρ c (Proc.devRef .tc main_arg10) = W0 m ρ c (Proc.devRef .tc main_arg10)).trans rfl
theorem V1_main_arg11 (c : Dev nD) : V1 m ρ c main_arg11 = m ((c : Thread nD τ).loc main_arg11) :=
  ((W1_arr m ρ c 7).trans (((dat0 (V0 m ρ) c).arrAt_in 7 rfl _).trans (A_eq0 (V0 m ρ) c 7)) : W1 m ρ c (Proc.devRef .tc main_arg11) = W0 m ρ c (Proc.devRef .tc main_arg11)).trans rfl
theorem V1_main_arg12 (c : Dev nD) : V1 m ρ c main_arg12 = m ((c : Thread nD τ).loc main_arg12) :=
  ((W1_arr m ρ c 8).trans (((dat0 (V0 m ρ) c).arrAt_in 8 rfl _).trans (A_eq0 (V0 m ρ) c 8)) : W1 m ρ c (Proc.devRef .tc main_arg12) = W0 m ρ c (Proc.devRef .tc main_arg12)).trans rfl

/-- Region 1 is entered with the intermediate array at what region 0's pipeline leaves in its output window. -/
theorem V1_main_v0 (c : Dev nD) : V1 m ρ c main_v0 = (dat0 (V0 m ρ) c).arrAt 9 cfg0.N := W1_arr m ρ c 9

/-- After both regions the result array is the second arrangement's output of the launch inputs. -/
theorem final (c : Dev nD) : (dat1 (V1 m ρ) c).arrAt 6 cfg1.N = (inputs m c).arrR := by
  have h := Cert.ReferenceIdeal.Arr1.out_arr (V1 m ρ) c
  rw [V1_main_arg0, V1_main_arg1, V1_main_arg2, V1_main_arg3, V1_main_arg4, V1_main_arg5, V1_main_arg6, V1_main_arg7,
    V1_main_arg8, V1_main_arg9, V1_main_arg10, V1_main_arg11, V1_main_arg12] at h
  refine h ?_
  rw [V1_main_v0]
  exact Cert.ReferenceIdeal.Arr0.amap_arr (V0 m ρ) c

/-- The run: every weakly fair execution ends with the result array at that function and the arguments unchanged. -/
theorem run : θ_run defs (onTc (τ := τ) (main (F := Ideal))) ⟨m, fun _ => 0, ρ⟩ (fun r => ∀ c : Dev nD,
      r.2.mem ((c.tc : Thread nD τ).loc main_v1) = (inputs m c).arrR
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c).1.trans (final m ρ c), (h c).2⟩) (Cert.ReferenceIdeal.RefRun.run_arr m ρ)

end Cert.ReferenceIdeal.Arr

end
-- ==== Proof.lean ====
/-
  Galerkin attention in one fused program against the two-pass program, over the extended reals.

  Both programs compute, for each batch member, out = ((x Wq + bq) blockdiag_h(A_h) Wo + bo) / n with
  A_h = LN(K_h)ᵀ LN(V_h) summed over all rows. The fused program folds the maps through Wo and Wq into one effective
  weight and bias per batch member and applies them to x; the two-pass program accumulates the maps over four row
  tiles, then applies the query row head by head. The two arrangements differ by distributivity and reassociation of
  finite sums, which hold on the extended reals once every quantity is a real number: that is where the precondition
  (all inputs finite) is used — it makes the projections, the layer norms (variance plus a positive epsilon is
  positive, so its reciprocal square root is real) and the maps real.
  The three frames are the generated ones; the idealization rewrote nothing.
-/
import proofs.«135597_g2000303815147335_pallasbulk_1180_1_alg».proof.Defs
import proofs.«135597_g2000303815147335_pallasbulk_1180_1_alg».proof.Proof.Gen.Kernel
import proofs.«135597_g2000303815147335_pallasbulk_1180_1_alg».proof.Proof.Gen.Kernel.Skeleton
import proofs.«135597_g2000303815147335_pallasbulk_1180_1_alg».proof.Proof.Gen.Kernel.Launch
import proofs.«135597_g2000303815147335_pallasbulk_1180_1_alg».proof.Proof.Gen.Kernel.Points
import proofs.«135597_g2000303815147335_pallasbulk_1180_1_alg».proof.Proof.Gen.Kernel.Frame
import proofs.«135597_g2000303815147335_pallasbulk_1180_1_alg».proof.Proof.Gen.KernelIdeal
import proofs.«135597_g2000303815147335_pallasbulk_1180_1_alg».proof.Proof.Gen.KernelIdeal.Skeleton
import proofs.«135597_g2000303815147335_pallasbulk_1180_1_alg».proof.Proof.Gen.KernelIdeal.Launch
import proofs.«135597_g2000303815147335_pallasbulk_1180_1_alg».proof.Proof.Gen.KernelIdeal.Points
import proofs.«135597_g2000303815147335_pallasbulk_1180_1_alg».proof.Proof.Gen.KernelIdeal.Frame
import proofs.«135597_g2000303815147335_pallasbulk_1180_1_alg».proof.Proof.Gen.ReferenceIdeal
import proofs.«135597_g2000303815147335_pallasbulk_1180_1_alg».proof.Proof.Gen.ReferenceIdeal.Skeleton
import proofs.«135597_g2000303815147335_pallasbulk_1180_1_alg».proof.Proof.Gen.ReferenceIdeal.Launch
import proofs.«135597_g2000303815147335_pallasbulk_1180_1_alg».proof.Proof.Gen.ReferenceIdeal.Points
import proofs.«135597_g2000303815147335_pallasbulk_1180_1_alg».proof.Proof.Gen.ReferenceIdeal.Frame
import proofs.«135597_g2000303815147335_pallasbulk_1180_1_alg».proof.Proof.Gen.Pre_finite_inputs
import proofs.«135597_g2000303815147335_pallasbulk_1180_1_alg».proof.Proof.Spec
import proofs.«135597_g2000303815147335_pallasbulk_1180_1_alg».proof.Proof.SpecTile
import proofs.«135597_g2000303815147335_pallasbulk_1180_1_alg».proof.Proof.Algebra
import proofs.«135597_g2000303815147335_pallasbulk_1180_1_alg».proof.Proof.Finite
import proofs.«135597_g2000303815147335_pallasbulk_1180_1_alg».proof.Proof.KernelArr
import proofs.«135597_g2000303815147335_pallasbulk_1180_1_alg».proof.Proof.RefArr
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- From memories that agree on the arguments the two programs read the same inputs. -/
theorem inputs_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (e12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Cert.ReferenceIdeal.Arr.inputs m' c = Cert.KernelIdeal.Arr.inputs m c := by
  unfold Cert.ReferenceIdeal.Arr.inputs Cert.KernelIdeal.Arr.inputs
  rw [e0, e1, e2, e3, e4, e5, e6, e7, e8, e9, e10, e11, e12]

/-- The fused program ends at the first arrangement of the output, the two-pass program at the second, of the same
    real inputs: equal entry by entry. -/
theorem algebraic : Cert.algebraic_KernelIdeal_ReferenceIdeal := by
  intro m ρ m' ρ' hpre hagree
  refine ⟨fun c => (Cert.KernelIdeal.Arr.inputs m c).arrK, Cert.KernelIdeal.Arr.run m ρ, ?_⟩
  refine (θ_run Cert.ReferenceIdeal.defs _ _).mono (fun r h c => ⟨(h c).1.trans ?_, (h c).2⟩)
    (Cert.ReferenceIdeal.Arr.run m' ρ')
  obtain ⟨e0, e1, e2, e3, e4, e5, e6, e7, e8, e9, e10, e11, e12⟩ := hagree c
  rw [inputs_eq m m' c e0 e1 e2 e3 e4 e5 e6 e7 e8 e9 e10 e11 e12]
  have hfin : (Cert.KernelIdeal.Arr.inputs m c).Finite := Cert.Finite.finite_of_fn _ _ _ _ _ _ _ _ _ _ _ _ _ (hpre c)
  funext i
  exact (Cert.Spec.outK_eq_outR _ hfin (i 0) (i 1) (i 2)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
